-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S2x3200000 : Shape := ⟨2, ![2, 3200000]⟩
abbrev S3200000 : Shape := ⟨1, ![3200000]⟩
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S100000 : Shape := ⟨1, ![100000]⟩
abbrev S50000 : Shape := ⟨1, ![50000]⟩
abbrev S_ : Shape := ⟨0, ![]⟩

class Facts : Prop where
  bcast_S_S3200000 : S_.BroadcastsInDim S3200000 (![] : Fin 0 → Fin S3200000.rank)
  reducesTo_S3200000_S_d0 : S3200000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S100000 : S_.BroadcastsInDim S100000 (![] : Fin 0 → Fin S100000.rank)
  reducesTo_S100000_S_d0 : S100000.ReducesTo [0] S_
  bcast_S_S50000 : S_.BroadcastsInDim S50000 (![] : Fin 0 → Fin S50000.rank)
  reducesTo_S50000_S_d0 : S50000.ReducesTo [0] S_
  reducesTo_S_S_d : S_.ReducesTo [] S_
  bcast_S_S16384 : S_.BroadcastsInDim S16384 (![] : Fin 0 → Fin S16384.rank)
  reducesTo_S16384_S_d0 : S16384.ReducesTo [0] S_

variable [Facts]

def fn_part5 {F : FTy → Type} [FloatOps F] (main_arg1 : IVec S16384 32) (main_v84 : IVec S_ 1) : IVec S_ 1 :=
  let main_c_33 : IVec S_ 32 := constantI S_ 32 0#32
  let main_v85 : IVec S16384 32 := broadcastInDim S16384 ![] bcast_S_S16384 main_c_33
  let main_v86 : IVec S16384 1 := cmpi .sge main_arg1 main_v85
  let main_c_34 : IVec S_ 32 := constantI S_ 32 50000#32
  let main_v87 : IVec S16384 32 := broadcastInDim S16384 ![] bcast_S_S16384 main_c_34
  let main_v88 : IVec S16384 1 := cmpi .slt main_arg1 main_v87
  let main_v89 : IVec S16384 1 := andi main_v86 main_v88
  let main_c_35 : IVec S_ 1 := constantI S_ 1 1#1
  let main_v90 : IVec S_ 1 := (fun x v => Host.reduce IntOp.andi x v reducesTo_S16384_S_d0 h_S_) main_v89 main_c_35
  let main_v91 : IVec S_ 1 := andi main_v84 main_v90
  main_v91

def fn_part4 {F : FTy → Type} [FloatOps F] (main_arg0 : IVec S16384 32) (main_arg1 : IVec S16384 32) (main_arg17 : FVec F S50000 .f32) (main_arg18 : FVec F S_ .f32) (main_v63 : IVec S_ 1) (main_v67 : IVec S_ 1) : IVec S_ 1 :=
  let main_v68 : IVec S_ 1 := andi main_v63 main_v67
  let main_v69 : FVec F S50000 .f32 := Host.absf main_arg17
  let main_cst_26 : FVec F S_ .f32 := constant S_ .f32 0x7F800000#32
  let main_v70 : FVec F S50000 .f32 := broadcastInDim S50000 ![] bcast_S_S50000 main_cst_26
  let main_v71 : IVec S50000 1 := cmpf .olt main_v69 main_v70
  let main_c_27 : IVec S_ 1 := constantI S_ 1 1#1
  let main_v72 : IVec S_ 1 := (fun x v => Host.reduce IntOp.andi x v reducesTo_S50000_S_d0 h_S_) main_v71 main_c_27
  let main_v73 : IVec S_ 1 := andi main_v68 main_v72
  let main_v74 : FVec F S_ .f32 := Host.absf main_arg18
  let main_cst_28 : FVec F S_ .f32 := constant S_ .f32 0x7F800000#32
  let main_v75 : IVec S_ 1 := cmpf .olt main_v74 main_cst_28
  let main_c_29 : IVec S_ 1 := constantI S_ 1 1#1
  let main_v76 : IVec S_ 1 := (fun x v => Host.reduce IntOp.andi x v reducesTo_S_S_d h_S_) main_v75 main_c_29
  let main_v77 : IVec S_ 1 := andi main_v73 main_v76
  let main_c_30 : IVec S_ 32 := constantI S_ 32 0#32
  let main_v78 : IVec S16384 32 := broadcastInDim S16384 ![] bcast_S_S16384 main_c_30
  let main_v79 : IVec S16384 1 := cmpi .sge main_arg0 main_v78
  let main_c_31 : IVec S_ 32 := constantI S_ 32 100000#32
  let main_v80 : IVec S16384 32 := broadcastInDim S16384 ![] bcast_S_S16384 main_c_31
  let main_v81 : IVec S16384 1 := cmpi .slt main_arg0 main_v80
  let main_v82 : IVec S16384 1 := andi main_v79 main_v81
  let main_c_32 : IVec S_ 1 := constantI S_ 1 1#1
  let main_v83 : IVec S_ 1 := (fun x v => Host.reduce IntOp.andi x v reducesTo_S16384_S_d0 h_S_) main_v82 main_c_32
  let main_v84 : IVec S_ 1 := andi main_v77 main_v83
  fn_part5 (F := F) main_arg1 main_v84

def fn_part3 {F : FTy → Type} [FloatOps F] (main_arg0 : IVec S16384 32) (main_arg1 : IVec S16384 32) (main_arg14 : FVec F S64x64 .f32) (main_arg15 : FVec F S64 .f32) (main_arg16 : FVec F S100000 .f32) (main_arg17 : FVec F S50000 .f32) (main_arg18 : FVec F S_ .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg14
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg15
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S100000 .f32 := Host.absf main_arg16
  let main_cst_24 : FVec F S_ .f32 := constant S_ .f32 0x7F800000#32
  let main_v65 : FVec F S100000 .f32 := broadcastInDim S100000 ![] bcast_S_S100000 main_cst_24
  let main_v66 : IVec S100000 1 := cmpf .olt main_v64 main_v65
  let main_c_25 : IVec S_ 1 := constantI S_ 1 1#1
  let main_v67 : IVec S_ 1 := (fun x v => Host.reduce IntOp.andi x v reducesTo_S100000_S_d0 h_S_) main_v66 main_c_25
  fn_part4 (F := F) main_arg0 main_arg1 main_arg17 main_arg18 main_v63 main_v67

def fn_part2 {F : FTy → Type} [FloatOps F] (main_arg0 : IVec S16384 32) (main_arg1 : IVec S16384 32) (main_arg10 : FVec F S64x64 .f32) (main_arg11 : FVec F S64 .f32) (main_arg12 : FVec F S64 .f32) (main_arg13 : FVec F S64 .f32) (main_arg14 : FVec F S64x64 .f32) (main_arg15 : FVec F S64 .f32) (main_arg16 : FVec F S100000 .f32) (main_arg17 : FVec F S50000 .f32) (main_arg18 : FVec F S_ .f32) (main_v33 : IVec S_ 1) : IVec S_ 1 :=
  let main_v34 : FVec F S64x64 .f32 := Host.absf main_arg10
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_arg0 main_arg1 main_arg14 main_arg15 main_arg16 main_arg17 main_arg18 main_v48 main_v49 main_v50

def fn_part1 {F : FTy → Type} [FloatOps F] (main_arg0 : IVec S16384 32) (main_arg1 : IVec S16384 32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x64 .f32) (main_arg15 : FVec F S64 .f32) (main_arg16 : FVec F S100000 .f32) (main_arg17 : FVec F S50000 .f32) (main_arg18 : FVec F S_ .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_arg1 main_arg10 main_arg11 main_arg12 main_arg13 main_arg14 main_arg15 main_arg16 main_arg17 main_arg18 main_v33

def fn {F : FTy → Type} [FloatOps F] (main_arg0 : IVec S16384 32) (main_arg1 : IVec S16384 32) (main_arg2 : IVec S2x3200000 32) (main_arg3 : FVec F S3200000 .f32) (main_arg4 : FVec F S100000x64 .f32) (main_arg5 : FVec F S50000x64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x64 .f32) (main_arg15 : FVec F S64 .f32) (main_arg16 : FVec F S100000 .f32) (main_arg17 : FVec F S50000 .f32) (main_arg18 : FVec F S_ .f32) : IVec S_ 1 :=
  let main_v0 : FVec F S3200000 .f32 := Host.absf main_arg3
  let main_cst : FVec F S_ .f32 := constant S_ .f32 0x7F800000#32
  let main_v1 : FVec F S3200000 .f32 := broadcastInDim S3200000 ![] bcast_S_S3200000 main_cst
  let main_v2 : IVec S3200000 1 := cmpf .olt main_v0 main_v1
  let main_c : IVec S_ 1 := constantI S_ 1 1#1
  let main_v3 : IVec S_ 1 := (fun x v => Host.reduce IntOp.andi x v reducesTo_S3200000_S_d0 h_S_) main_v2 main_c
  let main_v4 : FVec F S100000x64 .f32 := Host.absf main_arg4
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S50000x64 .f32 := Host.absf main_arg5
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg0 main_arg1 main_arg7 main_arg8 main_arg9 main_arg10 main_arg11 main_arg12 main_arg13 main_arg14 main_arg15 main_arg16 main_arg17 main_arg18 main_v13 main_v16
-- ==== Kernel.lean ====
abbrev S16384 : Shape := ⟨1, ![16384]⟩
abbrev S2x3200000 : Shape := ⟨2, ![2, 3200000]⟩
abbrev S3200000 : Shape := ⟨1, ![3200000]⟩
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S100000 : Shape := ⟨1, ![100000]⟩
abbrev S50000 : Shape := ⟨1, ![50000]⟩
abbrev S_ : Shape := ⟨0, ![]⟩
abbrev S150000x64 : Shape := ⟨2, ![150000, 64]⟩
abbrev S150000 : Shape := ⟨1, ![150000]⟩
abbrev S1x3200000 : Shape := ⟨2, ![1, 3200000]⟩
abbrev S3350000 : Shape := ⟨1, ![3350000]⟩
abbrev S3350000x1 : Shape := ⟨2, ![3350000, 1]⟩
abbrev S150000x1 : Shape := ⟨2, ![150000, 1]⟩
abbrev S3000x64 : Shape := ⟨2, ![3000, 64]⟩
abbrev S3000x1 : Shape := ⟨2, ![3000, 1]⟩
abbrev S3350000x64 : Shape := ⟨2, ![3350000, 64]⟩
abbrev S1x64 : Shape := ⟨2, ![1, 64]⟩
abbrev S3000 : Shape := ⟨1, ![3000]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 172
  | .vmem => 32
  | .smem => 0
  | _ => 0

abbrev hbmTy0_0 (i : Nat) : BufTy := match i % 128 with
  | 0 => ⟨S16384, .i32⟩
  | 1 => ⟨S16384, .i32⟩
  | 2 => ⟨S2x3200000, .i32⟩
  | 3 => ⟨S3200000, .f32⟩
  | 4 => ⟨S100000x64, .f32⟩
  | 5 => ⟨S50000x64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64x64, .f32⟩
  | 15 => ⟨S64, .f32⟩
  | 16 => ⟨S100000, .f32⟩
  | 17 => ⟨S50000, .f32⟩
  | 18 => ⟨S_, .f32⟩
  | 19 => ⟨S150000x64, .f32⟩
  | 20 => ⟨S150000, .i32⟩
  | 21 => ⟨S1x3200000, .i32⟩
  | 22 => ⟨S3200000, .i32⟩
  | 23 => ⟨S3350000, .i32⟩
  | 24 => ⟨S1x3200000, .i32⟩
  | 25 => ⟨S3200000, .i32⟩
  | 26 => ⟨S3350000, .i32⟩
  | 27 => ⟨S_, .f32⟩
  | 28 => ⟨S150000, .f32⟩
  | 29 => ⟨S3350000, .f32⟩
  | 30 => ⟨S_, .f32⟩
  | 31 => ⟨S150000, .f32⟩
  | 32 => ⟨S3350000x1, .i32⟩
  | 33 => ⟨S150000, .f32⟩
  | 34 => ⟨S_, .f32⟩
  | 35 => ⟨S150000, .f32⟩
  | 36 => ⟨S150000, .i1⟩
  | 37 => ⟨S150000, .f32⟩
  | 38 => ⟨S_, .f32⟩
  | 39 => ⟨S_, .f32⟩
  | 40 => ⟨S150000, .f32⟩
  | 41 => ⟨S150000, .f32⟩
  | 42 => ⟨S_, .i32⟩
  | 43 => ⟨S3350000, .i32⟩
  | 44 => ⟨S3350000, .i1⟩
  | 45 => ⟨S_, .i32⟩
  | 46 => ⟨S3350000, .i32⟩
  | 47 => ⟨S3350000, .i32⟩
  | 48 => ⟨S3350000, .i32⟩
  | 49 => ⟨S3350000x1, .i32⟩
  | 50 => ⟨S3350000, .f32⟩
  | 51 => ⟨S3350000, .f32⟩
  | 52 => ⟨S150000x1, .f32⟩
  | 53 => ⟨S150000x64, .bf16⟩
  | 54 => ⟨S3350000x1, .f32⟩
  | 55 => ⟨S_, .i32⟩
  | 56 => ⟨S3350000, .i32⟩
  | 57 => ⟨S3350000, .i1⟩
  | 58 => ⟨S_, .i32⟩
  | 59 => ⟨S3350000, .i32⟩
  | 60 => ⟨S3350000, .i32⟩
  | 61 => ⟨S3350000, .i32⟩
  | 62 => ⟨S3350000x1, .i32⟩
  | 63 => ⟨S3350000x64, .bf16⟩
  | 64 => ⟨S3350000x64, .f32⟩
  | 65 => ⟨S3350000x64, .f32⟩
  | 66 => ⟨S3350000x64, .f32⟩
  | 67 => ⟨S_, .f32⟩
  | 68 => ⟨S150000x64, .f32⟩
  | 69 => ⟨S3350000x1, .i32⟩
  | 70 => ⟨S150000x64, .f32⟩
  | 71 => ⟨S150000x64, .f32⟩
  | 72 => ⟨S150000x64, .bf16⟩
  | 73 => ⟨S3350000x1, .f32⟩
  | 74 => ⟨S_, .i32⟩
  | 75 => ⟨S3350000, .i32⟩
  | 76 => ⟨S3350000, .i1⟩
  | 77 => ⟨S_, .i32⟩
  | 78 => ⟨S3350000, .i32⟩
  | 79 => ⟨S3350000, .i32⟩
  | 80 => ⟨S3350000, .i32⟩
  | 81 => ⟨S3350000x1, .i32⟩
  | 82 => ⟨S3350000x64, .bf16⟩
  | 83 => ⟨S3350000x64, .f32⟩
  | 84 => ⟨S3350000x64, .f32⟩
  | 85 => ⟨S3350000x64, .f32⟩
  | 86 => ⟨S_, .f32⟩
  | 87 => ⟨S150000x64, .f32⟩
  | 88 => ⟨S3350000x1, .i32⟩
  | 89 => ⟨S150000x64, .f32⟩
  | 90 => ⟨S150000x64, .f32⟩
  | 91 => ⟨S100000x64, .f32⟩
  | 92 => ⟨S50000x64, .f32⟩
  | 93 => ⟨S_, .i32⟩
  | 94 => ⟨S16384, .i32⟩
  | 95 => ⟨S16384, .i1⟩
  | 96 => ⟨S_, .i32⟩
  | 97 => ⟨S16384, .i32⟩
  | 98 => ⟨S16384, .i32⟩
  | 99 => ⟨S16384, .i32⟩
  | 100 => ⟨S16384x1, .i32⟩
  | 101 => ⟨S1, .i32⟩
  | 102 => ⟨S_, .i32⟩
  | 103 => ⟨S16384x1, .i32⟩
  | 104 => ⟨S16384x1, .i1⟩
  | 105 => ⟨S1x1, .i32⟩
  | 106 => ⟨S16384x1, .i32⟩
  | 107 => ⟨S16384x1, .i1⟩
  | 108 => ⟨S16384x1, .i1⟩
  | 109 => ⟨S_, .i1⟩
  | 110 => ⟨S16384, .i1⟩
  | 111 => ⟨S16384x64, .f32⟩
  | 112 => ⟨S16384x64, .i1⟩
  | 113 => ⟨S_, .f32⟩
  | 114 => ⟨S16384x64, .f32⟩
  | 115 => ⟨S16384x64, .f32⟩
  | 116 => ⟨S_, .i32⟩
  | 117 => ⟨S16384, .i32⟩
  | 118 => ⟨S16384, .i1⟩
  | 119 => ⟨S_, .i32⟩
  | 120 => ⟨S16384, .i32⟩
  | 121 => ⟨S16384, .i32⟩
  | 122 => ⟨S16384, .i32⟩
  | 123 => ⟨S16384x1, .i32⟩
  | 124 => ⟨S1, .i32⟩
  | 125 => ⟨S_, .i32⟩
  | 126 => ⟨S16384x1, .i32⟩
  | 127 => ⟨S16384x1, .i1⟩
  | _ => ⟨S16384, .i32⟩

abbrev hbmTy0_1 (i : Nat) : BufTy := match i % 128 with
  | 0 => ⟨S1x1, .i32⟩
  | 1 => ⟨S16384x1, .i32⟩
  | 2 => ⟨S16384x1, .i1⟩
  | 3 => ⟨S16384x1, .i1⟩
  | 4 => ⟨S_, .i1⟩
  | 5 => ⟨S16384, .i1⟩
  | 6 => ⟨S16384x64, .f32⟩
  | 7 => ⟨S16384x64, .i1⟩
  | 8 => ⟨S_, .f32⟩
  | 9 => ⟨S16384x64, .f32⟩
  | 10 => ⟨S16384x64, .f32⟩
  | 11 => ⟨S16384x64, .f32⟩
  | 12 => ⟨S_, .f32⟩
  | 13 => ⟨S16384, .f32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S16384, .f32⟩
  | 23 => ⟨S16384, .f32⟩
  | 24 => ⟨S_, .i32⟩
  | 25 => ⟨S16384, .i32⟩
  | 26 => ⟨S16384, .i1⟩
  | 27 => ⟨S_, .i32⟩
  | 28 => ⟨S16384, .i32⟩
  | 29 => ⟨S16384, .i32⟩
  | 30 => ⟨S16384, .i32⟩
  | 31 => ⟨S16384x1, .i32⟩
  | 32 => ⟨S16384, .f32⟩
  | 33 => ⟨S16384, .f32⟩
  | 34 => ⟨S16384, .f32⟩
  | 35 => ⟨S16384, .f32⟩
  | 36 => ⟨S_, .f32⟩
  | 37 => ⟨S_, .f32⟩
  | 38 => ⟨S_, .f32⟩
  | 39 => ⟨S16384, .f32⟩
  | 40 => ⟨S16384, .f32⟩
  | 41 => ⟨S_, .f32⟩
  | 42 => ⟨S16384, .f32⟩
  | 43 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | .local _ .vmem, ⟨0, _⟩ => ⟨S3000x64, .f32⟩
  | .local _ .vmem, ⟨1, _⟩ => ⟨S3000x64, .f32⟩
  | .local _ .vmem, ⟨2, _⟩ => ⟨S64x64, .f32⟩
  | .local _ .vmem, ⟨3, _⟩ => ⟨S3000x1, .f32⟩
  | .local _ .vmem, ⟨4, _⟩ => ⟨S3000x1, .f32⟩
  | .local _ .vmem, ⟨5, _⟩ => ⟨S3000x64, .bf16⟩
  | .local _ .vmem, ⟨6, _⟩ => ⟨S3000x64, .bf16⟩
  | .local _ .vmem, ⟨7, _⟩ => ⟨S3000x64, .f32⟩
  | .local _ .vmem, ⟨8, _⟩ => ⟨S3000x64, .f32⟩
  | .local _ .vmem, ⟨9, _⟩ => ⟨S64, .f32⟩
  | .local _ .vmem, ⟨10, _⟩ => ⟨S3000x64, .f32⟩
  | .local _ .vmem, ⟨11, _⟩ => ⟨S3000x64, .f32⟩
  | .local _ .vmem, ⟨12, _⟩ => ⟨S64, .f32⟩
  | .local _ .vmem, ⟨13, _⟩ => ⟨S64, .f32⟩
  | .local _ .vmem, ⟨14, _⟩ => ⟨S64x64, .f32⟩
  | .local _ .vmem, ⟨15, _⟩ => ⟨S3000x1, .f32⟩
  | .local _ .vmem, ⟨16, _⟩ => ⟨S3000x1, .f32⟩
  | .local _ .vmem, ⟨17, _⟩ => ⟨S3000x64, .f32⟩
  | .local _ .vmem, ⟨18, _⟩ => ⟨S3000x64, .f32⟩
  | .local _ .vmem, ⟨19, _⟩ => ⟨S3000x64, .bf16⟩
  | .local _ .vmem, ⟨20, _⟩ => ⟨S3000x64, .bf16⟩
  | .local _ .vmem, ⟨21, _⟩ => ⟨S3000x64, .f32⟩
  | .local _ .vmem, ⟨22, _⟩ => ⟨S3000x64, .f32⟩
  | .local _ .vmem, ⟨23, _⟩ => ⟨S64, .f32⟩
  | .local _ .vmem, ⟨24, _⟩ => ⟨S3000x64, .f32⟩
  | .local _ .vmem, ⟨25, _⟩ => ⟨S3000x64, .f32⟩
  | .local _ .vmem, ⟨26, _⟩ => ⟨S64, .f32⟩
  | .local _ .vmem, ⟨27, _⟩ => ⟨S64, .f32⟩
  | .local _ .vmem, ⟨28, _⟩ => ⟨S64x64, .f32⟩
  | .local _ .vmem, ⟨29, _⟩ => ⟨S64, .f32⟩
  | .local _ .vmem, ⟨30, _⟩ => ⟨S3000x64, .f32⟩
  | .local _ .vmem, ⟨31, _⟩ => ⟨S3000x64, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_v16 : Ref sig .tc := ⟨.hbm, 41, rfl⟩
abbrev main_c : Ref sig .tc := ⟨.hbm, 42, rfl⟩
abbrev main_v17 : Ref sig .tc := ⟨.hbm, 43, rfl⟩
abbrev main_v18 : Ref sig .tc := ⟨.hbm, 44, rfl⟩
abbrev main_c_3 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_4 : Ref sig .tc := ⟨.hbm, 55, rfl⟩
abbrev main_v28 : Ref sig .tc := ⟨.hbm, 56, rfl⟩
abbrev main_v29 : Ref sig .tc := ⟨.hbm, 57, rfl⟩
abbrev main_c_5 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41_0 : Ref sig .tc := ⟨.hbm, 71, rfl⟩
abbrev main_v41_1 : Ref sig .tc := ⟨.hbm, 72, rfl⟩
abbrev main_v42 : Ref sig .tc := ⟨.hbm, 73, rfl⟩
abbrev main_c_7 : Ref sig .tc := ⟨.hbm, 74, rfl⟩
abbrev main_v43 : Ref sig .tc := ⟨.hbm, 75, rfl⟩
abbrev main_v44 : Ref sig .tc := ⟨.hbm, 76, rfl⟩
abbrev main_c_8 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_9 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_call1_c : Ref sig .tc := ⟨.hbm, 93, rfl⟩
abbrev main_call1_v0 : Ref sig .tc := ⟨.hbm, 94, rfl⟩
abbrev main_call1_v1 : Ref sig .tc := ⟨.hbm, 95, rfl⟩
abbrev main_call1_c_0 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_c_1 : Ref sig .tc := ⟨.hbm, 101, rfl⟩
abbrev main_call1_c_2 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_call1_c_3 : Ref sig .tc := ⟨.hbm, 109, rfl⟩
abbrev main_call1_v12 : Ref sig .tc := ⟨.hbm, 110, rfl⟩
abbrev main_call1_v13 : Ref sig .tc := ⟨.hbm, 111, rfl⟩
abbrev main_call1_v14 : Ref sig .tc := ⟨.hbm, 112, rfl⟩
abbrev main_call1_cst : Ref sig .tc := ⟨.hbm, 113, rfl⟩
abbrev main_call1_v15 : Ref sig .tc := ⟨.hbm, 114, rfl⟩
abbrev main_v59 : Ref sig .tc := ⟨.hbm, 115, rfl⟩
abbrev main_call2_c : Ref sig .tc := ⟨.hbm, 116, rfl⟩
abbrev main_call2_v0 : Ref sig .tc := ⟨.hbm, 117, rfl⟩
abbrev main_call2_v1 : Ref sig .tc := ⟨.hbm, 118, rfl⟩
abbrev main_call2_c_0 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_call2_v5 : Ref sig .tc := ⟨.hbm, 123, rfl⟩
abbrev main_call2_c_1 : Ref sig .tc := ⟨.hbm, 124, rfl⟩
abbrev main_call2_c_2 : Ref sig .tc := ⟨.hbm, 125, rfl⟩
abbrev main_call2_v6 : Ref sig .tc := ⟨.hbm, 126, rfl⟩
abbrev main_call2_v7 : Ref sig .tc := ⟨.hbm, 127, rfl⟩
abbrev main_call2_v8 : Ref sig .tc := ⟨.hbm, 128, rfl⟩
abbrev main_call2_v9 : Ref sig .tc := ⟨.hbm, 129, rfl⟩
abbrev main_call2_v10 : Ref sig .tc := ⟨.hbm, 130, rfl⟩
abbrev main_call2_v11 : Ref sig .tc := ⟨.hbm, 131, rfl⟩
abbrev main_call2_c_3 : Ref sig .tc := ⟨.hbm, 132, rfl⟩
abbrev main_call2_v12 : Ref sig .tc := ⟨.hbm, 133, rfl⟩
abbrev main_call2_v13 : Ref sig .tc := ⟨.hbm, 134, rfl⟩
abbrev main_call2_v14 : Ref sig .tc := ⟨.hbm, 135, rfl⟩
abbrev main_call2_cst : Ref sig .tc := ⟨.hbm, 136, rfl⟩
abbrev main_call2_v15 : Ref sig .tc := ⟨.hbm, 137, rfl⟩
abbrev main_v60 : Ref sig .tc := ⟨.hbm, 138, rfl⟩
abbrev main_v61 : Ref sig .tc := ⟨.hbm, 139, rfl⟩
abbrev main_cst_10 : Ref sig .tc := ⟨.hbm, 140, rfl⟩
abbrev main_v62 : Ref sig .tc := ⟨.hbm, 141, rfl⟩
abbrev main_c_11 : Ref sig .tc := ⟨.hbm, 142, rfl⟩
abbrev main_v63 : Ref sig .tc := ⟨.hbm, 143, rfl⟩
abbrev main_v64 : Ref sig .tc := ⟨.hbm, 144, rfl⟩
abbrev main_c_12 : Ref sig .tc := ⟨.hbm, 145, rfl⟩
abbrev main_v65 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_c_13 : Ref sig .tc := ⟨.hbm, 152, rfl⟩
abbrev main_v71 : Ref sig .tc := ⟨.hbm, 153, rfl⟩
abbrev main_v72 : Ref sig .tc := ⟨.hbm, 154, rfl⟩
abbrev main_c_14 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_cst_15 : Ref sig .tc := ⟨.hbm, 164, rfl⟩
abbrev main_cst_16 : Ref sig .tc := ⟨.hbm, 165, rfl⟩
abbrev main_call3_v0 : Ref sig .tc := ⟨.hbm, 166, rfl⟩
abbrev main_call3_v1 : Ref sig .tc := ⟨.hbm, 167, rfl⟩
abbrev main_call3_v2 : Ref sig .tc := ⟨.hbm, 168, rfl⟩
abbrev main_call3_v3 : Ref sig .tc := ⟨.hbm, 169, rfl⟩
abbrev main_call3_v4 : Ref sig .tc := ⟨.hbm, 170, rfl⟩
abbrev main_v81 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19
abbrev cc1_sem8_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S3000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S3000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S3000x64 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S3000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S3000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  concatenates_S100000x64_S50000x64_S150000x64_d0 : Shape.Concatenates [S100000x64, S50000x64] S150000x64 0
  slices_S2x3200000_S1x3200000_0_0 : S2x3200000.Slices ![0, 0] S1x3200000
  shapeCasts_S1x3200000_S3200000 : S1x3200000.ShapeCasts S3200000
  concatenates_S3200000_S150000_S3350000_d0 : Shape.Concatenates [S3200000, S150000] S3350000 0
  slices_S2x3200000_S1x3200000_1_0 : S2x3200000.Slices ![1, 0] S1x3200000
  bcast_S_S150000 : S_.BroadcastsInDim S150000 (![] : Fin 0 → Fin S150000.rank)
  bcast_S3350000_S3350000x1_0 : S3350000.BroadcastsInDim S3350000x1 (![0] : Fin 1 → Fin S3350000x1.rank)
  bcast_S_S3350000 : S_.BroadcastsInDim S3350000 (![] : Fin 0 → Fin S3350000.rank)
  bcast_S150000_S150000x1_0 : S150000.BroadcastsInDim S150000x1 (![0] : Fin 1 → Fin S150000x1.rank)
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S3000x1_S3000x1_0_0 : ∀ a, (![0, 0] : Fin 2 → Nat) a + S3000x1.size a ≤ S3000x1.size a
  h_S3000x1 : 0 < S3000x1.numel
  shapeCasts_S3000x1_S3000x1 : S3000x1.ShapeCasts S3000x1
  broadcasts_S3000x1_S3000x64 : S3000x1.Broadcasts S3000x64
  packedbf16_S3000x64_S3000x64_0_0 : (Rect.unit (s := S3000x64) ![0, 0] S3000x64.size inb_S3000x64_S3000x64_0_0).PackedRows (EltTy.packing .bf16)
  bcast_S3350000x1_S3350000x64_0_1 : S3350000x1.BroadcastsInDim S3350000x64 (![0, 1] : Fin 2 → Fin S3350000x64.rank)
  bcast_S_S150000x64 : S_.BroadcastsInDim S150000x64 (![] : Fin 0 → Fin S150000x64.rank)
  inb_S64_S64_0 : ∀ a, (![0] : Fin 1 → Nat) a + S64.size a ≤ S64.size a
  h_S64 : 0 < S64.numel
  shapeCasts_S64_S1x64 : S64.ShapeCasts S1x64
  broadcasts_S1x64_S3000x64 : S1x64.Broadcasts S3000x64
  reduces_S3000x64_S3000 : S3000x64.Reduces [1] S3000
  shapeCasts_S3000_S3000x1 : S3000.ShapeCasts S3000x1
  slices_S150000x64_S100000x64_0_0 : S150000x64.Slices ![0, 0] S100000x64
  slices_S150000x64_S50000x64_100000_0 : S150000x64.Slices ![100000, 0] S50000x64
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  reducesTo_S16384x64_S16384_d1 : S16384x64.ReducesTo [1] S16384
  scatter_S150000_S3350000x1_S3350000_n_0_0_1_wf : ScatterDims.WF S150000 S3350000x1 S3350000 [] [0] [0] 1
  gather_S150000_S3350000x1_S3350000_n_0_n_n_0_1_1_wf : GatherDims.WF S150000 S3350000x1 S3350000 [] [0] [] [0] [] 1 ![1]
  dot_S3000x64_S64x64_S3000x64_1_0_0_1_n_n_wf : DotDims.WF S3000x64 S64x64 S3000x64 [1] [0] [0] [1] [] []
  gather_S150000x64_S3350000x1_S3350000x64_1_0_n_n_0_1_164_wf : GatherDims.WF S150000x64 S3350000x1 S3350000x64 [1] [0] [] [0] [] 1 ![1, 64]
  scatter_S150000x64_S3350000x1_S3350000x64_1_0_0_1_wf : ScatterDims.WF S150000x64 S3350000x1 S3350000x64 [1] [0] [0] 1
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]
  gather_S100000_S16384x1_S16384_n_0_n_n_0_1_1_wf : GatherDims.WF S100000 S16384x1 S16384 [] [0] [] [0] [] 1 ![1]
  gather_S50000_S16384x1_S16384_n_0_n_n_0_1_1_wf : GatherDims.WF S50000 S16384x1 S16384 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S150000x64.size a
  hwx0_0 : ∀ i : grid0.Coords, EltTy.bits .f32 = 32 ∨ (Rect.block (s := S150000x64) S3000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x1.size a ≤ S150000x1.size a
  hwx0_2 : ∀ i : grid0.Coords, EltTy.bits .f32 = 32 ∨ (Rect.block (s := S150000x1) S3000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3000x64.size a ≤ S150000x64.size a
  hwx0_3 : ∀ i : grid0.Coords, EltTy.bits .bf16 = 32 ∨ (Rect.block (s := S150000x64) S3000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x64.size a ≤ S150000x64.size a
  hwx1_0 : ∀ i : grid1.Coords, EltTy.bits .f32 = 32 ∨ (Rect.block (s := S150000x64) S3000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3000x64.size a ≤ S150000x64.size a
  hwx1_2 : ∀ i : grid1.Coords, EltTy.bits .f32 = 32 ∨ (Rect.block (s := S150000x64) S3000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S3000x1.size a ≤ S150000x1.size a
  hwx1_6 : ∀ i : grid1.Coords, EltTy.bits .f32 = 32 ∨ (Rect.block (s := S150000x1) S3000x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S3000x64.size a ≤ S150000x64.size a
  hwx1_7 : ∀ i : grid1.Coords, EltTy.bits .f32 = 32 ∨ (Rect.block (s := S150000x64) S3000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S3000x64.size a ≤ S150000x64.size a
  hwx1_8 : ∀ i : grid1.Coords, EltTy.bits .bf16 = 32 ∨ (Rect.block (s := S150000x64) S3000x64.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x64.size a ≤ S150000x64.size a
  hwx2_0 : ∀ i : grid2.Coords, EltTy.bits .f32 = 32 ∨ (Rect.block (s := S150000x64) S3000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3000x64.size a ≤ S150000x64.size a
  hwx2_2 : ∀ i : grid2.Coords, EltTy.bits .f32 = 32 ∨ (Rect.block (s := S150000x64) S3000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S3000x64.size a ≤ S150000x64.size a
  hwx2_7 : ∀ i : grid2.Coords, EltTy.bits .f32 = 32 ∨ (Rect.block (s := S150000x64) S3000x64.size (cc2_transform_7 i) (hinb2_7 i)).WholeWords (EltTy.packing .f32)

variable [Facts₀]

def scatter_S150000_S3350000x1_S3350000_n_0_0_1 : ScatterDims S150000 S3350000x1 S3350000 where
  updateWindowDims := []
  insertedWindowDims := [0]
  scatterDimsToOperandDims := [0]
  indexVectorDim := 1
  wf := scatter_S150000_S3350000x1_S3350000_n_0_0_1_wf
def gather_S150000_S3350000x1_S3350000_n_0_n_n_0_1_1 : GatherDims S150000 S3350000x1 S3350000 where
  offsetDims := []
  collapsedSliceDims := [0]
  operandBatchingDims := []
  startIndicesBatchingDims := []
  startIndexMap := [0]
  indexVectorDim := 1
  sliceSizes := ![1]
  wf := gather_S150000_S3350000x1_S3350000_n_0_n_n_0_1_1_wf
def dot_S3000x64_S64x64_S3000x64_1_0_0_1_n_n : DotDims S3000x64 S64x64 S3000x64 where
  lhsContracting := [1]
  rhsContracting := [0]
  lhsNonContracting := [0]
  rhsNonContracting := [1]
  lhsBatch := []
  rhsBatch := []
  wf := dot_S3000x64_S64x64_S3000x64_1_0_0_1_n_n_wf
def gather_S150000x64_S3350000x1_S3350000x64_1_0_n_n_0_1_164 : GatherDims S150000x64 S3350000x1 S3350000x64 where
  offsetDims := [1]
  collapsedSliceDims := [0]
  operandBatchingDims := []
  startIndicesBatchingDims := []
  startIndexMap := [0]
  indexVectorDim := 1
  sliceSizes := ![1, 64]
  wf := gather_S150000x64_S3350000x1_S3350000x64_1_0_n_n_0_1_164_wf
def scatter_S150000x64_S3350000x1_S3350000x64_1_0_0_1 : ScatterDims S150000x64 S3350000x1 S3350000x64 where
  updateWindowDims := [1]
  insertedWindowDims := [0]
  scatterDimsToOperandDims := [0]
  indexVectorDim := 1
  wf := scatter_S150000x64_S3350000x1_S3350000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf
def gather_S100000_S16384x1_S16384_n_0_n_n_0_1_1 : GatherDims S100000 S16384x1 S16384 where
  offsetDims := []
  collapsedSliceDims := [0]
  operandBatchingDims := []
  startIndicesBatchingDims := []
  startIndexMap := [0]
  indexVectorDim := 1
  sliceSizes := ![1]
  wf := gather_S100000_S16384x1_S16384_n_0_n_n_0_1_1_wf
def gather_S50000_S16384x1_S16384_n_0_n_n_0_1_1 : GatherDims S50000 S16384x1 S16384 where
  offsetDims := []
  collapsedSliceDims := [0]
  operandBatchingDims := []
  startIndicesBatchingDims := []
  startIndexMap := [0]
  indexVectorDim := 1
  sliceSizes := ![1]
  wf := gather_S50000_S16384x1_S16384_n_0_n_n_0_1_1_wf

abbrev win0_0 : Pipeline.Window sig grid0 :=
  Pipeline.Window.ofSpec (Memref.whole main_v0) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S3000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S3000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v40) S3000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S3000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S3000x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v41_0) S3000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v41_1) S3000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v55) S3000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41_0) S3000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg15) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v56) S3000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S16384 : Shape := ⟨1, ![16384]⟩
abbrev S2x3200000 : Shape := ⟨2, ![2, 3200000]⟩
abbrev S3200000 : Shape := ⟨1, ![3200000]⟩
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S100000 : Shape := ⟨1, ![100000]⟩
abbrev S50000 : Shape := ⟨1, ![50000]⟩
abbrev S_ : Shape := ⟨0, ![]⟩
abbrev S150000x64 : Shape := ⟨2, ![150000, 64]⟩
abbrev S150000 : Shape := ⟨1, ![150000]⟩
abbrev S1x3200000 : Shape := ⟨2, ![1, 3200000]⟩
abbrev S3350000 : Shape := ⟨1, ![3350000]⟩
abbrev S3350000x1 : Shape := ⟨2, ![3350000, 1]⟩
abbrev S3350000x64 : Shape := ⟨2, ![3350000, 64]⟩
abbrev S1x64 : Shape := ⟨2, ![1, 64]⟩
abbrev S150000x1 : Shape := ⟨2, ![150000, 1]⟩
abbrev S16384x1 : Shape := ⟨2, ![16384, 1]⟩
abbrev S16384x64 : Shape := ⟨2, ![16384, 64]⟩

abbrev nBuf : Space → Nat
  | .hbm => 225
  | .vmem => 0
  | .smem => 0
  | _ => 0

abbrev hbmTy0_0 (i : Nat) : BufTy := match i % 128 with
  | 0 => ⟨S16384, .i32⟩
  | 1 => ⟨S16384, .i32⟩
  | 2 => ⟨S2x3200000, .i32⟩
  | 3 => ⟨S3200000, .f32⟩
  | 4 => ⟨S100000x64, .f32⟩
  | 5 => ⟨S50000x64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64x64, .f32⟩
  | 15 => ⟨S64, .f32⟩
  | 16 => ⟨S100000, .f32⟩
  | 17 => ⟨S50000, .f32⟩
  | 18 => ⟨S_, .f32⟩
  | 19 => ⟨S150000x64, .f32⟩
  | 20 => ⟨S150000, .i32⟩
  | 21 => ⟨S1x3200000, .i32⟩
  | 22 => ⟨S3200000, .i32⟩
  | 23 => ⟨S3350000, .i32⟩
  | 24 => ⟨S1x3200000, .i32⟩
  | 25 => ⟨S3200000, .i32⟩
  | 26 => ⟨S3350000, .i32⟩
  | 27 => ⟨S_, .f32⟩
  | 28 => ⟨S150000, .f32⟩
  | 29 => ⟨S3350000, .f32⟩
  | 30 => ⟨S_, .f32⟩
  | 31 => ⟨S150000, .f32⟩
  | 32 => ⟨S3350000x1, .i32⟩
  | 33 => ⟨S150000, .f32⟩
  | 34 => ⟨S_, .f32⟩
  | 35 => ⟨S150000, .f32⟩
  | 36 => ⟨S150000, .i1⟩
  | 37 => ⟨S150000, .f32⟩
  | 38 => ⟨S_, .f32⟩
  | 39 => ⟨S_, .f32⟩
  | 40 => ⟨S150000, .f32⟩
  | 41 => ⟨S150000, .f32⟩
  | 42 => ⟨S_, .i32⟩
  | 43 => ⟨S3350000, .i32⟩
  | 44 => ⟨S3350000, .i1⟩
  | 45 => ⟨S_, .i32⟩
  | 46 => ⟨S3350000, .i32⟩
  | 47 => ⟨S3350000, .i32⟩
  | 48 => ⟨S3350000, .i32⟩
  | 49 => ⟨S3350000x1, .i32⟩
  | 50 => ⟨S3350000, .f32⟩
  | 51 => ⟨S3350000, .f32⟩
  | 52 => ⟨S_, .i32⟩
  | 53 => ⟨S3350000, .i32⟩
  | 54 => ⟨S3350000, .i1⟩
  | 55 => ⟨S_, .i32⟩
  | 56 => ⟨S3350000, .i32⟩
  | 57 => ⟨S3350000, .i32⟩
  | 58 => ⟨S3350000, .i32⟩
  | 59 => ⟨S3350000x1, .i32⟩
  | 60 => ⟨S3350000, .f32⟩
  | 61 => ⟨S3350000, .f32⟩
  | 62 => ⟨S150000x64, .f32⟩
  | 63 => ⟨S3350000x1, .f32⟩
  | 64 => ⟨S_, .i32⟩
  | 65 => ⟨S3350000, .i32⟩
  | 66 => ⟨S3350000, .i1⟩
  | 67 => ⟨S_, .i32⟩
  | 68 => ⟨S3350000, .i32⟩
  | 69 => ⟨S3350000, .i32⟩
  | 70 => ⟨S3350000, .i32⟩
  | 71 => ⟨S3350000x1, .i32⟩
  | 72 => ⟨S3350000x64, .f32⟩
  | 73 => ⟨S3350000x64, .f32⟩
  | 74 => ⟨S3350000x64, .f32⟩
  | 75 => ⟨S_, .f32⟩
  | 76 => ⟨S150000x64, .f32⟩
  | 77 => ⟨S3350000x1, .i32⟩
  | 78 => ⟨S150000x64, .f32⟩
  | 79 => ⟨S1x64, .f32⟩
  | 80 => ⟨S150000x64, .f32⟩
  | 81 => ⟨S150000x64, .f32⟩
  | 82 => ⟨S_, .f32⟩
  | 83 => ⟨S150000, .f32⟩
  | 84 => ⟨S150000x1, .f32⟩
  | 85 => ⟨S_, .f32⟩
  | 86 => ⟨S150000x1, .f32⟩
  | 87 => ⟨S150000x1, .f32⟩
  | 88 => ⟨S150000x64, .f32⟩
  | 89 => ⟨S150000x64, .f32⟩
  | 90 => ⟨S150000x64, .f32⟩
  | 91 => ⟨S_, .f32⟩
  | 92 => ⟨S150000, .f32⟩
  | 93 => ⟨S150000x1, .f32⟩
  | 94 => ⟨S_, .f32⟩
  | 95 => ⟨S150000x1, .f32⟩
  | 96 => ⟨S150000x1, .f32⟩
  | 97 => ⟨S150000x64, .f32⟩
  | 98 => ⟨S150000x64, .f32⟩
  | 99 => ⟨S_, .f32⟩
  | 100 => ⟨S150000x1, .f32⟩
  | 101 => ⟨S150000x1, .f32⟩
  | 102 => ⟨S150000x1, .f32⟩
  | 103 => ⟨S150000x64, .f32⟩
  | 104 => ⟨S150000x64, .f32⟩
  | 105 => ⟨S1x64, .f32⟩
  | 106 => ⟨S150000x64, .f32⟩
  | 107 => ⟨S150000x64, .f32⟩
  | 108 => ⟨S1x64, .f32⟩
  | 109 => ⟨S150000x64, .f32⟩
  | 110 => ⟨S150000x64, .f32⟩
  | 111 => ⟨S_, .f32⟩
  | 112 => ⟨S150000x64, .f32⟩
  | 113 => ⟨S150000x64, .f32⟩
  | 114 => ⟨S150000x64, .f32⟩
  | 115 => ⟨S150000x64, .f32⟩
  | 116 => ⟨S3350000x1, .f32⟩
  | 117 => ⟨S_, .i32⟩
  | 118 => ⟨S3350000, .i32⟩
  | 119 => ⟨S3350000, .i1⟩
  | 120 => ⟨S_, .i32⟩
  | 121 => ⟨S3350000, .i32⟩
  | 122 => ⟨S3350000, .i32⟩
  | 123 => ⟨S3350000, .i32⟩
  | 124 => ⟨S3350000x1, .i32⟩
  | 125 => ⟨S3350000x64, .f32⟩
  | 126 => ⟨S3350000x64, .f32⟩
  | 127 => ⟨S3350000x64, .f32⟩
  | _ => ⟨S16384, .i32⟩

abbrev hbmTy0_1 (i : Nat) : BufTy := match i % 128 with
  | 0 => ⟨S_, .f32⟩
  | 1 => ⟨S150000x64, .f32⟩
  | 2 => ⟨S3350000x1, .i32⟩
  | 3 => ⟨S150000x64, .f32⟩
  | 4 => ⟨S1x64, .f32⟩
  | 5 => ⟨S150000x64, .f32⟩
  | 6 => ⟨S150000x64, .f32⟩
  | 7 => ⟨S_, .f32⟩
  | 8 => ⟨S150000, .f32⟩
  | 9 => ⟨S150000x1, .f32⟩
  | 10 => ⟨S_, .f32⟩
  | 11 => ⟨S150000x1, .f32⟩
  | 12 => ⟨S150000x1, .f32⟩
  | 13 => ⟨S150000x64, .f32⟩
  | 14 => ⟨S150000x64, .f32⟩
  | 15 => ⟨S150000x64, .f32⟩
  | 16 => ⟨S_, .f32⟩
  | 17 => ⟨S150000, .f32⟩
  | 18 => ⟨S150000x1, .f32⟩
  | 19 => ⟨S_, .f32⟩
  | 20 => ⟨S150000x1, .f32⟩
  | 21 => ⟨S150000x1, .f32⟩
  | 22 => ⟨S150000x64, .f32⟩
  | 23 => ⟨S150000x64, .f32⟩
  | 24 => ⟨S_, .f32⟩
  | 25 => ⟨S150000x1, .f32⟩
  | 26 => ⟨S150000x1, .f32⟩
  | 27 => ⟨S150000x1, .f32⟩
  | 28 => ⟨S150000x64, .f32⟩
  | 29 => ⟨S150000x64, .f32⟩
  | 30 => ⟨S1x64, .f32⟩
  | 31 => ⟨S150000x64, .f32⟩
  | 32 => ⟨S150000x64, .f32⟩
  | 33 => ⟨S1x64, .f32⟩
  | 34 => ⟨S150000x64, .f32⟩
  | 35 => ⟨S150000x64, .f32⟩
  | 36 => ⟨S_, .f32⟩
  | 37 => ⟨S150000x64, .f32⟩
  | 38 => ⟨S150000x64, .f32⟩
  | 39 => ⟨S150000x64, .f32⟩
  | 40 => ⟨S150000x64, .f32⟩
  | 41 => ⟨S1x64, .f32⟩
  | 42 => ⟨S150000x64, .f32⟩
  | 43 => ⟨S150000x64, .f32⟩
  | 44 => ⟨S100000x64, .f32⟩
  | 45 => ⟨S50000x64, .f32⟩
  | 46 => ⟨S_, .i32⟩
  | 47 => ⟨S16384, .i32⟩
  | 48 => ⟨S16384, .i1⟩
  | 49 => ⟨S_, .i32⟩
  | 50 => ⟨S16384, .i32⟩
  | 51 => ⟨S16384, .i32⟩
  | 52 => ⟨S16384, .i32⟩
  | 53 => ⟨S16384x1, .i32⟩
  | 54 => ⟨S16384x64, .f32⟩
  | 55 => ⟨S_, .i32⟩
  | 56 => ⟨S16384, .i32⟩
  | 57 => ⟨S16384, .i1⟩
  | 58 => ⟨S_, .i32⟩
  | 59 => ⟨S16384, .i32⟩
  | 60 => ⟨S16384, .i32⟩
  | 61 => ⟨S16384, .i32⟩
  | 62 => ⟨S16384x1, .i32⟩
  | 63 => ⟨S16384x64, .f32⟩
  | 64 => ⟨S16384x64, .f32⟩
  | 65 => ⟨S_, .f32⟩
  | 66 => ⟨S16384, .f32⟩
  | 67 => ⟨S_, .i32⟩
  | 68 => ⟨S16384, .i32⟩
  | 69 => ⟨S16384, .i1⟩
  | 70 => ⟨S_, .i32⟩
  | 71 => ⟨S16384, .i32⟩
  | 72 => ⟨S16384, .i32⟩
  | 73 => ⟨S16384, .i32⟩
  | 74 => ⟨S16384x1, .i32⟩
  | 75 => ⟨S16384, .f32⟩
  | 76 => ⟨S16384, .f32⟩
  | 77 => ⟨S_, .i32⟩
  | 78 => ⟨S16384, .i32⟩
  | 79 => ⟨S16384, .i1⟩
  | 80 => ⟨S_, .i32⟩
  | 81 => ⟨S16384, .i32⟩
  | 82 => ⟨S16384, .i32⟩
  | 83 => ⟨S16384, .i32⟩
  | 84 => ⟨S16384x1, .i32⟩
  | 85 => ⟨S16384, .f32⟩
  | 86 => ⟨S16384, .f32⟩
  | 87 => ⟨S16384, .f32⟩
  | 88 => ⟨S16384, .f32⟩
  | 89 => ⟨S_, .f32⟩
  | 90 => ⟨S_, .f32⟩
  | 91 => ⟨S_, .f32⟩
  | 92 => ⟨S16384, .f32⟩
  | 93 => ⟨S16384, .f32⟩
  | 94 => ⟨S_, .f32⟩
  | 95 => ⟨S16384, .f32⟩
  | 96 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_v16 : Ref sig .tc := ⟨.hbm, 41, rfl⟩
abbrev main_c : Ref sig .tc := ⟨.hbm, 42, rfl⟩
abbrev main_v17 : Ref sig .tc := ⟨.hbm, 43, rfl⟩
abbrev main_v18 : Ref sig .tc := ⟨.hbm, 44, rfl⟩
abbrev main_c_3 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_4 : Ref sig .tc := ⟨.hbm, 52, rfl⟩
abbrev main_v25 : Ref sig .tc := ⟨.hbm, 53, rfl⟩
abbrev main_v26 : Ref sig .tc := ⟨.hbm, 54, rfl⟩
abbrev main_c_5 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_6 : Ref sig .tc := ⟨.hbm, 64, rfl⟩
abbrev main_v35 : Ref sig .tc := ⟨.hbm, 65, rfl⟩
abbrev main_v36 : Ref sig .tc := ⟨.hbm, 66, rfl⟩
abbrev main_c_7 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_8 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_9 : Ref sig .tc := ⟨.hbm, 82, rfl⟩
abbrev main_v50 : Ref sig .tc := ⟨.hbm, 83, rfl⟩
abbrev main_v51 : Ref sig .tc := ⟨.hbm, 84, rfl⟩
abbrev main_cst_10 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_11 : Ref sig .tc := ⟨.hbm, 91, rfl⟩
abbrev main_v57 : Ref sig .tc := ⟨.hbm, 92, rfl⟩
abbrev main_v58 : Ref sig .tc := ⟨.hbm, 93, rfl⟩
abbrev main_cst_12 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_13 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_call1_cst : Ref sig .tc := ⟨.hbm, 111, rfl⟩
abbrev main_call1_v0 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_14 : Ref sig .tc := ⟨.hbm, 117, rfl⟩
abbrev main_v78 : Ref sig .tc := ⟨.hbm, 118, rfl⟩
abbrev main_v79 : Ref sig .tc := ⟨.hbm, 119, rfl⟩
abbrev main_c_15 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_16 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_17 : Ref sig .tc := ⟨.hbm, 135, rfl⟩
abbrev main_v93 : Ref sig .tc := ⟨.hbm, 136, rfl⟩
abbrev main_v94 : Ref sig .tc := ⟨.hbm, 137, rfl⟩
abbrev main_cst_18 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_19 : Ref sig .tc := ⟨.hbm, 144, rfl⟩
abbrev main_v100 : Ref sig .tc := ⟨.hbm, 145, rfl⟩
abbrev main_v101 : Ref sig .tc := ⟨.hbm, 146, rfl⟩
abbrev main_cst_20 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_cst_21 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_call2_cst : Ref sig .tc := ⟨.hbm, 164, rfl⟩
abbrev main_call2_v0 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_c_22 : Ref sig .tc := ⟨.hbm, 174, rfl⟩
abbrev main_v125 : Ref sig .tc := ⟨.hbm, 175, rfl⟩
abbrev main_v126 : Ref sig .tc := ⟨.hbm, 176, rfl⟩
abbrev main_c_23 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_c_24 : Ref sig .tc := ⟨.hbm, 183, rfl⟩
abbrev main_v132 : Ref sig .tc := ⟨.hbm, 184, rfl⟩
abbrev main_v133 : Ref sig .tc := ⟨.hbm, 185, rfl⟩
abbrev main_c_25 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_cst_26 : Ref sig .tc := ⟨.hbm, 193, rfl⟩
abbrev main_v140 : Ref sig .tc := ⟨.hbm, 194, rfl⟩
abbrev main_c_27 : Ref sig .tc := ⟨.hbm, 195, rfl⟩
abbrev main_v141 : Ref sig .tc := ⟨.hbm, 196, rfl⟩
abbrev main_v142 : Ref sig .tc := ⟨.hbm, 197, rfl⟩
abbrev main_c_28 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_c_29 : Ref sig .tc := ⟨.hbm, 205, rfl⟩
abbrev main_v149 : Ref sig .tc := ⟨.hbm, 206, rfl⟩
abbrev main_v150 : Ref sig .tc := ⟨.hbm, 207, rfl⟩
abbrev main_c_30 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_cst_31 : Ref sig .tc := ⟨.hbm, 217, rfl⟩
abbrev main_cst_32 : Ref sig .tc := ⟨.hbm, 218, rfl⟩
abbrev main_call3_v0 : Ref sig .tc := ⟨.hbm, 219, rfl⟩
abbrev main_call3_v1 : Ref sig .tc := ⟨.hbm, 220, rfl⟩
abbrev main_call3_v2 : Ref sig .tc := ⟨.hbm, 221, rfl⟩
abbrev main_call3_v3 : Ref sig .tc := ⟨.hbm, 222, rfl⟩
abbrev main_call3_v4 : Ref sig .tc := ⟨.hbm, 223, rfl⟩
abbrev main_v159 : Ref sig .tc := ⟨.hbm, 224, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  slices_S2x3200000_S1x3200000_0_0 : S2x3200000.Slices ![0, 0] S1x3200000
  shapeCasts_S1x3200000_S3200000 : S1x3200000.ShapeCasts S3200000
  concatenates_S3200000_S150000_S3350000_d0 : Shape.Concatenates [S3200000, S150000] S3350000 0
  slices_S2x3200000_S1x3200000_1_0 : S2x3200000.Slices ![1, 0] S1x3200000
  bcast_S_S150000 : S_.BroadcastsInDim S150000 (![] : Fin 0 → Fin S150000.rank)
  bcast_S3350000_S3350000x1_0 : S3350000.BroadcastsInDim S3350000x1 (![0] : Fin 1 → Fin S3350000x1.rank)
  bcast_S_S3350000 : S_.BroadcastsInDim S3350000 (![] : Fin 0 → Fin S3350000.rank)
  bcast_S3350000x1_S3350000x64_0_1 : S3350000x1.BroadcastsInDim S3350000x64 (![0, 1] : Fin 2 → Fin S3350000x64.rank)
  bcast_S_S150000x64 : S_.BroadcastsInDim S150000x64 (![] : Fin 0 → Fin S150000x64.rank)
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  slices_S150000x64_S100000x64_0_0 : S150000x64.Slices ![0, 0] S100000x64
  slices_S150000x64_S50000x64_100000_0 : S150000x64.Slices ![100000, 0] S50000x64
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S16384_d1 : S16384x64.ReducesTo [1] S16384
  scatter_S150000_S3350000x1_S3350000_n_0_0_1_wf : ScatterDims.WF S150000 S3350000x1 S3350000 [] [0] [0] 1
  gather_S150000_S3350000x1_S3350000_n_0_n_n_0_1_1_wf : GatherDims.WF S150000 S3350000x1 S3350000 [] [0] [] [0] [] 1 ![1]
  dot_S150000x64_S64x64_S150000x64_1_0_0_1_n_n_wf : DotDims.WF S150000x64 S64x64 S150000x64 [1] [0] [0] [1] [] []
  gather_S150000x64_S3350000x1_S3350000x64_1_0_n_n_0_1_164_wf : GatherDims.WF S150000x64 S3350000x1 S3350000x64 [1] [0] [] [0] [] 1 ![1, 64]
  scatter_S150000x64_S3350000x1_S3350000x64_1_0_0_1_wf : ScatterDims.WF S150000x64 S3350000x1 S3350000x64 [1] [0] [0] 1
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]
  gather_S100000_S16384x1_S16384_n_0_n_n_0_1_1_wf : GatherDims.WF S100000 S16384x1 S16384 [] [0] [] [0] [] 1 ![1]
  gather_S50000_S16384x1_S16384_n_0_n_n_0_1_1_wf : GatherDims.WF S50000 S16384x1 S16384 [] [0] [] [0] [] 1 ![1]

variable [Facts₀]

def scatter_S150000_S3350000x1_S3350000_n_0_0_1 : ScatterDims S150000 S3350000x1 S3350000 where
  updateWindowDims := []
  insertedWindowDims := [0]
  scatterDimsToOperandDims := [0]
  indexVectorDim := 1
  wf := scatter_S150000_S3350000x1_S3350000_n_0_0_1_wf
def gather_S150000_S3350000x1_S3350000_n_0_n_n_0_1_1 : GatherDims S150000 S3350000x1 S3350000 where
  offsetDims := []
  collapsedSliceDims := [0]
  operandBatchingDims := []
  startIndicesBatchingDims := []
  startIndexMap := [0]
  indexVectorDim := 1
  sliceSizes := ![1]
  wf := gather_S150000_S3350000x1_S3350000_n_0_n_n_0_1_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def gather_S150000x64_S3350000x1_S3350000x64_1_0_n_n_0_1_164 : GatherDims S150000x64 S3350000x1 S3350000x64 where
  offsetDims := [1]
  collapsedSliceDims := [0]
  operandBatchingDims := []
  startIndicesBatchingDims := []
  startIndexMap := [0]
  indexVectorDim := 1
  sliceSizes := ![1, 64]
  wf := gather_S150000x64_S3350000x1_S3350000x64_1_0_n_n_0_1_164_wf
def scatter_S150000x64_S3350000x1_S3350000x64_1_0_0_1 : ScatterDims S150000x64 S3350000x1 S3350000x64 where
  updateWindowDims := [1]
  insertedWindowDims := [0]
  scatterDimsToOperandDims := [0]
  indexVectorDim := 1
  wf := scatter_S150000x64_S3350000x1_S3350000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf
def gather_S100000_S16384x1_S16384_n_0_n_n_0_1_1 : GatherDims S100000 S16384x1 S16384 where
  offsetDims := []
  collapsedSliceDims := [0]
  operandBatchingDims := []
  startIndicesBatchingDims := []
  startIndexMap := [0]
  indexVectorDim := 1
  sliceSizes := ![1]
  wf := gather_S100000_S16384x1_S16384_n_0_n_n_0_1_1_wf
def gather_S50000_S16384x1_S16384_n_0_n_n_0_1_1 : GatherDims S50000 S16384x1 S16384 where
  offsetDims := []
  collapsedSliceDims := [0]
  operandBatchingDims := []
  startIndicesBatchingDims := []
  startIndexMap := [0]
  indexVectorDim := 1
  sliceSizes := ![1]
  wf := gather_S50000_S16384x1_S16384_n_0_n_n_0_1_1_wf

class Facts : Prop extends Facts₀ where

variable [Facts]
-- ==== Proof.Spec.lean ====
/-
  What the three fused kernels and the reference's layers compute, entry by entry, over the extended reals.

  A node table has 150000 rows of 64 features.  Three row-wise maps occur:
  * the product of the table with a 64 × 64 matrix, row p scaled by a per-row factor d p (`mmScale`), or shifted by
    a bias vector (`mmBias`), or plain (`mm`);
  * the layer normalisation of row p of (agg + b) over its 64 features — mean, centred values, variance with the
    divisor 64, the reciprocal square root of (variance + ε) —, scaled by g and shifted by be feature-wise, clipped
    below at zero and added to the residual row (`lnRelu`).
  The divisor 64, ε and the clipping zero are kept as the words both programs print; none is ever evaluated.
-/
import Idealize.ShloMosaic.Lib.ValueIdx
import Idealize.ShloMosaic.PureOps.Ideal.Laws

noncomputable section

open scoped BigOperators

namespace Cert.Spec

open Idealize.ShloMosaic Idealize.ShloMosaic.ValueIdx

abbrev SNx64 : Shape := ⟨2, ![150000, 64]⟩
abbrev SNx1 : Shape := ⟨2, ![150000, 1]⟩
abbrev SWW : Shape := ⟨2, ![64, 64]⟩
abbrev SV : Shape := ⟨1, ![64]⟩

/-- The divisor 64 as both programs print it. -/
def c64 : EReal := Ideal.ofBits .f32 0x42800000#32
/-- The ε of the normalisation as both programs print it. -/
def eps : EReal := Ideal.ofBits .f32 0x3727C5AC#32
/-- The zero the rectifier clips at, as both programs print it. -/
def zero32 : EReal := Ideal.ofBits .f32 0x00000000#32

/-- Entry (p, q) of the product A · W. -/
def mmAt (A : SNx64.Idx → EReal) (W : SWW.Idx → EReal) (p : Fin 150000) (q : Fin 64) : EReal :=
  ∑ k : Fin 64, A (ix2 p k) * W (ix2 k q)

/-- The product A · W. -/
def mm (A : SNx64.Idx → EReal) (W : SWW.Idx → EReal) : SNx64.Idx → EReal :=
  fun i => mmAt A W (i 0) (i 1)

/-- Entry (p, q) of the product with row p scaled by d p. -/
def mmScaleAt (A : SNx64.Idx → EReal) (W : SWW.Idx → EReal) (d : SNx1.Idx → EReal) (p : Fin 150000) (q : Fin 64) : EReal :=
  mmAt A W p q * d (ix2 p (0 : Fin 1))

/-- The product A · W with row p scaled by d p. -/
def mmScale (A : SNx64.Idx → EReal) (W : SWW.Idx → EReal) (d : SNx1.Idx → EReal) : SNx64.Idx → EReal :=
  fun i => mmScaleAt A W d (i 0) (i 1)

/-- Entry (p, q) of the product shifted by the bias b q. -/
def mmBiasAt (A : SNx64.Idx → EReal) (W : SWW.Idx → EReal) (b : SV.Idx → EReal) (p : Fin 150000) (q : Fin 64) : EReal :=
  mmAt A W p q + b (ix1 q)

/-- The product A · W shifted feature-wise by b. -/
def mmBias (A : SNx64.Idx → EReal) (W : SWW.Idx → EReal) (b : SV.Idx → EReal) : SNx64.Idx → EReal :=
  fun i => mmBiasAt A W b (i 0) (i 1)

/-- Row p of agg + b, as a function of the feature. -/
def lnRow (agg : SNx64.Idx → EReal) (b : SV.Idx → EReal) (p : Fin 150000) : Fin 64 → EReal :=
  fun k => agg (ix2 p k) + b (ix1 k)

/-- The mean of a row of 64 features. -/
def lnMean (h : Fin 64 → EReal) : EReal := Ideal.div (∑ k : Fin 64, h k) c64

/-- The variance of a row of 64 features: the mean of the squared centred values. -/
def lnVar (h : Fin 64 → EReal) : EReal :=
  Ideal.div (∑ k : Fin 64, (h k - lnMean h) * (h k - lnMean h)) c64

/-- Entry (p, q) of the normalised, scaled, shifted, rectified row plus the residual. -/
def lnReluAt (agg : SNx64.Idx → EReal) (b : SV.Idx → EReal) (resid : SNx64.Idx → EReal) (g be : SV.Idx → EReal)
    (p : Fin 150000) (q : Fin 64) : EReal :=
  max ((lnRow agg b p q - lnMean (lnRow agg b p)) * Ideal.rsqrt (lnVar (lnRow agg b p) + eps) * g (ix1 q) + be (ix1 q)) zero32
    + resid (ix2 p q)

/-- The normalised, scaled, shifted, rectified table plus the residual table. -/
def lnRelu (agg : SNx64.Idx → EReal) (b : SV.Idx → EReal) (resid : SNx64.Idx → EReal) (g be : SV.Idx → EReal) :
    SNx64.Idx → EReal :=
  fun i => lnReluAt agg b resid g be (i 0) (i 1)

theorem mm_ix2 (A : SNx64.Idx → EReal) (W : SWW.Idx → EReal) (p : Fin 150000) (q : Fin 64) :
    mm A W (ix2 p q) = mmAt A W p q := rfl

theorem mmScale_ix2 (A : SNx64.Idx → EReal) (W : SWW.Idx → EReal) (d : SNx1.Idx → EReal) (p : Fin 150000) (q : Fin 64) :
    mmScale A W d (ix2 p q) = mmScaleAt A W d p q := rfl

theorem mmBias_ix2 (A : SNx64.Idx → EReal) (W : SWW.Idx → EReal) (b : SV.Idx → EReal) (p : Fin 150000) (q : Fin 64) :
    mmBias A W b (ix2 p q) = mmBiasAt A W b p q := rfl

theorem lnRelu_ix2 (agg : SNx64.Idx → EReal) (b : SV.Idx → EReal) (resid : SNx64.Idx → EReal) (g be : SV.Idx → EReal)
    (p : Fin 150000) (q : Fin 64) : lnRelu agg b resid g be (ix2 p q) = lnReluAt agg b resid g be p q := rfl

/-- The scaled product is the plain product times the row factor, entry by entry. -/
theorem mmScale_eq_mm_mul (A : SNx64.Idx → EReal) (W : SWW.Idx → EReal) (d : SNx1.Idx → EReal) (p : Fin 150000) (q : Fin 64) :
    mmScale A W d (ix2 p q) = mm A W (ix2 p q) * d (ix2 p (0 : Fin 1)) := rfl

end Cert.Spec

end
-- ==== Proof.Reg0.lean ====
/-
  Region 0 in closed form: the table x times the 64 × 64 matrix, row r scaled by its factor, as ONE function of the
  three arrays the region reads.

  The region walks the 150000 rows in 50 blocks of 3000 rows.  On each block the body forms the product of the block of x
  with the whole matrix, multiplies row p of the product by the block's p-th row factor, and writes the block back; the
  two narrowings to sixteen bits are the identity on the extended reals.  Entry (p, q) of what point t writes is therefore
  entry (3000 t + p, q) of the scaled product of the whole arrays, and every row lies in exactly the block r / 3000.
-/
import proofs.«405038_j14748917694873_3_alg».proof.Proof.Gen.KernelIdeal.Frame
import proofs.«405038_j14748917694873_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The product of a block of rows with the matrix, at an entry -/

/-- The left operand's row at output entry i is i's row. -/
theorem lhs_product_0 (i : S3000x64.Idx) (q : dot_S3000x64_S64x64_S3000x64_1_0_0_1_n_n.contr.Idx) :
    (dot_S3000x64_S64x64_S3000x64_1_0_0_1_n_n.lhsIdx i q 0).val = (i 0).val := by
  unfold DotDims.lhsIdx
  rw [dif_neg (show ¬(0 : Fin S3000x64.rank) ∈ dot_S3000x64_S64x64_S3000x64_1_0_0_1_n_n.lhsBatch by decide), dif_pos (show (0 : Fin S3000x64.rank) ∈ dot_S3000x64_S64x64_S3000x64_1_0_0_1_n_n.lhsNonContracting by decide)]
  rfl
/-- The left operand's column is the contraction step. -/
theorem lhs_product_1 (i : S3000x64.Idx) (q : dot_S3000x64_S64x64_S3000x64_1_0_0_1_n_n.contr.Idx) :
    (dot_S3000x64_S64x64_S3000x64_1_0_0_1_n_n.lhsIdx i q 1).val = (q ⟨0, by decide⟩).val :=
  dot_S3000x64_S64x64_S3000x64_1_0_0_1_n_n.lhsIdx_val_of_single rfl i q
/-- The right operand's row is the contraction step. -/
theorem rhs_product_0 (i : S3000x64.Idx) (q : dot_S3000x64_S64x64_S3000x64_1_0_0_1_n_n.contr.Idx) :
    (dot_S3000x64_S64x64_S3000x64_1_0_0_1_n_n.rhsIdx i q 0).val = (q ⟨0, by decide⟩).val :=
  dot_S3000x64_S64x64_S3000x64_1_0_0_1_n_n.rhsIdx_val_of_single rfl i q
/-- The right operand's column at output entry i is i's column. -/
theorem rhs_product_1 (i : S3000x64.Idx) (q : dot_S3000x64_S64x64_S3000x64_1_0_0_1_n_n.contr.Idx) :
    (dot_S3000x64_S64x64_S3000x64_1_0_0_1_n_n.rhsIdx i q 1).val = (i 1).val := by
  unfold DotDims.rhsIdx
  rw [dif_neg (show ¬(1 : Fin S64x64.rank) ∈ dot_S3000x64_S64x64_S3000x64_1_0_0_1_n_n.rhsBatch by decide), dif_pos (show (1 : Fin S64x64.rank) ∈ dot_S3000x64_S64x64_S3000x64_1_0_0_1_n_n.rhsNonContracting by decide)]
  rfl

/-- The block product accumulated into the zero splat, at entry (p, q): the sum over k of left (p, k) times right (k, q). -/
theorem product_at {φ₁ φ₂ : FTy} (l : FVec Ideal S3000x64 φ₁) (r : FVec Ideal S64x64 φ₂) (p : Fin 3000) (q : Fin 64) :
    matmul dot_S3000x64_S64x64_S3000x64_1_0_0_1_n_n none l r (constant (F := Ideal) S3000x64 .f32 0x00000000#32) (ix2 p q)
      = ∑ k : Fin 64, l (ix2 p k) * r (ix2 k q) := by
  refine (Ideal.matmul_constant_zero_apply dot_S3000x64_S64x64_S3000x64_1_0_0_1_n_n none l r (ix2 p q)).trans ?_
  rw [← Equiv.sum_comp (contrEquiv1 dot_S3000x64_S64x64_S3000x64_1_0_0_1_n_n 64 rfl rfl).symm]
  refine Finset.sum_congr rfl fun k _ => ?_
  have hk := contrEquiv1_symm_val dot_S3000x64_S64x64_S3000x64_1_0_0_1_n_n 64 rfl rfl k
  have el : dot_S3000x64_S64x64_S3000x64_1_0_0_1_n_n.lhsIdx (ix2 p q) ((contrEquiv1 dot_S3000x64_S64x64_S3000x64_1_0_0_1_n_n 64 rfl rfl).symm k) = ix2 p k := funext fun a => Fin.ext (by
    match a with
    | ⟨0, _⟩ => exact lhs_product_0 _ _
    | ⟨1, _⟩ => exact (lhs_product_1 _ _).trans hk)
  have er : dot_S3000x64_S64x64_S3000x64_1_0_0_1_n_n.rhsIdx (ix2 p q) ((contrEquiv1 dot_S3000x64_S64x64_S3000x64_1_0_0_1_n_n 64 rfl rfl).symm k) = ix2 k q := funext fun a => Fin.ext (by
    match a with
    | ⟨0, _⟩ => exact (rhs_product_0 _ _).trans hk
    | ⟨1, _⟩ => exact rhs_product_1 _ _)
  rw [el, er]

/-- A column of row factors spread over the 64 features, at entry (p, q): the factor of row p. -/
theorem spread_at (d : Vec Ideal S3000x1 .f32) (h : S3000x1.Broadcasts S3000x64) (p : Fin 3000) (q : Fin 64) :
    broadcastTo S3000x64 d h (ix2 p q) = d (ix2 p (0 : Fin 1)) :=
  broadcastTo_apply d h (ix2 p q) (ix2 p (0 : Fin 1)) (fun a => match a with
    | ⟨0, _⟩ => by show p.val = if (3000 : Nat) = 1 then 0 else p.val; rw [if_neg (by decide)]
    | ⟨1, _⟩ => by show (0 : Fin 1).val = if (1 : Nat) = 1 then 0 else q.val; rw [if_pos rfl]; rfl)

/-- The body's payload at entry (p, q) of a block: the product's entry times the row factor. -/
theorem payload_at (x0 : Vec Ideal S3000x64 .f32) (x1 : Vec Ideal S64x64 .f32) (x2 : Vec Ideal S3000x1 .f32)
    (p : Fin 3000) (q : Fin 64) :
    k0_pay1 x0 x1 x2 (ix2 p q) = (∑ k : Fin 64, x0 (ix2 p k) * x1 (ix2 k q)) * x2 (ix2 p (0 : Fin 1)) := by
  unfold k0_pay1
  rw [shapeCast_self, shapeCast_self]
  rw [truncf_apply, mulf_apply, product_at, spread_at]
  rfl

/-! ## From the 50 blocks of rows to the whole table -/

variable (V : (c : Dev nD) → (b : Ref sig .tc) → Buf (Elt Ideal) ((c : Thread nD τ).loc b))

/-- The body reads and writes its staging buffers from their origin. -/
theorem origin_zero : (![0, 0] : Fin 2 → Nat) = fun _ => 0 := funext fun a => by fin_cases a <;> rfl

/-- The printed block maps, decided over the 50 points: the block of x, the block of row factors and the block written
    back all sit at block row t (below 50) and block column 0; the matrix is the one block (0, 0). -/
theorem block_rows : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) = t.val
    ∧ t.val < 50 :=
  (by decide +kernel : ∀ t : Fin grid0.N, _)

/-- Row p of block t is row 3000 t + p of the table. -/
def row (t : Fin cfg0.N) (p : Fin 3000) : Fin 150000 :=
  ⟨t.val * 3000 + p.val, by have := (block_rows t).2.2.2.2.2.2.2.2; have := p.isLt; omega⟩

/-- Entry (p, k) of the block of x at point t is entry (3000 t + p, k) of x. -/
theorem x_block (c : Dev nD) (t : Fin cfg0.N) (p : Fin 3000) (k : Fin 64) :
    iblk0 (F := Ideal) V c 0 t (ix2 p k) = V c main_v0 (ix2 (row t p) k) := by
  obtain ⟨e0, e1, e2, e3, e4, e5, e6, e7, e8⟩ := block_rows t
  show V c main_v0 (((cfg0.win 0).blk t).view.emb (ix2 p k)) = V c main_v0 (ix2 (row t p) k)
  refine congrArg (V c main_v0) (funext fun a => Fin.ext ?_)
  match a with
  | ⟨0, _⟩ => show win0_0.index t (0 : Fin 2) * 3000 + 1 * p.val = t.val * 3000 + p.val; omega
  | ⟨1, _⟩ => show win0_0.index t (1 : Fin 2) * 64 + 1 * k.val = k.val; omega

/-- The matrix's one block is the matrix. -/
theorem w_block (c : Dev nD) (t : Fin cfg0.N) (k : Fin 64) (q : Fin 64) :
    iblk0 (F := Ideal) V c 1 t (ix2 k q) = V c main_arg6 (ix2 k q) := by
  obtain ⟨e0, e1, e2, e3, e4, e5, e6, e7, e8⟩ := block_rows t
  show V c main_arg6 (((cfg0.win 1).blk t).view.emb (ix2 k q)) = V c main_arg6 (ix2 k q)
  refine congrArg (V c main_arg6) (funext fun a => Fin.ext ?_)
  match a with
  | ⟨0, _⟩ => show win0_1.index t (0 : Fin 2) * 64 + 1 * k.val = k.val; omega
  | ⟨1, _⟩ => show win0_1.index t (1 : Fin 2) * 64 + 1 * q.val = q.val; omega

/-- Entry p of the block of row factors at point t is the factor of row 3000 t + p. -/
theorem d_block (c : Dev nD) (t : Fin cfg0.N) (p : Fin 3000) :
    iblk0 (F := Ideal) V c 2 t (ix2 p (0 : Fin 1)) = V c main_v25 (ix2 (row t p) (0 : Fin 1)) := by
  obtain ⟨e0, e1, e2, e3, e4, e5, e6, e7, e8⟩ := block_rows t
  show V c main_v25 (((cfg0.win 2).blk t).view.emb (ix2 p (0 : Fin 1))) = V c main_v25 (ix2 (row t p) (0 : Fin 1))
  refine congrArg (V c main_v25) (funext fun a => Fin.ext ?_)
  match a with
  | ⟨0, _⟩ => show win0_2.index t (0 : Fin 2) * 3000 + 1 * p.val = t.val * 3000 + p.val; omega
  | ⟨1, _⟩ => show win0_2.index t (1 : Fin 2) * 1 + 1 * (0 : Fin 1).val = (0 : Fin 1).val; omega

/-- Entry (p, q) of the block written back at point t sits at entry (3000 t + p, q) of the output table. -/
theorem out_block (t : Fin cfg0.N) (p : Fin 3000) (q : Fin 64) :
    ((cfg0.win 3).blk t).view.emb (ix2 p q) = (ix2 (row t p) q : S150000x64.Idx) := by
  obtain ⟨e0, e1, e2, e3, e4, e5, e6, e7, e8⟩ := block_rows t
  refine funext fun a => Fin.ext ?_
  match a with
  | ⟨0, _⟩ => show win0_3.index t (0 : Fin 2) * 3000 + 1 * p.val = t.val * 3000 + p.val; omega
  | ⟨1, _⟩ => show win0_3.index t (1 : Fin 2) * 64 + 1 * q.val = q.val; omega

/-- WHAT POINT t WRITES BACK is block t of the scaled product of the arrays as the region finds them. -/
theorem written_block (c : Dev nD) (t : Fin cfg0.N) :
    (dat0 (F := Ideal) V c).flushed 3 t
      = ((cfg0.win 3).blk t).view.read (Elt Ideal) (Cert.Spec.mmScale (V c main_v0) (V c main_arg6) (V c main_v25)) := by
  show (cfg0.win 3).cut (grid0.coords t) ((dat0 (F := Ideal) V c).after 3 t) = _
  rw [after0_3]
  unfold out0_3
  rw [View.canon_unit_zero origin_zero]
  simp only [View.ld_unit_zero (S := S3000x64) origin_zero, View.ld_unit_zero (S := S64x64) origin_zero,
    View.ld_unit_zero (S := S3000x1) origin_zero]
  funext j
  obtain ⟨p, q, rfl⟩ : ∃ (p : Fin 3000) (q : Fin 64), j = ix2 p q := ⟨j 0, j 1, eq_ix2 j⟩
  show k0_pay1 (iblk0 (F := Ideal) V c 0 t) (iblk0 (F := Ideal) V c 1 t) (iblk0 (F := Ideal) V c 2 t) (ix2 p q)
    = Cert.Spec.mmScale (V c main_v0) (V c main_arg6) (V c main_v25) (((cfg0.win 3).blk t).view.emb (ix2 p q))
  rw [out_block, Cert.Spec.mmScale_ix2]
  refine (payload_at _ _ _ p q).trans ?_
  rw [d_block]
  unfold Cert.Spec.mmScaleAt Cert.Spec.mmAt
  refine congrArg (· * V c main_v25 (ix2 (row t p) (0 : Fin 1))) (Finset.sum_congr rfl fun k _ => ?_)
  rw [x_block, w_block]

/-- An index of the table is in point t's block iff each coordinate is in the block's range on its axis. -/
theorem mem_block (t : Fin cfg0.N) (i : S150000x64.Idx) :
    i ∈ ((cfg0.win 3).blk t).view.set ↔ ∀ a : Fin 2, win0_3.index t a * S3000x64.size a ≤ (i a).val
      ∧ (i a).val < win0_3.index t a * S3000x64.size a + S3000x64.size a := by
  show i ∈ ((View.whole main_v26).slice (win0_3.rect t)).set ↔ _
  rw [View.set_slice_whole, Rect.mem_set_unit]
  exact Iff.rfl

/-- Every row r of the table lies in the block of point r / 3000, and every point writes back. -/
theorem rows_covered (i : S150000x64.Idx) :
    ∃ t : Fin cfg0.N, (cfg0.win 3).flush t = true ∧ i ∈ ((cfg0.win 3).blk t).view.set := by
  have hi0 : (i 0).val < 150000 := (i 0).isLt
  have hi1 : (i 1).val < 64 := (i 1).isLt
  have hN : (i 0).val / 3000 < cfg0.N := by
    have : cfg0.N = 50 := by decide
    omega
  obtain ⟨e0, e1, e2, e3, e4, e5, e6, e7, e8⟩ := block_rows ⟨(i 0).val / 3000, hN⟩
  have e7' : win0_3.index ⟨(i 0).val / 3000, hN⟩ (0 : Fin 2) = (i 0).val / 3000 := e7
  refine ⟨⟨(i 0).val / 3000, hN⟩, flush0_3 _, ?_⟩
  rw [mem_block]
  intro a
  match a with
  | ⟨0, _⟩ =>
    show win0_3.index ⟨(i 0).val / 3000, hN⟩ (0 : Fin 2) * 3000 ≤ (i 0).val
      ∧ (i 0).val < win0_3.index ⟨(i 0).val / 3000, hN⟩ (0 : Fin 2) * 3000 + 3000
    omega
  | ⟨1, _⟩ =>
    show win0_3.index ⟨(i 0).val / 3000, hN⟩ (1 : Fin 2) * 64 ≤ (i 1).val
      ∧ (i 1).val < win0_3.index ⟨(i 0).val / 3000, hN⟩ (1 : Fin 2) * 64 + 64
    omega

/-- THE OUTPUT TABLE after all 50 write-backs: the product of x with the matrix, row r scaled by its factor. -/
theorem final (c : Dev nD) :
    (dat0 (F := Ideal) V c).arrAt 3 cfg0.N = Cert.Spec.mmScale (V c main_v0) (V c main_arg6) (V c main_v25) :=
  (dat0 (F := Ideal) V c).arrAt_eq_of_cover 3 _ (fun t _ => written_block V c t) rows_covered

end Cert.KernelIdeal.Reg0

end
-- ==== Proof.Reg1.lean ====
/-
  Region 1 in closed form: the layer-normalised, rectified table plus the residual, and the next layer's scaled product of it.

  Each of the fifty grid points handles a block of 3000 rows of the 150000-row tables.  At an entry (p, q) of a block
  the body computes, with h k = agg (p, k) + b k the row of 64 features: the mean of h (sum divided by 64), the centred
  values, the variance (mean of their squares), the reciprocal square root of (variance + ε); the centred value times
  that, times g q, plus be q, clipped below at zero, plus the residual at (p, q).  The second output is the product of
  this block with the 64 × 64 matrix W, row p scaled by the per-row factor d p.  Both are the restriction to the block
  of one whole-table function, and the fifty blocks tile the table, so after all write-backs each output table IS
  that function of the input tables.
-/
import proofs.«405038_j14748917694873_3_alg».proof.Proof.Gen.KernelIdeal.Frame
import proofs.«405038_j14748917694873_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg1

open Cert.KernelIdeal Cert.KernelIdeal.Gen
open Idealize.ShloMosaic Idealize.ShloMosaic.TcCoe Idealize.SL.Sem Idealize.ShloMosaic.ValueIdx
open Idealize.ShloMosaic.Pipeline (Dat)

/-! ## Column layouts: a vector of row values as a one-column table, and a one-column table spread over the columns -/

/-- An [a] array cast to [a, 1] reads, at (p, u), the operand at p, whatever the unit coordinate u. -/
theorem cast_column_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, c), the operand's one column at row p. -/
theorem spread_column_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum along the features of a 3000 × 64 block, read at row p: the sum over the 64 features of that row. -/
theorem row_sum_apply (src : FVec Ideal S3000x64 .f32) (hφ : FTy.f32 = FTy.f32 ∨ FTy.f32 = FTy.bf16)
    (hacc : (0x00000000#32 : BitVec 32) = 0x00000000#32) (p : Fin 3000) :
    multiReduction (F := Ideal) .add [1] S3000 src 0x00000000#32 reduces_S3000x64_S3000 hφ hacc (ix1 p)
      = ∑ k : Fin 64, src (ix2 p k) :=
  (Ideal.multiReduction_add_single src 0x00000000#32 reduces_S3000x64_S3000 hφ hacc (ix1 p)).trans
    (Finset.sum_congr rfl fun k _ => congrArg src (funext fun a => by match a with | ⟨0, _⟩ => rfl | ⟨1, _⟩ => rfl))

/-! ## The body's values at an entry of a block -/

/-- A reciprocal square root at an index is that of the element. -/
theorem rsqrt_at {s : Shape} {φ : FTy} (x : FVec Ideal s φ) (i : s.Idx) : rsqrt x i = Ideal.rsqrt (x i) := rfl

/-- THE NORMALISED, RECTIFIED ROW PLUS THE RESIDUAL at entry (p, q) of a block: with h k = x (p, k) + b k, the centred
    value of h at q times the reciprocal square root of (variance of h + ε), times g q, plus be q, clipped below at
    zero, plus the residual at (p, q). -/
theorem norm_at (x : Vec Ideal S3000x64 .f32) (b g be : Vec Ideal S64 .f32) (r : Vec Ideal S3000x64 .f32)
    (p : Fin 3000) (q : Fin 64) :
    k1_pay2 (F := Ideal) x b g be r (ix2 p q)
      = max (((x (ix2 p q) + b (ix1 q)) - Cert.Spec.lnMean (fun k => x (ix2 p k) + b (ix1 k)))
              * Ideal.rsqrt (Cert.Spec.lnVar (fun k => x (ix2 p k) + b (ix1 k)) + Cert.Spec.eps) * g (ix1 q) + be (ix1 q))
            Cert.Spec.zero32
          + r (ix2 p q) := by
  unfold k1_pay2
  simp only [addf_apply, subf_apply, mulf_apply, divf_apply, maximumf_apply, rsqrt_at, broadcast_apply, shapeCast_self,
    shapeCast_a_1a_apply, broadcastTo_1b_ab_apply, cast_column_apply, spread_column_apply]
  rw [row_sum_apply]
  simp only [addf_apply, subf_apply, mulf_apply, divf_apply, maximumf_apply, rsqrt_at, broadcast_apply, shapeCast_self,
    shapeCast_a_1a_apply, broadcastTo_1b_ab_apply, cast_column_apply, spread_column_apply]
  rw [row_sum_apply]
  simp only [addf_apply, subf_apply, mulf_apply, divf_apply, maximumf_apply, rsqrt_at, broadcast_apply, shapeCast_self,
    shapeCast_a_1a_apply, broadcastTo_1b_ab_apply, cast_column_apply, spread_column_apply]
  rw [row_sum_apply]
  simp only [addf_apply, subf_apply, mulf_apply, divf_apply, maximumf_apply, rsqrt_at, broadcast_apply, shapeCast_self,
    shapeCast_a_1a_apply, broadcastTo_1b_ab_apply, cast_column_apply, spread_column_apply]
  rfl

/-! ## The product of a block with the 64 × 64 matrix -/

theorem product_left_row (i : S3000x64.Idx) (k : dot_S3000x64_S64x64_S3000x64_1_0_0_1_n_n.contr.Idx) :
    (dot_S3000x64_S64x64_S3000x64_1_0_0_1_n_n.lhsIdx i k 0).val = (i 0).val := by
  unfold DotDims.lhsIdx
  rw [dif_neg (show ¬(0 : Fin S3000x64.rank) ∈ dot_S3000x64_S64x64_S3000x64_1_0_0_1_n_n.lhsBatch by decide), dif_pos (show (0 : Fin S3000x64.rank) ∈ dot_S3000x64_S64x64_S3000x64_1_0_0_1_n_n.lhsNonContracting by decide)]
  rfl
theorem product_left_step (i : S3000x64.Idx) (k : dot_S3000x64_S64x64_S3000x64_1_0_0_1_n_n.contr.Idx) :
    (dot_S3000x64_S64x64_S3000x64_1_0_0_1_n_n.lhsIdx i k 1).val = (k ⟨0, by decide⟩).val :=
  dot_S3000x64_S64x64_S3000x64_1_0_0_1_n_n.lhsIdx_val_of_single rfl i k
theorem product_right_step (i : S3000x64.Idx) (k : dot_S3000x64_S64x64_S3000x64_1_0_0_1_n_n.contr.Idx) :
    (dot_S3000x64_S64x64_S3000x64_1_0_0_1_n_n.rhsIdx i k 0).val = (k ⟨0, by decide⟩).val :=
  dot_S3000x64_S64x64_S3000x64_1_0_0_1_n_n.rhsIdx_val_of_single rfl i k
theorem product_right_column (i : S3000x64.Idx) (k : dot_S3000x64_S64x64_S3000x64_1_0_0_1_n_n.contr.Idx) :
    (dot_S3000x64_S64x64_S3000x64_1_0_0_1_n_n.rhsIdx i k 1).val = (i 1).val := by
  unfold DotDims.rhsIdx
  rw [dif_neg (show ¬(1 : Fin S64x64.rank) ∈ dot_S3000x64_S64x64_S3000x64_1_0_0_1_n_n.rhsBatch by decide), dif_pos (show (1 : Fin S64x64.rank) ∈ dot_S3000x64_S64x64_S3000x64_1_0_0_1_n_n.rhsNonContracting by decide)]
  rfl

/-- The body's product accumulated into a zero splat, at entry (p, q): the sum over the 64 steps of left (p, k)
    times right (k, q). -/
theorem product_at {φ₁ φ₂ : FTy} (l : FVec Ideal S3000x64 φ₁) (w : FVec Ideal S64x64 φ₂) (p : Fin 3000) (q : Fin 64) :
    matmul dot_S3000x64_S64x64_S3000x64_1_0_0_1_n_n none l w (constant (F := Ideal) S3000x64 .f32 0x00000000#32) (ix2 p q)
      = ∑ k : Fin 64, l (ix2 p k) * w (ix2 k q) := by
  refine (Ideal.matmul_constant_zero_apply dot_S3000x64_S64x64_S3000x64_1_0_0_1_n_n none l w (ix2 p q)).trans ?_
  rw [← Equiv.sum_comp (contrEquiv1 dot_S3000x64_S64x64_S3000x64_1_0_0_1_n_n 64 rfl rfl).symm]
  refine Finset.sum_congr rfl fun k _ => ?_
  have hk := contrEquiv1_symm_val dot_S3000x64_S64x64_S3000x64_1_0_0_1_n_n 64 rfl rfl k
  have el : dot_S3000x64_S64x64_S3000x64_1_0_0_1_n_n.lhsIdx (ix2 p q) ((contrEquiv1 dot_S3000x64_S64x64_S3000x64_1_0_0_1_n_n 64 rfl rfl).symm k) = ix2 p k := funext fun a => Fin.ext (by
    match a with
    | ⟨0, _⟩ => exact product_left_row _ _
    | ⟨1, _⟩ => exact (product_left_step _ _).trans hk)
  have er : dot_S3000x64_S64x64_S3000x64_1_0_0_1_n_n.rhsIdx (ix2 p q) ((contrEquiv1 dot_S3000x64_S64x64_S3000x64_1_0_0_1_n_n 64 rfl rfl).symm k) = ix2 k q := funext fun a => Fin.ext (by
    match a with
    | ⟨0, _⟩ => exact (product_right_step _ _).trans hk
    | ⟨1, _⟩ => exact product_right_column _ _)
  rw [el, er]

/-- THE PRODUCT OF THE NEW STATE WITH W at entry (p, q) of a block. -/
theorem state_product_at (x : Vec Ideal S3000x64 .f32) (b g be : Vec Ideal S64 .f32) (r : Vec Ideal S3000x64 .f32)
    (w : Vec Ideal S64x64 .f32) (p : Fin 3000) (q : Fin 64) :
    k1_pay3 (F := Ideal) x b g be r w (ix2 p q) = ∑ k : Fin 64, k1_pay2 (F := Ideal) x b g be r (ix2 p k) * w (ix2 k q) := by
  unfold k1_pay3
  exact product_at _ _ p q

/-- THE ROW SCALING at entry (p, q) of a block: the value there times the row's factor. -/
theorem scale_at (y : FVec Ideal S3000x64 .f32) (d : Vec Ideal S3000x1 .f32) (p : Fin 3000) (q : Fin 64) :
    k1_pay1 (F := Ideal) y d (ix2 p q) = y (ix2 p q) * d (ix2 p (0 : Fin 1)) := by
  unfold k1_pay1
  simp only [truncf_apply, mulf_apply, shapeCast_self, spread_column_apply]

/-! ## From the blocks to the tables -/

section Tables

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- Where the blocks sit: at each of the fifty points t the row-blocked windows are at block row t and block
    column 0, the whole windows at block 0. -/
theorem block_indices : ∀ t : Fin cfg1.N,
    win1_0.index t (0 : Fin 2) = t.val ∧ win1_0.index t (1 : Fin 2) = 0
    ∧ win1_1.index t (0 : Fin 1) = 0
    ∧ win1_2.index t (0 : Fin 2) = t.val ∧ win1_2.index t (1 : Fin 2) = 0
    ∧ win1_3.index t (0 : Fin 1) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- There are fifty points. -/
theorem point_lt (t : Fin cfg1.N) : t.val < 50 := t.isLt

/-- Row p of the block of point t is row 3000 · t + p of a table. -/
def tableRow (t : Fin cfg1.N) (p : Fin 3000) : Fin 150000 :=
  ⟨t.val * 3000 + p.val, by have := point_lt t; have := p.isLt; omega⟩

/-- The block of agg at point t, read at (p, k): the table at (3000 · t + p, k). -/
theorem agg_block (c : Dev nD) (t : Fin cfg1.N) (p : Fin 3000) (k : Fin 64) :
    (iblk1 (F := Ideal) V c 0 t : Vec Ideal S3000x64 .f32) (ix2 p k) = V c main_v40 (ix2 (tableRow t p) k) := by
  obtain ⟨e00, e01, -⟩ := block_indices t
  show V c main_v40 (((cfg1.win 0).blk t).view.emb (ix2 p k)) = V c main_v40 (ix2 (tableRow t p) k)
  refine congrArg (V c main_v40) (funext fun a => Fin.ext ?_)
  match a with
  | ⟨0, _⟩ => show win1_0.index t (0 : Fin 2) * 3000 + 1 * p.val = t.val * 3000 + p.val; omega
  | ⟨1, _⟩ => show win1_0.index t (1 : Fin 2) * 64 + 1 * k.val = k.val; omega

/-- The whole vector b at every point. -/
theorem bias_block (c : Dev nD) (t : Fin cfg1.N) (k : Fin 64) :
    (iblk1 (F := Ideal) V c 1 t : Vec Ideal S64 .f32) (ix1 k) = V c main_arg7 (ix1 k) := by
  obtain ⟨-, -, e1, -⟩ := block_indices t
  show V c main_arg7 (((cfg1.win 1).blk t).view.emb (ix1 k)) = V c main_arg7 (ix1 k)
  refine congrArg (V c main_arg7) (funext fun a => Fin.ext ?_)
  match a with
  | ⟨0, _⟩ => show win1_1.index t (0 : Fin 1) * 64 + 1 * k.val = k.val; omega

/-- The block of the residual at point t, read at (p, k): the table at (3000 · t + p, k). -/
theorem resid_block (c : Dev nD) (t : Fin cfg1.N) (p : Fin 3000) (k : Fin 64) :
    (iblk1 (F := Ideal) V c 2 t : Vec Ideal S3000x64 .f32) (ix2 p k) = V c main_v0 (ix2 (tableRow t p) k) := by
  obtain ⟨-, -, -, e20, e21, -⟩ := block_indices t
  show V c main_v0 (((cfg1.win 2).blk t).view.emb (ix2 p k)) = V c main_v0 (ix2 (tableRow t p) k)
  refine congrArg (V c main_v0) (funext fun a => Fin.ext ?_)
  match a with
  | ⟨0, _⟩ => show win1_2.index t (0 : Fin 2) * 3000 + 1 * p.val = t.val * 3000 + p.val; omega
  | ⟨1, _⟩ => show win1_2.index t (1 : Fin 2) * 64 + 1 * k.val = k.val; omega

/-- The whole vector g at every point. -/
theorem gain_block (c : Dev nD) (t : Fin cfg1.N) (k : Fin 64) :
    (iblk1 (F := Ideal) V c 3 t : Vec Ideal S64 .f32) (ix1 k) = V c main_arg8 (ix1 k) := by
  obtain ⟨-, -, -, -, -, e3, -⟩ := block_indices t
  show V c main_arg8 (((cfg1.win 3).blk t).view.emb (ix1 k)) = V c main_arg8 (ix1 k)
  refine congrArg (V c main_arg8) (funext fun a => Fin.ext ?_)
  match a with
  | ⟨0, _⟩ => show win1_3.index t (0 : Fin 1) * 64 + 1 * k.val = k.val; omega

/-- The whole vector be at every point. -/
theorem shift_block (c : Dev nD) (t : Fin cfg1.N) (k : Fin 64) :
    (iblk1 (F := Ideal) V c 4 t : Vec Ideal S64 .f32) (ix1 k) = V c main_arg9 (ix1 k) := by
  obtain ⟨-, -, -, -, -, -, e4, -⟩ := block_indices t
  show V c main_arg9 (((cfg1.win 4).blk t).view.emb (ix1 k)) = V c main_arg9 (ix1 k)
  refine congrArg (V c main_arg9) (funext fun a => Fin.ext ?_)
  match a with
  | ⟨0, _⟩ => show win1_4.index t (0 : Fin 1) * 64 + 1 * k.val = k.val; omega

/-- The whole matrix W at every point. -/
theorem matrix_block (c : Dev nD) (t : Fin cfg1.N) (k q : Fin 64) :
    (iblk1 (F := Ideal) V c 5 t : Vec Ideal S64x64 .f32) (ix2 k q) = V c main_arg10 (ix2 k q) := by
  obtain ⟨-, -, -, -, -, -, -, e50, e51, -⟩ := block_indices t
  show V c main_arg10 (((cfg1.win 5).blk t).view.emb (ix2 k q)) = V c main_arg10 (ix2 k q)
  refine congrArg (V c main_arg10) (funext fun a => Fin.ext ?_)
  match a with
  | ⟨0, _⟩ => show win1_5.index t (0 : Fin 2) * 64 + 1 * k.val = k.val; omega
  | ⟨1, _⟩ => show win1_5.index t (1 : Fin 2) * 64 + 1 * q.val = q.val; omega

/-- The block of the row factors at point t, read at (p, 0): the column at row 3000 · t + p. -/
theorem factor_block (c : Dev nD) (t : Fin cfg1.N) (p : Fin 3000) :
    (iblk1 (F := Ideal) V c 6 t : Vec Ideal S3000x1 .f32) (ix2 p (0 : Fin 1)) = V c main_v25 (ix2 (tableRow t p) (0 : Fin 1)) := by
  obtain ⟨-, -, -, -, -, -, -, -, -, e60, e61, -⟩ := block_indices t
  show V c main_v25 (((cfg1.win 6).blk t).view.emb (ix2 p (0 : Fin 1))) = V c main_v25 (ix2 (tableRow t p) (0 : Fin 1))
  refine congrArg (V c main_v25) (funext fun a => Fin.ext ?_)
  match a with
  | ⟨0, _⟩ => show win1_6.index t (0 : Fin 2) * 3000 + 1 * p.val = t.val * 3000 + p.val; omega
  | ⟨1, _⟩ => show win1_6.index t (1 : Fin 2) * 1 + 1 * 0 = 0; omega

/-- Entry (p, q) of the first output's block at point t sits at (3000 · t + p, q) of its table. -/
theorem state_entry (t : Fin cfg1.N) (p : Fin 3000) (q : Fin 64) :
    ((cfg1.win 7).blk t).view.emb (ix2 p q) = ix2 (tableRow t p) q := by
  obtain ⟨-, -, -, -, -, -, -, -, -, -, -, e70, e71, -⟩ := block_indices t
  refine funext fun a => Fin.ext ?_
  match a with
  | ⟨0, _⟩ => show win1_7.index t (0 : Fin 2) * 3000 + 1 * p.val = t.val * 3000 + p.val; omega
  | ⟨1, _⟩ => show win1_7.index t (1 : Fin 2) * 64 + 1 * q.val = q.val; omega

/-- Entry (p, q) of the second output's block at point t sits at (3000 · t + p, q) of its table. -/
theorem product_entry (t : Fin cfg1.N) (p : Fin 3000) (q : Fin 64) :
    ((cfg1.win 8).blk t).view.emb (ix2 p q) = ix2 (tableRow t p) q := by
  obtain ⟨-, -, -, -, -, -, -, -, -, -, -, -, -, e80, e81⟩ := block_indices t
  refine funext fun a => Fin.ext ?_
  match a with
  | ⟨0, _⟩ => show win1_8.index t (0 : Fin 2) * 3000 + 1 * p.val = t.val * 3000 + p.val; omega
  | ⟨1, _⟩ => show win1_8.index t (1 : Fin 2) * 64 + 1 * q.val = q.val; omega

/-- WHAT POINT t WRITES BACK TO THE FIRST OUTPUT is block t of the normalised, rectified table plus the residual. -/
theorem state_block (c : Dev nD) (t : Fin cfg1.N) :
    (dat1 (F := Ideal) V c).flushed 7 t
      = ((cfg1.win 7).blk t).view.read (Elt Ideal)
          (Cert.Spec.lnRelu (V c main_v40) (V c main_arg7) (V c main_v0) (V c main_arg8) (V c main_arg9)) := by
  show (cfg1.win 7).cut (grid1.coords t) ((dat1 V c).after 7 t) = _
  rw [after1_7]
  unfold out1_7
  rw [View.canon_unit_zero origin2]
  simp only [View.ld_unit_zero (S := S3000x64) origin2, View.ld_unit_zero (S := S64) origin1]
  funext j
  obtain ⟨p, q, rfl⟩ : ∃ (p : Fin 3000) (q : Fin 64), j = ix2 p q := ⟨j 0, j 1, eq_ix2 j⟩
  refine (norm_at _ _ _ _ _ p q).trans ?_
  simp only [agg_block V c t, bias_block V c t, resid_block V c t, gain_block V c t, shift_block V c t]
  show _ = Cert.Spec.lnRelu _ _ _ _ _ (((cfg1.win 7).blk t).view.emb (ix2 p q))
  rw [state_entry t p q]
  rfl

/-- WHAT POINT t WRITES BACK TO THE SECOND OUTPUT is block t of the scaled product of that table with W. -/
theorem product_block (c : Dev nD) (t : Fin cfg1.N) :
    (dat1 (F := Ideal) V c).flushed 8 t
      = ((cfg1.win 8).blk t).view.read (Elt Ideal)
          (Cert.Spec.mmScale (Cert.Spec.lnRelu (V c main_v40) (V c main_arg7) (V c main_v0) (V c main_arg8) (V c main_arg9))
            (V c main_arg10) (V c main_v25)) := by
  show (cfg1.win 8).cut (grid1.coords t) ((dat1 V c).after 8 t) = _
  rw [after1_8]
  unfold out1_8
  rw [View.canon_unit_zero origin2]
  simp only [View.ld_unit_zero (S := S3000x64) origin2, View.ld_unit_zero (S := S64) origin1,
    View.ld_unit_zero (S := S64x64) origin2, View.ld_unit_zero (S := S3000x1) origin2]
  funext j
  obtain ⟨p, q, rfl⟩ : ∃ (p : Fin 3000) (q : Fin 64), j = ix2 p q := ⟨j 0, j 1, eq_ix2 j⟩
  refine (scale_at _ _ p q).trans ?_
  rw [state_product_at]
  simp only [norm_at]
  simp only [agg_block V c t, bias_block V c t, resid_block V c t, gain_block V c t, shift_block V c t,
    matrix_block V c t, factor_block V c t]
  show _ = Cert.Spec.mmScale _ _ _ (((cfg1.win 8).blk t).view.emb (ix2 p q))
  rw [product_entry t p q]
  rfl

/-- An index of the first output's table is in point t's block iff each coordinate is in the block's range. -/
theorem mem_state_block (t : Fin cfg1.N) (i : S150000x64.Idx) :
    i ∈ ((cfg1.win 7).blk t).view.set ↔ ∀ a : Fin 2, win1_7.index t a * S3000x64.size a ≤ (i a).val ∧ (i a).val < win1_7.index t a * S3000x64.size a + S3000x64.size a := by
  show i ∈ ((View.whole main_v41_0).slice (win1_7.rect t)).set ↔ _
  rw [View.set_slice_whole, Rect.mem_set_unit]
  exact Iff.rfl

/-- An index of the second output's table is in point t's block iff each coordinate is in the block's range. -/
theorem mem_product_block (t : Fin cfg1.N) (i : S150000x64.Idx) :
    i ∈ ((cfg1.win 8).blk t).view.set ↔ ∀ a : Fin 2, win1_8.index t a * S3000x64.size a ≤ (i a).val ∧ (i a).val < win1_8.index t a * S3000x64.size a + S3000x64.size a := by
  show i ∈ ((View.whole main_v41_1).slice (win1_8.rect t)).set ↔ _
  rw [View.set_slice_whole, Rect.mem_set_unit]
  exact Iff.rfl

/-- The point whose block holds row r: r / 3000. -/
def pointOf (r : Fin 150000) : Fin cfg1.N := ⟨r.val / 3000, by have := r.isLt; show r.val / 3000 < 50; omega⟩

theorem pointOf_val (r : Fin 150000) : (pointOf r).val = r.val / 3000 := rfl

/-- THE FIFTY BLOCKS TILE THE FIRST OUTPUT: row r is in the block of point r / 3000. -/
theorem state_cover (i : S150000x64.Idx) :
    ∃ t : Fin cfg1.N, (cfg1.win 7).flush t = true ∧ i ∈ ((cfg1.win 7).blk t).view.set := by
  have hi0 : (i 0).val < 150000 := (i 0).isLt
  have hi1 : (i 1).val < 64 := (i 1).isLt
  have ht := pointOf_val (i 0)
  obtain ⟨-, -, -, -, -, -, -, -, -, -, -, e70, e71, -⟩ := block_indices (pointOf (i 0))
  refine ⟨pointOf (i 0), flush1_7 _, ?_⟩
  rw [mem_state_block]
  intro a
  match a with
  | ⟨0, _⟩ => show win1_7.index (pointOf (i 0)) (0 : Fin 2) * 3000 ≤ (i 0).val ∧ (i 0).val < win1_7.index (pointOf (i 0)) (0 : Fin 2) * 3000 + 3000; omega
  | ⟨1, _⟩ => show win1_7.index (pointOf (i 0)) (1 : Fin 2) * 64 ≤ (i 1).val ∧ (i 1).val < win1_7.index (pointOf (i 0)) (1 : Fin 2) * 64 + 64; omega

/-- THE FIFTY BLOCKS TILE THE SECOND OUTPUT likewise. -/
theorem product_cover (i : S150000x64.Idx) :
    ∃ t : Fin cfg1.N, (cfg1.win 8).flush t = true ∧ i ∈ ((cfg1.win 8).blk t).view.set := by
  have hi0 : (i 0).val < 150000 := (i 0).isLt
  have hi1 : (i 1).val < 64 := (i 1).isLt
  have ht := pointOf_val (i 0)
  obtain ⟨-, -, -, -, -, -, -, -, -, -, -, -, -, e80, e81⟩ := block_indices (pointOf (i 0))
  refine ⟨pointOf (i 0), flush1_8 _, ?_⟩
  rw [mem_product_block]
  intro a
  match a with
  | ⟨0, _⟩ => show win1_8.index (pointOf (i 0)) (0 : Fin 2) * 3000 ≤ (i 0).val ∧ (i 0).val < win1_8.index (pointOf (i 0)) (0 : Fin 2) * 3000 + 3000; omega
  | ⟨1, _⟩ => show win1_8.index (pointOf (i 0)) (1 : Fin 2) * 64 ≤ (i 1).val ∧ (i 1).val < win1_8.index (pointOf (i 0)) (1 : Fin 2) * 64 + 64; omega

/-- the new node state: layer norm of (agg + b) scaled by g, shifted by be, rectified, plus the residual -/
theorem final7 (c : Dev nD) :
    (dat1 (F := Ideal) V c).arrAt 7 cfg1.N
      = Cert.Spec.lnRelu (V c main_v40) (V c main_arg7) (V c main_v0) (V c main_arg8) (V c main_arg9) :=
  (dat1 (F := Ideal) V c).arrAt_eq_of_cover 7 _ (fun t _ => state_block V c t) state_cover

/-- the next layer's scaled product of that state -/
theorem final8 (c : Dev nD) :
    (dat1 (F := Ideal) V c).arrAt 8 cfg1.N
      = Cert.Spec.mmScale (Cert.Spec.lnRelu (V c main_v40) (V c main_arg7) (V c main_v0) (V c main_arg8) (V c main_arg9)) (V c main_arg10) (V c main_v25) :=
  (dat1 (F := Ideal) V c).arrAt_eq_of_cover 8 _ (fun t _ => product_block V c t) product_cover

end Tables

end Cert.KernelIdeal.Reg1

end
-- ==== Proof.Reg2.lean ====
/-
  Region 2 of the fused program, in closed form.

  The region walks a grid of 50 points; point t handles rows 3000·t … 3000·t + 2999 of the 150000 × 64 node tables.  On
  its block of rows it forms agg + b, normalises each row over its 64 features (mean, centred values, variance with
  the divisor 64, reciprocal square root of variance + ε), scales by g and shifts by be feature-wise, clips below at
  zero, adds the residual rows, multiplies the resulting block by the 64 × 64 matrix Wp and adds the bias bp to every
  row.  Every entry of an output row depends on the same row of the inputs only, so the 50 blocks written back are the
  blocks of ONE table: (lnRelu agg b resid g be) · Wp + bp.
-/
import proofs.«405038_j14748917694873_3_alg».proof.Proof.Gen.KernelIdeal.Frame
import proofs.«405038_j14748917694873_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## Per-row columns: a vector of per-row values laid as a column and spread over the features -/

/-- A `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The block's operations read at an entry -/

/-- A feature vector spread over the rows of the block reads, at `(p, k)`, the vector at `k`. -/
theorem featRow_apply (v : FVec Ideal S64 .f32) (p : Fin 3000) (k : Fin 64) :
    broadcastTo S3000x64 (shapeCast S1x64 v shapeCasts_S64_S1x64) broadcasts_S1x64_S3000x64 (ix2 p k) = v (ix1 k) :=
  (broadcastTo_1b_ab_apply _ _ p k).trans (shapeCast_a_1a_apply v _ (0 : Fin 1) k)

/-- The sum over the 64 features of row `p` of a block. -/
theorem rowSum_apply (x : FVec Ideal S3000x64 .f32) (p : Fin 3000) :
    multiReduction (F := Ideal) .add [1] S3000 x 0x00000000#32 reduces_S3000x64_S3000 (.inl rfl) rfl (ix1 p)
      = ∑ k : Fin 64, x (ix2 p k) := by
  refine (Ideal.multiReduction_add_single x _ reduces_S3000x64_S3000 _ _ (ix1 p)).trans ?_
  refine Finset.sum_congr rfl fun k _ => congrArg x ?_
  funext a; apply Fin.ext
  match a with
  | ⟨0, _⟩ => rfl
  | ⟨1, _⟩ => rfl

/-- A per-row sum laid as a column and spread over the features reads, at `(p, q)`, the sum of row `p`. -/
theorem rowSumCol_apply (x : FVec Ideal S3000x64 .f32) (p : Fin 3000) (u : Fin 1) :
    shapeCast S3000x1 (multiReduction (F := Ideal) .add [1] S3000 x 0x00000000#32 reduces_S3000x64_S3000 (.inl rfl) rfl)
        shapeCasts_S3000_S3000x1 (ix2 p u)
      = ∑ k : Fin 64, x (ix2 p k) :=
  (shapeCast_a_a1_apply _ _ p u).trans (rowSum_apply x p)

/-- A column spread over the features reads, at `(p, q)`, the column's entry of row `p`. -/
theorem colSpread_apply (v : FVec Ideal S3000x1 .f32) (p : Fin 3000) (q : Fin 64) :
    broadcastTo S3000x64 v broadcasts_S3000x1_S3000x64 (ix2 p q) = v (ix2 p (0 : Fin 1)) :=
  broadcastTo_a1_ab_apply v _ p q

/-! ## The block's product with the 64 × 64 matrix, read at an entry -/

theorem prodLhs_0 (j : S3000x64.Idx) (q : dot_S3000x64_S64x64_S3000x64_1_0_0_1_n_n.contr.Idx) :
    (dot_S3000x64_S64x64_S3000x64_1_0_0_1_n_n.lhsIdx j q 0).val = (j 0).val := by
  unfold DotDims.lhsIdx
  rw [dif_neg (show ¬(0 : Fin S3000x64.rank) ∈ dot_S3000x64_S64x64_S3000x64_1_0_0_1_n_n.lhsBatch by decide), dif_pos (show (0 : Fin S3000x64.rank) ∈ dot_S3000x64_S64x64_S3000x64_1_0_0_1_n_n.lhsNonContracting by decide)]
  rfl
theorem prodLhs_1 (j : S3000x64.Idx) (q : dot_S3000x64_S64x64_S3000x64_1_0_0_1_n_n.contr.Idx) :
    (dot_S3000x64_S64x64_S3000x64_1_0_0_1_n_n.lhsIdx j q 1).val = (q ⟨0, by decide⟩).val :=
  dot_S3000x64_S64x64_S3000x64_1_0_0_1_n_n.lhsIdx_val_of_single rfl j q
theorem prodRhs_0 (j : S3000x64.Idx) (q : dot_S3000x64_S64x64_S3000x64_1_0_0_1_n_n.contr.Idx) :
    (dot_S3000x64_S64x64_S3000x64_1_0_0_1_n_n.rhsIdx j q 0).val = (q ⟨0, by decide⟩).val :=
  dot_S3000x64_S64x64_S3000x64_1_0_0_1_n_n.rhsIdx_val_of_single rfl j q
theorem prodRhs_1 (j : S3000x64.Idx) (q : dot_S3000x64_S64x64_S3000x64_1_0_0_1_n_n.contr.Idx) :
    (dot_S3000x64_S64x64_S3000x64_1_0_0_1_n_n.rhsIdx j q 1).val = (j 1).val := by
  unfold DotDims.rhsIdx
  rw [dif_neg (show ¬(1 : Fin S64x64.rank) ∈ dot_S3000x64_S64x64_S3000x64_1_0_0_1_n_n.rhsBatch by decide), dif_pos (show (1 : Fin S64x64.rank) ∈ dot_S3000x64_S64x64_S3000x64_1_0_0_1_n_n.rhsNonContracting by decide)]
  rfl

/-- Entry (p, q) of the block's product accumulated into the zero splat: the sum over the 64 features of
    left (p, k) times right (k, q). -/
theorem blockProd_apply {φ₁ φ₂ : FTy} (l : FVec Ideal S3000x64 φ₁) (r : FVec Ideal S64x64 φ₂) (p : Fin 3000) (q : Fin 64) :
    matmul dot_S3000x64_S64x64_S3000x64_1_0_0_1_n_n none l r (constant S3000x64 .f32 0x00000000#32) (ix2 p q)
      = ∑ k : Fin 64, l (ix2 p k) * r (ix2 k q) := by
  refine (Ideal.matmul_constant_zero_apply dot_S3000x64_S64x64_S3000x64_1_0_0_1_n_n none l r (ix2 p q)).trans ?_
  rw [← Equiv.sum_comp (contrEquiv1 dot_S3000x64_S64x64_S3000x64_1_0_0_1_n_n 64 rfl rfl).symm]
  refine Finset.sum_congr rfl fun k _ => ?_
  have hk := contrEquiv1_symm_val dot_S3000x64_S64x64_S3000x64_1_0_0_1_n_n 64 rfl rfl k
  have el : dot_S3000x64_S64x64_S3000x64_1_0_0_1_n_n.lhsIdx (ix2 p q) ((contrEquiv1 dot_S3000x64_S64x64_S3000x64_1_0_0_1_n_n 64 rfl rfl).symm k) = ix2 p k := funext fun a => Fin.ext (by
    match a with
    | ⟨0, _⟩ => exact prodLhs_0 _ _
    | ⟨1, _⟩ => exact (prodLhs_1 _ _).trans hk)
  have er : dot_S3000x64_S64x64_S3000x64_1_0_0_1_n_n.rhsIdx (ix2 p q) ((contrEquiv1 dot_S3000x64_S64x64_S3000x64_1_0_0_1_n_n 64 rfl rfl).symm k) = ix2 k q := funext fun a => Fin.ext (by
    match a with
    | ⟨0, _⟩ => exact (prodRhs_0 _ _).trans hk
    | ⟨1, _⟩ => exact prodRhs_1 _ _)
  rw [el, er]

/-! ## The block's payload at an entry -/

/-- The reciprocal square root of a vector reads entry by entry. -/
theorem rsqrt_apply {s : Shape} {φ : FTy} (a : FVec Ideal s φ) (i : s.Idx) : rsqrt a i = Ideal.rsqrt (a i) := rfl

/-- Row p of the block of agg + b, as a function of the feature. -/
def blkRow (x0 : Vec Ideal S3000x64 .f32) (x1 : Vec Ideal S64 .f32) (p : Fin 3000) : Fin 64 → EReal :=
  fun k => x0 (ix2 p k) + x1 (ix1 k)

/-- Entry (p, k) of the block's normalised, scaled, shifted, rectified rows plus the residual rows. -/
def blkLnRelu (x0 : Vec Ideal S3000x64 .f32) (x1 : Vec Ideal S64 .f32) (x2 : Vec Ideal S3000x64 .f32)
    (x3 x4 : Vec Ideal S64 .f32) (p : Fin 3000) (k : Fin 64) : EReal :=
  max ((blkRow x0 x1 p k - Spec.lnMean (blkRow x0 x1 p)) * Ideal.rsqrt (Spec.lnVar (blkRow x0 x1 p) + Spec.eps)
      * x3 (ix1 k) + x4 (ix1 k)) Spec.zero32
    + x2 (ix2 p k)

/-- Entry (p, q) of the block the body multiplies out: the sum over the 64 features of the normalised-rectified-plus-
    residual row p times column q of the matrix. -/
theorem proj_apply (v0 : Vec Ideal S3000x64 .f32) (v2 v22 v26 : Vec Ideal S64 .f32) (v32 : Vec Ideal S3000x64 .f32)
    (v36 : Vec Ideal S64x64 .f32) (p : Fin 3000) (q : Fin 64) :
    k2_pay2 (F := Ideal) v0 v2 v22 v26 v32 v36 (ix2 p q)
      = ∑ k : Fin 64, blkLnRelu v0 v2 v32 v22 v26 p k * v36 (ix2 k q) := by
  unfold k2_pay2
  refine (blockProd_apply _ _ p q).trans ?_
  refine Finset.sum_congr rfl fun k _ => ?_
  simp only [truncf_apply, addf_apply, maximumf_apply, mulf_apply, subf_apply, divf_apply, rsqrt_apply, broadcast_apply,
    shapeCast_self, featRow_apply, colSpread_apply]
  rw [rowSumCol_apply, rowSumCol_apply]
  simp only [addf_apply, mulf_apply, subf_apply, divf_apply, broadcast_apply, featRow_apply, colSpread_apply]
  rw [rowSumCol_apply]
  simp only [addf_apply, featRow_apply]
  rfl

/-- The bias spread over the rows of the block reads, at (p, q), the bias at q. -/
theorem bias_apply (v39 : Vec Ideal S64 .f32) (p : Fin 3000) (q : Fin 64) :
    k2_pay3 (F := Ideal) v39 (ix2 p q) = v39 (ix1 q) := by
  unfold k2_pay3
  exact featRow_apply v39 p q

/-- What the body stores, at an entry of the block: the product entry plus the bias. -/
theorem stored_apply (x0 : Vec Ideal S3000x64 .f32) (x1 : Vec Ideal S64 .f32) (x2 : Vec Ideal S3000x64 .f32)
    (x3 x4 : Vec Ideal S64 .f32) (x5 : Vec Ideal S64x64 .f32) (x6 : Vec Ideal S64 .f32) (p : Fin 3000) (q : Fin 64) :
    k2_pay1 (F := Ideal) (k2_pay2 x0 x1 x3 x4 x2 x5) (k2_pay3 x6) (ix2 p q)
      = (∑ k : Fin 64, blkLnRelu x0 x1 x2 x3 x4 p k * x5 (ix2 k q)) + x6 (ix1 q) := by
  unfold k2_pay1
  show k2_pay2 (F := Ideal) x0 x1 x3 x4 x2 x5 (ix2 p q) + k2_pay3 (F := Ideal) x6 (ix2 p q) = _
  rw [proj_apply, bias_apply]

/-! ## From the 50 blocks to the table -/

section Blocks

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- The printed index maps, decided over the 50 points: the two blocked inputs move with the output down the rows,
    point t at block t, every window at column block 0; the vectors and the matrix are whole at every point. -/
theorem blockIndex_facts : ∀ t : Fin cfg2.N,
    win2_0.index t (0 : Fin 2) = win2_7.index t (0 : Fin 2) ∧ win2_0.index t (1 : Fin 2) = 0
    ∧ win2_2.index t (0 : Fin 2) = win2_7.index t (0 : Fin 2) ∧ win2_2.index t (1 : Fin 2) = 0
    ∧ win2_1.index t (0 : Fin 1) = 0 ∧ win2_3.index t (0 : Fin 1) = 0 ∧ win2_4.index t (0 : Fin 1) = 0
    ∧ win2_6.index t (0 : Fin 1) = 0
    ∧ win2_5.index t (0 : Fin 2) = 0 ∧ win2_5.index t (1 : Fin 2) = 0
    ∧ win2_7.index t (0 : Fin 2) = t.val ∧ win2_7.index t (1 : Fin 2) = 0 :=
  (by decide +kernel : ∀ t : Fin grid2.N, _)

/-- The row of the table that row p of block t is. -/
def rowOf (t : Fin cfg2.N) (p : Fin 3000) : Fin 150000 :=
  ⟨t.val * 3000 + p.val, by have ht : t.val < 50 := t.isLt; have hp := p.isLt; omega⟩

/-- Entry (p, q) of the output's block at point t sits in the table at row 3000·t + p, column q. -/
theorem outBlock_emb (t : Fin cfg2.N) (p : Fin 3000) (q : Fin 64) :
    ((cfg2.win 7).blk t).view.emb (ix2 p q) = ix2 (rowOf t p) q := by
  obtain ⟨e0, e1, e2, e3, e4, e5, e6, e7, e8, e9, e10, e11⟩ := blockIndex_facts t
  funext a; apply Fin.ext
  match a with
  | ⟨0, _⟩ => show win2_7.index t (0 : Fin 2) * 3000 + 1 * p.val = t.val * 3000 + p.val; omega
  | ⟨1, _⟩ => show win2_7.index t (1 : Fin 2) * 64 + 1 * q.val = q.val; omega

/-- The block of agg at point t, read at (p, k): the table's row 3000·t + p. -/
theorem aggBlock_apply (c : Dev nD) (t : Fin cfg2.N) (p : Fin 3000) (k : Fin 64) :
    iblk2 (F := Ideal) V c 0 t (ix2 p k) = V c main_v55 (ix2 (rowOf t p) k) := by
  obtain ⟨e0, e1, e2, e3, e4, e5, e6, e7, e8, e9, e10, e11⟩ := blockIndex_facts t
  show V c main_v55 (((cfg2.win 0).blk t).view.emb (ix2 p k)) = V c main_v55 (ix2 (rowOf t p) k)
  refine congrArg (V c main_v55) ?_
  funext a; apply Fin.ext
  match a with
  | ⟨0, _⟩ => show win2_0.index t (0 : Fin 2) * 3000 + 1 * p.val = t.val * 3000 + p.val; omega
  | ⟨1, _⟩ => show win2_0.index t (1 : Fin 2) * 64 + 1 * k.val = k.val; omega

/-- The block of the residual at point t, read at (p, k): the table's row 3000·t + p. -/
theorem residBlock_apply (c : Dev nD) (t : Fin cfg2.N) (p : Fin 3000) (k : Fin 64) :
    iblk2 (F := Ideal) V c 2 t (ix2 p k) = V c main_v41_0 (ix2 (rowOf t p) k) := by
  obtain ⟨e0, e1, e2, e3, e4, e5, e6, e7, e8, e9, e10, e11⟩ := blockIndex_facts t
  show V c main_v41_0 (((cfg2.win 2).blk t).view.emb (ix2 p k)) = V c main_v41_0 (ix2 (rowOf t p) k)
  refine congrArg (V c main_v41_0) ?_
  funext a; apply Fin.ext
  match a with
  | ⟨0, _⟩ => show win2_2.index t (0 : Fin 2) * 3000 + 1 * p.val = t.val * 3000 + p.val; omega
  | ⟨1, _⟩ => show win2_2.index t (1 : Fin 2) * 64 + 1 * k.val = k.val; omega

/-- The feature vectors are whole at every point. -/
theorem bBlock_apply (c : Dev nD) (t : Fin cfg2.N) (k : Fin 64) :
    iblk2 (F := Ideal) V c 1 t (ix1 k) = V c main_arg11 (ix1 k) := by
  obtain ⟨e0, e1, e2, e3, e4, e5, e6, e7, e8, e9, e10, e11⟩ := blockIndex_facts t
  show V c main_arg11 (((cfg2.win 1).blk t).view.emb (ix1 k)) = V c main_arg11 (ix1 k)
  refine congrArg (V c main_arg11) ?_
  funext a; apply Fin.ext
  match a with
  | ⟨0, _⟩ => show win2_1.index t (0 : Fin 1) * 64 + 1 * k.val = k.val; omega

theorem gBlock_apply (c : Dev nD) (t : Fin cfg2.N) (k : Fin 64) :
    iblk2 (F := Ideal) V c 3 t (ix1 k) = V c main_arg12 (ix1 k) := by
  obtain ⟨e0, e1, e2, e3, e4, e5, e6, e7, e8, e9, e10, e11⟩ := blockIndex_facts t
  show V c main_arg12 (((cfg2.win 3).blk t).view.emb (ix1 k)) = V c main_arg12 (ix1 k)
  refine congrArg (V c main_arg12) ?_
  funext a; apply Fin.ext
  match a with
  | ⟨0, _⟩ => show win2_3.index t (0 : Fin 1) * 64 + 1 * k.val = k.val; omega

theorem beBlock_apply (c : Dev nD) (t : Fin cfg2.N) (k : Fin 64) :
    iblk2 (F := Ideal) V c 4 t (ix1 k) = V c main_arg13 (ix1 k) := by
  obtain ⟨e0, e1, e2, e3, e4, e5, e6, e7, e8, e9, e10, e11⟩ := blockIndex_facts t
  show V c main_arg13 (((cfg2.win 4).blk t).view.emb (ix1 k)) = V c main_arg13 (ix1 k)
  refine congrArg (V c main_arg13) ?_
  funext a; apply Fin.ext
  match a with
  | ⟨0, _⟩ => show win2_4.index t (0 : Fin 1) * 64 + 1 * k.val = k.val; omega

theorem bpBlock_apply (c : Dev nD) (t : Fin cfg2.N) (k : Fin 64) :
    iblk2 (F := Ideal) V c 6 t (ix1 k) = V c main_arg15 (ix1 k) := by
  obtain ⟨e0, e1, e2, e3, e4, e5, e6, e7, e8, e9, e10, e11⟩ := blockIndex_facts t
  show V c main_arg15 (((cfg2.win 6).blk t).view.emb (ix1 k)) = V c main_arg15 (ix1 k)
  refine congrArg (V c main_arg15) ?_
  funext a; apply Fin.ext
  match a with
  | ⟨0, _⟩ => show win2_6.index t (0 : Fin 1) * 64 + 1 * k.val = k.val; omega

/-- The matrix is whole at every point. -/
theorem wpBlock_apply (c : Dev nD) (t : Fin cfg2.N) (k q : Fin 64) :
    iblk2 (F := Ideal) V c 5 t (ix2 k q) = V c main_arg14 (ix2 k q) := by
  obtain ⟨e0, e1, e2, e3, e4, e5, e6, e7, e8, e9, e10, e11⟩ := blockIndex_facts t
  show V c main_arg14 (((cfg2.win 5).blk t).view.emb (ix2 k q)) = V c main_arg14 (ix2 k q)
  refine congrArg (V c main_arg14) ?_
  funext a; apply Fin.ext
  match a with
  | ⟨0, _⟩ => show win2_5.index t (0 : Fin 2) * 64 + 1 * k.val = k.val; omega
  | ⟨1, _⟩ => show win2_5.index t (1 : Fin 2) * 64 + 1 * q.val = q.val; omega

end Blocks

section Final

variable (V : (c : Dev nD) → (b : Ref sig .tc) → Buf (Elt Ideal) ((c : Thread nD τ).loc b))

/-- Row p of the block of agg + b at point t is row 3000·t + p of the table agg + b. -/
theorem blkRow_eq (c : Dev nD) (t : Fin cfg2.N) (p : Fin 3000) :
    blkRow (iblk2 (F := Ideal) V c 0 t) (iblk2 (F := Ideal) V c 1 t) p
      = Spec.lnRow (V c main_v55) (V c main_arg11) (rowOf t p) := by
  funext k
  unfold blkRow Spec.lnRow
  exact congrArg₂ (· + ·) (aggBlock_apply V c t p k) (bBlock_apply V c t k)

/-- WHAT POINT t WRITES BACK is block t of the table (lnRelu agg b resid g be) · Wp + bp of the arrays as the
    region finds them. -/
theorem writtenBack_eq (c : Dev nD) (t : Fin cfg2.N) :
    (dat2 (F := Ideal) V c).flushed 7 t = ((cfg2.win 7).blk t).view.read (Elt Ideal) (Spec.mmBias (Spec.lnRelu (V c main_v55) (V c main_arg11) (V c main_v41_0) (V c main_arg12) (V c main_arg13)) (V c main_arg14) (V c main_arg15)) := by
  show (cfg2.win 7).cut (grid2.coords t) ((dat2 V c).after 7 t) = _
  rw [after2_7]
  unfold out2_7
  rw [View.canon_unit_zero origin2]
  simp only [View.ld_unit_zero (S := S3000x64) origin2, View.ld_unit_zero (S := S64) origin1, View.ld_unit_zero (S := S64x64) origin2]
  funext j
  obtain ⟨p, q, rfl⟩ : ∃ (p : Fin 3000) (q : Fin 64), j = ix2 p q := ⟨j 0, j 1, eq_ix2 j⟩
  show k2_pay1 (F := Ideal) (k2_pay2 (iblk2 V c 0 t) (iblk2 V c 1 t) (iblk2 V c 3 t) (iblk2 V c 4 t) (iblk2 V c 2 t) (iblk2 V c 5 t)) (k2_pay3 (iblk2 V c 6 t)) (ix2 p q)
      = (Spec.mmBias (Spec.lnRelu (V c main_v55) (V c main_arg11) (V c main_v41_0) (V c main_arg12) (V c main_arg13)) (V c main_arg14) (V c main_arg15)) (((cfg2.win 7).blk t).view.emb (ix2 p q))
  rw [stored_apply, outBlock_emb, Spec.mmBias_ix2]
  unfold Spec.mmBiasAt Spec.mmAt
  rw [bpBlock_apply]
  refine congrArg (· + V c main_arg15 (ix1 q)) ?_
  refine Finset.sum_congr rfl fun k _ => ?_
  rw [wpBlock_apply, Spec.lnRelu_ix2]
  refine congrArg (· * V c main_arg14 (ix2 k q)) ?_
  unfold blkLnRelu Spec.lnReluAt
  rw [blkRow_eq, gBlock_apply, beBlock_apply, residBlock_apply]

/-- An index of the table is in point t's block iff each coordinate is in the block's range on its axis. -/
theorem mem_outBlock (t : Fin cfg2.N) (i : S150000x64.Idx) :
    i ∈ ((cfg2.win 7).blk t).view.set ↔ ∀ a : Fin 2, win2_7.index t a * S3000x64.size a ≤ (i a).val ∧ (i a).val < win2_7.index t a * S3000x64.size a + S3000x64.size a := by
  show i ∈ ((View.whole main_v56).slice (win2_7.rect t)).set ↔ _
  rw [View.set_slice_whole, Rect.mem_set_unit]
  exact Iff.rfl

/-- Every row r of the table is in the block of point r / 3000, and every point writes its block back. -/
theorem rows_covered (i : S150000x64.Idx) :
    ∃ t : Fin cfg2.N, (cfg2.win 7).flush t = true ∧ i ∈ ((cfg2.win 7).blk t).view.set := by
  have hi0 : (i 0).val < 150000 := (i 0).isLt
  have hi1 : (i 1).val < 64 := (i 1).isLt
  have hlt : (i 0).val / 3000 < cfg2.N := by show (i 0).val / 3000 < 50; omega
  obtain ⟨e0, e1, e2, e3, e4, e5, e6, e7, e8, e9, e10, e11⟩ := blockIndex_facts ⟨(i 0).val / 3000, hlt⟩
  have e10' : win2_7.index ⟨(i 0).val / 3000, hlt⟩ (0 : Fin 2) = (i 0).val / 3000 := e10
  refine ⟨⟨(i 0).val / 3000, hlt⟩, flush2_7 _, ?_⟩
  rw [mem_outBlock]
  intro a
  match a with
  | ⟨0, _⟩ => show win2_7.index ⟨(i 0).val / 3000, hlt⟩ (0 : Fin 2) * 3000 ≤ (i 0).val ∧ (i 0).val < win2_7.index ⟨(i 0).val / 3000, hlt⟩ (0 : Fin 2) * 3000 + 3000; omega
  | ⟨1, _⟩ => show win2_7.index ⟨(i 0).val / 3000, hlt⟩ (1 : Fin 2) * 64 ≤ (i 1).val ∧ (i 1).val < win2_7.index ⟨(i 0).val / 3000, hlt⟩ (1 : Fin 2) * 64 + 64; omega

/-- THE TABLE after the 50 write-backs: the projection of the second layer's node state (never stored),
    (lnRelu agg b resid g be) · Wp + bp. -/
theorem final7 (c : Dev nD) :
    (dat2 (F := Ideal) V c).arrAt 7 cfg2.N
      = Cert.Spec.mmBias (Cert.Spec.lnRelu (V c main_v55) (V c main_arg11) (V c main_v41_0) (V c main_arg12) (V c main_arg13)) (V c main_arg14) (V c main_arg15) :=
  (dat2 (F := Ideal) V c).arrAt_eq_of_cover 7 _ (fun t _ => writtenBack_eq V c t) rows_covered

end Final

end Cert.KernelIdeal.Reg2

end
-- ==== Proof.Stage.lean ====
/-
  The stretches of array operations the two programs are made of, each as ONE function of the arrays it reads.

  Both programs build the node table (users' rows above items' rows), the edge list with one self loop per node
  appended (sources, destinations, weights), the weighted in-degree of every node and its reciprocal square root
  (zero where the degree is not positive).  A gather index is first brought into range the way array indexing
  does it: a negative index has the extent added.  The reference then weighs edge e by
  dinv(src e) · w e · dinv(dst e) and sends the product row of src e along it; the kernel program folds the factor
  dinv(src e) into the product rows beforehand and weighs the edge by w e · dinv(dst e) only.  Either way the
  messages are summed into their destination rows.  The reference normalises, rectifies and projects with whole-array
  operations; the scores of the requested (user, item) pairs are the clipped sums of row products and biases.
-/
import proofs.«405038_j14748917694873_3_alg».proof.Proof.Gen.KernelIdeal
import proofs.«405038_j14748917694873_3_alg».proof.Proof.Gen.ReferenceIdeal

noncomputable section

namespace Cert.Stage

open Idealize.ShloMosaic Cert.KernelIdeal Cert.KernelIdeal.Gen

variable {F : FTy → Type} [FloatOps F]

/-! ## The graph: node table, edge list with self loops, degrees -/

/-- The node table: the users' rows above the items' rows. -/
def nodeTable (u : FVec F S100000x64 .f32) (it : FVec F S50000x64 .f32) : FVec F S150000x64 .f32 :=
  concatenate S150000x64 0 [⟨S100000x64, u⟩, ⟨S50000x64, it⟩] concatenates_S100000x64_S50000x64_S150000x64_d0

/-- The edges' sources, one self loop per node appended. -/
def srcOf (ei : IVec S2x3200000 32) : IVec S3350000 32 :=
  concatenate S3350000 0 [⟨S3200000, shapeCast S3200000 (extractStridedSlice S1x3200000 ![0, 0] ei slices_S2x3200000_S1x3200000_0_0) shapeCasts_S1x3200000_S3200000⟩,
    ⟨S150000, iotaInDim S150000 32 0⟩] concatenates_S3200000_S150000_S3350000_d0

/-- The edges' destinations, one self loop per node appended. -/
def dstOf (ei : IVec S2x3200000 32) : IVec S3350000 32 :=
  concatenate S3350000 0 [⟨S3200000, shapeCast S3200000 (extractStridedSlice S1x3200000 ![1, 0] ei slices_S2x3200000_S1x3200000_1_0) shapeCasts_S1x3200000_S3200000⟩,
    ⟨S150000, iotaInDim S150000 32 0⟩] concatenates_S3200000_S150000_S3350000_d0

/-- The edges' weights, a unit weight per self loop appended. -/
def edgeW (w : FVec F S3200000 .f32) : FVec F S3350000 .f32 :=
  concatenate S3350000 0 [⟨S3200000, w⟩, ⟨S150000, broadcastInDim S150000 ![] bcast_S_S150000 (constant S_ .f32 0x3F800000#32)⟩]
    concatenates_S3200000_S150000_S3350000_d0

/-- An index list as the one-column array a gather or scatter reads its start indices from. -/
def col (x : IVec S3350000 32) : IVec S3350000x1 32 :=
  broadcastInDim S3350000x1 ![0] bcast_S3350000_S3350000x1_0 x

/-- The weighted in-degree of every node: the weights summed at their destinations. -/
def degOf (dst : IVec S3350000 32) (ew : FVec F S3350000 .f32) : FVec F S150000 .f32 :=
  Host.scatterAdd scatter_S150000_S3350000x1_S3350000_n_0_0_1 (broadcastInDim S150000 ![] bcast_S_S150000 (constant S_ .f32 0x00000000#32)) (col dst) ew

/-- The reciprocal square root of a positive degree, zero elsewhere. -/
def dinvOf (deg : FVec F S150000 .f32) : FVec F S150000 .f32 :=
  select (cmpf .ogt deg (broadcastInDim S150000 ![] bcast_S_S150000 (constant S_ .f32 0x00000000#32))) (Host.rsqrt deg)
    (broadcastInDim S150000 ![] bcast_S_S150000 (id (constant S_ .f32 0x00000000#32)))

/-- Node indices as array indexing reads them: a negative index has the node count added; as a start-index column. -/
def ncol (x : IVec S3350000 32) : IVec S3350000x1 32 :=
  col (select (cmpi .slt x (broadcastInDim S3350000 ![] bcast_S_S3350000 (constantI S_ 32 0#32)))
    (addi x (broadcastInDim S3350000 ![] bcast_S_S3350000 (constantI S_ 32 150000#32))) x)

/-- A per-node value read at each edge's node. -/
def take1 (d : FVec F S150000 .f32) (c : IVec S3350000x1 32) : FVec F S3350000 .f32 :=
  Host.gather gather_S150000_S3350000x1_S3350000_n_0_n_n_0_1_1 d c

/-- A node table's rows read at each edge's node. -/
def rowsAt {φ : FTy} (A : FVec F S150000x64 φ) (c : IVec S3350000x1 32) : FVec F S3350000x64 φ :=
  Host.gather gather_S150000x64_S3350000x1_S3350000x64_1_0_n_n_0_1_164 A c

/-- A per-edge factor repeated along the 64 features. -/
def perEdge (w : FVec F S3350000 .f32) : FVec F S3350000x64 .f32 :=
  broadcastInDim S3350000x64 ![0, 1] bcast_S3350000x1_S3350000x64_0_1 (broadcastInDim S3350000x1 ![0] bcast_S3350000_S3350000x1_0 w)

/-- The messages summed into their destination rows. -/
def aggOf (dst : IVec S3350000 32) (msgs : FVec F S3350000x64 .f32) : FVec F S150000x64 .f32 :=
  Host.scatterAdd scatter_S150000x64_S3350000x1_S3350000x64_1_0_0_1 (broadcastInDim S150000x64 ![] bcast_S_S150000x64 (constant S_ .f32 0x00000000#32)) (col dst) msgs

/-! ## The kernel program's edge weights and messages -/

/-- The kernel program's edge factor: weight times the destination's dinv. -/
def edgeFacK (ew : FVec F S3350000 .f32) (dinv : FVec F S150000 .f32) (dst : IVec S3350000 32) : FVec F S3350000 .f32 :=
  mulf ew (take1 dinv (ncol dst))

/-- dinv as the one-column table the fused kernels scale their product rows by. -/
def dinvCol (dinv : FVec F S150000 .f32) : FVec F S150000x1 .f32 :=
  broadcastInDim S150000x1 ![0] bcast_S150000_S150000x1_0 dinv

/-- The kernel program's messages: the edge factor times the (already source-scaled) product row of the source. -/
def msgK (e : FVec F S3350000 .f32) (hw : FVec F S150000x64 .bf16) (src : IVec S3350000 32) : FVec F S3350000x64 .f32 :=
  mulf (perEdge e) (extf .f32 (rowsAt hw (ncol src)) bitsLt_bf16_f32)

/-! ## The reference's edge weights, messages and layers -/

/-- The reference's edge factor: dinv of the source, times the weight, times dinv of the destination. -/
def normOf (dinv : FVec F S150000 .f32) (src dst : IVec S3350000 32) (ew : FVec F S3350000 .f32) : FVec F S3350000 .f32 :=
  mulf (mulf (take1 dinv (ncol src)) ew) (take1 dinv (ncol dst))

/-- The reference's messages: the edge factor times the product row of the source. -/
def msgR (n : FVec F S3350000 .f32) (hw : FVec F S150000x64 .f32) (src : IVec S3350000 32) : FVec F S3350000x64 .f32 :=
  mulf (perEdge n) (rowsAt hw (ncol src))

/-- The reference's product of a node table with a 64 × 64 matrix. -/
def dotR (A : FVec F S150000x64 .f32) (W : FVec F S64x64 .f32) : FVec F S150000x64 .f32 :=
  Host.dotGeneral Cert.ReferenceIdeal.dot_S150000x64_S64x64_S150000x64_1_0_0_1_n_n none A W

/-- A 64-vector repeated down the 150000 rows. -/
def perFeature (v : FVec F S64 .f32) : FVec F S150000x64 .f32 :=
  broadcastInDim S150000x64 ![0, 1] Cert.ReferenceIdeal.Gen.bcast_S1x64_S150000x64_0_1 (broadcastInDim S1x64 ![1] Cert.ReferenceIdeal.Gen.bcast_S64_S1x64_1 v)

/-- A per-row value repeated along the 64 features. -/
def perRow (v : FVec F S150000x1 .f32) : FVec F S150000x64 .f32 :=
  broadcastInDim S150000x64 ![0, 1] Cert.ReferenceIdeal.Gen.bcast_S150000x1_S150000x64_0_1 v

/-- A row sum over the 64 features divided by 64, as a one-column table. -/
def rowMean (x : FVec F S150000x64 .f32) : FVec F S150000x1 .f32 :=
  Host.divf (broadcastInDim S150000x1 ![0] bcast_S150000_S150000x1_0
      (Host.reduceAdd x (constant S_ .f32 0x00000000#32) Cert.ReferenceIdeal.Gen.reducesTo_S150000x64_S150000_d1 Cert.ReferenceIdeal.Gen.h_S_))
    (broadcastInDim S150000x1 ![] Cert.ReferenceIdeal.Gen.bcast_S_S150000x1 (constant S_ .f32 0x42800000#32))

/-- The reference's layer: bias, layer normalisation over the features, scale and shift, rectifier, residual. -/
def lnHost (agg : FVec F S150000x64 .f32) (b g be : FVec F S64 .f32) (resid : FVec F S150000x64 .f32) : FVec F S150000x64 .f32 :=
  let h := addf agg (perFeature b)
  let mean := rowMean h
  let d := subf h (perRow mean)
  let var := rowMean (mulf d d)
  let d' := subf h (perRow mean)
  let r := Host.rsqrt (addf var (broadcastInDim S150000x1 ![] Cert.ReferenceIdeal.Gen.bcast_S_S150000x1 (constant S_ .f32 0x3727C5AC#32)))
  addf (maximumf (addf (mulf (mulf d' (perRow r)) (perFeature g)) (perFeature be))
      (broadcastInDim S150000x64 ![] bcast_S_S150000x64 (constant S_ .f32 0x00000000#32))) resid

/-- The reference's projection: product plus bias. -/
def projR (h : FVec F S150000x64 .f32) (Wp : FVec F S64x64 .f32) (bp : FVec F S64 .f32) : FVec F S150000x64 .f32 :=
  addf (dotR h Wp) (perFeature bp)

/-! ## The scores -/

/-- The users' rows of the projected table. -/
def usersPart (P : FVec F S150000x64 .f32) : FVec F S100000x64 .f32 :=
  extractStridedSlice S100000x64 ![0, 0] P slices_S150000x64_S100000x64_0_0

/-- The items' rows of the projected table. -/
def itemsPart (P : FVec F S150000x64 .f32) : FVec F S50000x64 .f32 :=
  extractStridedSlice S50000x64 ![100000, 0] P slices_S150000x64_S50000x64_100000_0

/-- Requested indices into a table of n rows as array indexing reads them (a negative one has n added), as a start-index column. -/
def qcol (n : BitVec 32) (u : IVec S16384 32) : IVec S16384x1 32 :=
  broadcastInDim S16384x1 ![0] bcast_S16384_S16384x1_0
    (select (cmpi .slt u (broadcastInDim S16384 ![] bcast_S_S16384 (constantI S_ 32 0#32)))
      (addi u (broadcastInDim S16384 ![] bcast_S_S16384 (constantI S_ 32 n))) u)

/-- The requested users' rows. -/
def rowsU (P0 : FVec F S100000x64 .f32) (c : IVec S16384x1 32) : FVec F S16384x64 .f32 :=
  Host.gather gather_S100000x64_S16384x1_S16384x64_1_0_n_n_0_1_164 P0 c

/-- The requested items' rows. -/
def rowsI (P1 : FVec F S50000x64 .f32) (c : IVec S16384x1 32) : FVec F S16384x64 .f32 :=
  Host.gather gather_S50000x64_S16384x1_S16384x64_1_0_n_n_0_1_164 P1 c

/-- Whether each requested index lies in 0 … last, repeated along the 64 features. -/
def inRange (last : BitVec 32) (c : IVec S16384x1 32) : IVec S16384x64 1 :=
  broadcastInDim S16384x64 ![0] bcast_S16384_S16384x64_0
    (Host.reduce IntOp.andi
      (andi (cmpi .sge c (broadcastInDim S16384x1 ![] bcast_S_S16384x1 (constantI S_ 32 0#32)))
        (cmpi .sle c (broadcastInDim S16384x1 ![0, 1] bcast_S1x1_S16384x1_0_1 (broadcastInDim S1x1 ![1] bcast_S1_S1x1_1 (constantI S1 32 last)))))
      (constantI S_ 1 1#1) reducesTo_S16384x1_S16384_d1 h_S_)

/-- The kernel program's row lookup: the requested rows where the index is in range, a not-a-number filler elsewhere. -/
def takeU (P0 : FVec F S100000x64 .f32) (c : IVec S16384x1 32) : FVec F S16384x64 .f32 :=
  select (inRange 99999#32 c) (rowsU P0 c) (broadcastInDim S16384x64 ![] bcast_S_S16384x64 (constant S_ .f32 0x7FC00000#32))

/-- The same lookup in the items' rows. -/
def takeI (P1 : FVec F S50000x64 .f32) (c : IVec S16384x1 32) : FVec F S16384x64 .f32 :=
  select (inRange 49999#32 c) (rowsI P1 c) (broadcastInDim S16384x64 ![] bcast_S_S16384x64 (constant S_ .f32 0x7FC00000#32))

/-- The scores: row products summed over the features, plus the two biases and the global mean, clipped to [1, 5]. -/
def score (hu hi : FVec F S16384x64 .f32) (bu : FVec F S100000 .f32) (bi : FVec F S50000 .f32) (mu : FVec F S_ .f32)
    (users items : IVec S16384 32) : FVec F S16384 .f32 :=
  minimumf (broadcastInDim S16384 ![] bcast_S_S16384 (id (constant S_ .f32 0x40A00000#32)))
    (maximumf (broadcastInDim S16384 ![] bcast_S_S16384 (id (constant S_ .f32 0x3F800000#32)))
      (addf (addf (addf (Host.reduceAdd (mulf hu hi) (constant S_ .f32 0x00000000#32) reducesTo_S16384x64_S16384_d1 h_S_)
          (Host.gather gather_S100000_S16384x1_S16384_n_0_n_n_0_1_1 bu (qcol 100000#32 users)))
          (Host.gather gather_S50000_S16384x1_S16384_n_0_n_n_0_1_1 bi (qcol 50000#32 items)))
        (broadcastInDim S16384 ![] bcast_S_S16384 mu)))

end Cert.Stage

end
-- ==== Proof.KTail.lean ====
/-
  The kernel program's last five stretches of array operations as ONE function: the scores.

  After the last fused kernel has written the projected table, the program cuts it into the users' rows and the items'
  rows, looks up the requested users' and items' rows (each index first brought into range the way array indexing does
  it; a row whose index is still out of range is replaced by a not-a-number filler), multiplies the looked-up rows entry
  by entry, sums each row over its 64 features, adds the two looked-up biases and the global mean, and clips to [1, 5].
  Each stretch is read as a function of the arrays it finds, and an array a stretch never writes is found unchanged by
  the next; chained, the five stretches are the score function of the projected table, the requests and the biases.
-/
import proofs.«405038_j14748917694873_3_alg».proof.Proof.Gen.KernelIdeal.Launch
import proofs.«405038_j14748917694873_3_alg».proof.Proof.Stage
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.SL.Sem Idealize.ShloMosaic.StableHlo

variable {F : FTy → Type} [FloatOps F]

/-- A stretch leaves an array none of its operations writes as it found it: the array differs from every operation's result. -/
local macro "untouched" ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, Finset.mem_singleton]
  repeat' apply And.intro
  all_goals exact StableHlo.devRef_ne_of_ne (by decide)))

variable (X : Valuation τ sig (Elt F))

/-! ## The cut of the projected table into users' and items' rows -/

theorem cut_users : StableHlo.after hostOps3 X (Proc.devRef .tc main_v57) = Cert.Stage.usersPart (X (Proc.devRef .tc main_v56)) := by
  after_results
  all_goals rfl
theorem cut_items : StableHlo.after hostOps3 X (Proc.devRef .tc main_v58) = Cert.Stage.itemsPart (X (Proc.devRef .tc main_v56)) := by
  after_results
  all_goals rfl
theorem cut_arg0 : StableHlo.after hostOps3 X (Proc.devRef .tc main_arg0) = X (Proc.devRef .tc main_arg0) := by untouched hostOps3
theorem cut_arg1 : StableHlo.after hostOps3 X (Proc.devRef .tc main_arg1) = X (Proc.devRef .tc main_arg1) := by untouched hostOps3
theorem cut_arg16 : StableHlo.after hostOps3 X (Proc.devRef .tc main_arg16) = X (Proc.devRef .tc main_arg16) := by untouched hostOps3
theorem cut_arg17 : StableHlo.after hostOps3 X (Proc.devRef .tc main_arg17) = X (Proc.devRef .tc main_arg17) := by untouched hostOps3
theorem cut_arg18 : StableHlo.after hostOps3 X (Proc.devRef .tc main_arg18) = X (Proc.devRef .tc main_arg18) := by untouched hostOps3

/-! ## The clip to [1, 5] -/

theorem clip_scores : StableHlo.after hostOps3_4 X (Proc.devRef .tc main_v81)
    = minimumf (broadcastInDim S16384 ![] bcast_S_S16384 (id (X (Proc.devRef .tc main_cst_16))))
        (maximumf (broadcastInDim S16384 ![] bcast_S_S16384 (id (X (Proc.devRef .tc main_cst_15)))) (X (Proc.devRef .tc main_v80))) := by
  after_results
  all_goals rfl

/-! ## The requested users' rows -/

theorem take_users : StableHlo.after hostOps3_1 X (Proc.devRef .tc main_v59)
    = Cert.Stage.takeU (X (Proc.devRef .tc main_v57)) (Cert.Stage.qcol 100000#32 (X (Proc.devRef .tc main_arg0))) := by
  after_results_simp
  simp only [StableHlo.TRef.ofBuf, StableHlo.TRef.toBuf, cast_eq]
  rfl
theorem users_items : StableHlo.after hostOps3_1 X (Proc.devRef .tc main_v58) = X (Proc.devRef .tc main_v58) := by untouched hostOps3_1
theorem users_arg0 : StableHlo.after hostOps3_1 X (Proc.devRef .tc main_arg0) = X (Proc.devRef .tc main_arg0) := by untouched hostOps3_1
theorem users_arg1 : StableHlo.after hostOps3_1 X (Proc.devRef .tc main_arg1) = X (Proc.devRef .tc main_arg1) := by untouched hostOps3_1
theorem users_arg16 : StableHlo.after hostOps3_1 X (Proc.devRef .tc main_arg16) = X (Proc.devRef .tc main_arg16) := by untouched hostOps3_1
theorem users_arg17 : StableHlo.after hostOps3_1 X (Proc.devRef .tc main_arg17) = X (Proc.devRef .tc main_arg17) := by untouched hostOps3_1
theorem users_arg18 : StableHlo.after hostOps3_1 X (Proc.devRef .tc main_arg18) = X (Proc.devRef .tc main_arg18) := by untouched hostOps3_1

/-! ## The requested items' rows -/

theorem take_items : StableHlo.after hostOps3_2 X (Proc.devRef .tc main_v60)
    = Cert.Stage.takeI (X (Proc.devRef .tc main_v58)) (Cert.Stage.qcol 50000#32 (X (Proc.devRef .tc main_arg1))) := by
  after_results_simp
  simp only [StableHlo.TRef.ofBuf, StableHlo.TRef.toBuf, cast_eq]
  rfl
theorem items_users : StableHlo.after hostOps3_2 X (Proc.devRef .tc main_v59) = X (Proc.devRef .tc main_v59) := by untouched hostOps3_2
theorem items_arg0 : StableHlo.after hostOps3_2 X (Proc.devRef .tc main_arg0) = X (Proc.devRef .tc main_arg0) := by untouched hostOps3_2
theorem items_arg1 : StableHlo.after hostOps3_2 X (Proc.devRef .tc main_arg1) = X (Proc.devRef .tc main_arg1) := by untouched hostOps3_2
theorem items_arg16 : StableHlo.after hostOps3_2 X (Proc.devRef .tc main_arg16) = X (Proc.devRef .tc main_arg16) := by untouched hostOps3_2
theorem items_arg17 : StableHlo.after hostOps3_2 X (Proc.devRef .tc main_arg17) = X (Proc.devRef .tc main_arg17) := by untouched hostOps3_2
theorem items_arg18 : StableHlo.after hostOps3_2 X (Proc.devRef .tc main_arg18) = X (Proc.devRef .tc main_arg18) := by untouched hostOps3_2

/-! ## Row products summed over the features, plus the biases and the global mean -/

theorem sum_scores : StableHlo.after hostOps3_3 X (Proc.devRef .tc main_v80)
    = addf (addf (addf (Host.reduceAdd (mulf (X (Proc.devRef .tc main_v59)) (X (Proc.devRef .tc main_v60))) (constant S_ .f32 0x00000000#32) reducesTo_S16384x64_S16384_d1 h_S_)
          (Host.gather gather_S100000_S16384x1_S16384_n_0_n_n_0_1_1 (X (Proc.devRef .tc main_arg16)) (Cert.Stage.qcol 100000#32 (X (Proc.devRef .tc main_arg0)))))
          (Host.gather gather_S50000_S16384x1_S16384_n_0_n_n_0_1_1 (X (Proc.devRef .tc main_arg17)) (Cert.Stage.qcol 50000#32 (X (Proc.devRef .tc main_arg1)))))
        (broadcastInDim S16384 ![] bcast_S_S16384 (X (Proc.devRef .tc main_arg18))) := by
  after_results_simp
  all_goals rfl
theorem sum_one : StableHlo.after hostOps3_3 X (Proc.devRef .tc main_cst_15) = constant S_ .f32 0x3F800000#32 := by
  after_results_simp
  all_goals rfl
theorem sum_five : StableHlo.after hostOps3_3 X (Proc.devRef .tc main_cst_16) = constant S_ .f32 0x40A00000#32 := by
  after_results_simp
  all_goals rfl

/-! ## The five stretches chained -/

/-- The scores the kernel program returns, as the score function of the projected table, the requests and the biases
    it finds when its last fused kernel has run. -/
theorem tail (V : Valuation τ sig (Elt F)) :
    StableHlo.after hostOps3_4 (StableHlo.after hostOps3_3 (StableHlo.after hostOps3_2 (StableHlo.after hostOps3_1 (StableHlo.after hostOps3 V)))) (Proc.devRef .tc main_v81)
      = Cert.Stage.score
          (Cert.Stage.takeU (Cert.Stage.usersPart (V (Proc.devRef .tc main_v56))) (Cert.Stage.qcol 100000#32 (V (Proc.devRef .tc main_arg0))))
          (Cert.Stage.takeI (Cert.Stage.itemsPart (V (Proc.devRef .tc main_v56))) (Cert.Stage.qcol 50000#32 (V (Proc.devRef .tc main_arg1))))
          (V (Proc.devRef .tc main_arg16)) (V (Proc.devRef .tc main_arg17)) (V (Proc.devRef .tc main_arg18))
          (V (Proc.devRef .tc main_arg0)) (V (Proc.devRef .tc main_arg1)) := by
  rw [clip_scores, sum_scores, sum_one, sum_five]
  rw [take_items, items_users, items_arg0, items_arg1, items_arg16, items_arg17, items_arg18]
  rw [take_users, users_items, users_arg0, users_arg1, users_arg16, users_arg17, users_arg18]
  rw [cut_users, cut_items, cut_arg0, cut_arg1, cut_arg16, cut_arg17, cut_arg18]
  rfl

end Cert.KernelIdeal.Walk

end
-- ==== Proof.Results.lean ====
/-
  The two programs' results as functions of the nineteen arguments.

  Both read the same graph (node table, sources, destinations, weights, dinv).  The kernel program's three fused
  kernels are the row-wise maps of the specification: layer 0's source-scaled product, then normalise–rectify–add the
  residual together with the next layer's source-scaled product, then the same with the projection; between them the
  messages are gathered, weighed and summed on the host.  The reference does every step with whole-array operations.
-/
import proofs.«405038_j14748917694873_3_alg».proof.Proof.Stage
import proofs.«405038_j14748917694873_3_alg».proof.Proof.Spec

noncomputable section

namespace Cert.Results

open Idealize.ShloMosaic Cert.KernelIdeal Cert.Stage

section Graph
variable {F : FTy → Type} [FloatOps F]
variable (ei : IVec S2x3200000 32) (w : FVec F S3200000 .f32)

/-- dinv of the graph: the reciprocal square root of the weighted in-degree with self loops. -/
def dinv : FVec F S150000 .f32 := dinvOf (degOf (dstOf ei) (edgeW w))

end Graph

section Reference
variable {F : FTy → Type} [FloatOps F]
variable (users items : IVec S16384 32) (ei : IVec S2x3200000 32) (w : FVec F S3200000 .f32)
  (U : FVec F S100000x64 .f32) (I : FVec F S50000x64 .f32)
  (W0 : FVec F S64x64 .f32) (b0 g0 be0 : FVec F S64 .f32) (W1 : FVec F S64x64 .f32) (b1 g1 be1 : FVec F S64 .f32)
  (Wp : FVec F S64x64 .f32) (bp : FVec F S64 .f32) (bu : FVec F S100000 .f32) (bi : FVec F S50000 .f32) (mu : FVec F S_ .f32)

/-- The reference's edge factor dinv(src) · w · dinv(dst). -/
def rNorm : FVec F S3350000 .f32 := normOf (dinv ei w) (srcOf ei) (dstOf ei) (edgeW w)

/-- The reference's first aggregation. -/
def rAgg0 : FVec F S150000x64 .f32 := aggOf (dstOf ei) (msgR (rNorm ei w) (dotR (nodeTable U I) W0) (srcOf ei))

/-- The reference's node state after layer 0. -/
def rH0 : FVec F S150000x64 .f32 := lnHost (rAgg0 ei w U I W0) b0 g0 be0 (nodeTable U I)

/-- The reference's second aggregation. -/
def rAgg1 : FVec F S150000x64 .f32 :=
  aggOf (dstOf ei) (msgR (rNorm ei w) (dotR (rH0 ei w U I W0 b0 g0 be0) W1) (srcOf ei))

/-- The reference's projected table. -/
def rProj : FVec F S150000x64 .f32 :=
  projR (lnHost (rAgg1 ei w U I W0 b0 g0 be0 W1) b1 g1 be1 (rH0 ei w U I W0 b0 g0 be0)) Wp bp

/-- The reference's scores. -/
def rRes : FVec F S16384 .f32 :=
  score (rowsU (usersPart (rProj ei w U I W0 b0 g0 be0 W1 b1 g1 be1 Wp bp)) (qcol 100000#32 users))
    (rowsI (itemsPart (rProj ei w U I W0 b0 g0 be0 W1 b1 g1 be1 Wp bp)) (qcol 50000#32 items)) bu bi mu users items

end Reference

section Kernel
variable (users items : IVec S16384 32) (ei : IVec S2x3200000 32) (w : FVec Ideal S3200000 .f32)
  (U : FVec Ideal S100000x64 .f32) (I : FVec Ideal S50000x64 .f32)
  (W0 : FVec Ideal S64x64 .f32) (b0 g0 be0 : FVec Ideal S64 .f32) (W1 : FVec Ideal S64x64 .f32) (b1 g1 be1 : FVec Ideal S64 .f32)
  (Wp : FVec Ideal S64x64 .f32) (bp : FVec Ideal S64 .f32) (bu : FVec Ideal S100000 .f32) (bi : FVec Ideal S50000 .f32) (mu : FVec Ideal S_ .f32)

/-- The kernel program's edge factor w · dinv(dst). -/
def kFac : FVec Ideal S3350000 .f32 := edgeFacK (edgeW w) (dinv ei w) (dstOf ei)

/-- Layer 0's product, its rows scaled by dinv (the first kernel). -/
def kHW0 : FVec Ideal S150000x64 .bf16 := Cert.Spec.mmScale (nodeTable U I) W0 (dinvCol (dinv ei w))

/-- The kernel program's first aggregation. -/
def kAgg0 : FVec Ideal S150000x64 .f32 := aggOf (dstOf ei) (msgK (kFac ei w) (kHW0 ei w U I W0) (srcOf ei))

/-- The node state after layer 0 (the second kernel's first output). -/
def kH0 : FVec Ideal S150000x64 .f32 := Cert.Spec.lnRelu (kAgg0 ei w U I W0) b0 (nodeTable U I) g0 be0

/-- Layer 1's product of that state, its rows scaled by dinv (the second kernel's second output). -/
def kHW1 : FVec Ideal S150000x64 .bf16 := Cert.Spec.mmScale (kH0 ei w U I W0 b0 g0 be0) W1 (dinvCol (dinv ei w))

/-- The kernel program's second aggregation. -/
def kAgg1 : FVec Ideal S150000x64 .f32 := aggOf (dstOf ei) (msgK (kFac ei w) (kHW1 ei w U I W0 b0 g0 be0 W1) (srcOf ei))

/-- The projected table (the third kernel). -/
def kProj : FVec Ideal S150000x64 .f32 :=
  Cert.Spec.mmBias (Cert.Spec.lnRelu (kAgg1 ei w U I W0 b0 g0 be0 W1) b1 (kH0 ei w U I W0 b0 g0 be0) g1 be1) Wp bp

/-- The kernel program's scores. -/
def kRes : FVec Ideal S16384 .f32 :=
  score (takeU (usersPart (kProj ei w U I W0 b0 g0 be0 W1 b1 g1 be1 Wp bp)) (qcol 100000#32 users))
    (takeI (itemsPart (kProj ei w U I W0 b0 g0 be0 W1 b1 g1 be1 Wp bp)) (qcol 50000#32 items)) bu bi mu users items

end Kernel

end Cert.Results

end
-- ==== Proof.KWalk.lean ====
/-
  The kernel program's result buffer as a function of its nineteen arguments.

  The program runs stretches of array operations between three fused kernels.  Each stretch is read as ONE function of
  the buffers it reads: the graph (node table, sources and destinations with self loops, edge factor
  weight · dinv(dst), the column dinv) before the first kernel, the messages gathered, weighed and summed at their
  destinations between the kernels.  A buffer a stretch does not write keeps its contents, and a kernel changes only
  its output arrays.  Given that the three kernels leave the row-wise maps of the specification in their output arrays,
  and that the last stretches compute the clipped scores of the requested pairs from the projected table, the contents
  of every buffer that matters are followed from the launch to the result.
-/
import proofs.«405038_j14748917694873_3_alg».proof.Proof.Gen.KernelIdeal.Frame
import proofs.«405038_j14748917694873_3_alg».proof.Proof.Results
import Idealize.ShloMosaic.Lib.StableHlo.Run

set_option maxRecDepth 16384

noncomputable section

namespace Cert.KernelIdeal.Walk

open Idealize.ShloMosaic Idealize.ShloMosaic.TcCoe Idealize.ShloMosaic.Tactic
open Idealize.SL Idealize.SL.RA Idealize.SL.BI
open Idealize.SL.Sem
open Cert.KernelIdeal Cert.KernelIdeal.Gen

/-! # The kernel program's host stretches as functions of the buffers they read, over any buffer contents -/

section Stretches

variable {F : FTy → Type} [FloatOps F]

/-- The buffers the operations of the stretch write, in order. -/
def wl0 : List (Ref sig .tc) := [main_v0, main_v1, main_v2, main_v3, main_v4, main_v5, main_v6, main_v7, main_cst, main_v8, main_v9, main_cst_0, main_v10, main_v11, main_v12, main_cst_1, main_v13, main_v14, main_v15, main_cst_2]

theorem writes0 : (hostOps0 : List (HloOp τ sig (Elt F))).Forall fun op => op.writes ⊆ ((wl0).map (Proc.devRef (τ := τ) .tc)).toFinset := by
  simp only [hostOps0, wl0, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- A buffer the stretch does not write keeps its contents. -/
theorem keep0 (V : Valuation τ sig (Elt F)) {r : Ref sig .tc} (h : r ∉ wl0) :
    StableHlo.after (hostOps0 (F := F)) V (Proc.devRef .tc r) = V (Proc.devRef .tc r) :=
  StableHlo.after_of_writes_sub _ V writes0 h

/-- The buffers the operations of the stretch write, in order. -/
def wl0_1 : List (Ref sig .tc) := [main_call0_v0, main_call0_v1, main_v16]

theorem writes0_1 : (hostOps0_1 : List (HloOp τ sig (Elt F))).Forall fun op => op.writes ⊆ ((wl0_1).map (Proc.devRef (τ := τ) .tc)).toFinset := by
  simp only [hostOps0_1, wl0_1, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- A buffer the stretch does not write keeps its contents. -/
theorem keep0_1 (V : Valuation τ sig (Elt F)) {r : Ref sig .tc} (h : r ∉ wl0_1) :
    StableHlo.after (hostOps0_1 (F := F)) V (Proc.devRef .tc r) = V (Proc.devRef .tc r) :=
  StableHlo.after_of_writes_sub _ V writes0_1 h

/-- The buffers the operations of the stretch write, in order. -/
def wl0_2 : List (Ref sig .tc) := [main_c, main_v17, main_v18, main_c_3, main_v19, main_v20, main_v21, main_v22, main_v23, main_v24, main_v25]

theorem writes0_2 : (hostOps0_2 : List (HloOp τ sig (Elt F))).Forall fun op => op.writes ⊆ ((wl0_2).map (Proc.devRef (τ := τ) .tc)).toFinset := by
  simp only [hostOps0_2, wl0_2, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- A buffer the stretch does not write keeps its contents. -/
theorem keep0_2 (V : Valuation τ sig (Elt F)) {r : Ref sig .tc} (h : r ∉ wl0_2) :
    StableHlo.after (hostOps0_2 (F := F)) V (Proc.devRef .tc r) = V (Proc.devRef .tc r) :=
  StableHlo.after_of_writes_sub _ V writes0_2 h

/-- The buffers the operations of the stretch write, in order. -/
def wl1 : List (Ref sig .tc) := [main_v27, main_c_4, main_v28, main_v29, main_c_5, main_v30, main_v31, main_v32, main_v33, main_v34, main_v35, main_v36, main_v37, main_cst_6, main_v38, main_v39, main_v40]

theorem writes1 : (hostOps1 : List (HloOp τ sig (Elt F))).Forall fun op => op.writes ⊆ ((wl1).map (Proc.devRef (τ := τ) .tc)).toFinset := by
  simp only [hostOps1, wl1, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- A buffer the stretch does not write keeps its contents. -/
theorem keep1 (V : Valuation τ sig (Elt F)) {r : Ref sig .tc} (h : r ∉ wl1) :
    StableHlo.after (hostOps1 (F := F)) V (Proc.devRef .tc r) = V (Proc.devRef .tc r) :=
  StableHlo.after_of_writes_sub _ V writes1 h

/-- The buffers the operations of the stretch write, in order. -/
def wl2 : List (Ref sig .tc) := [main_v42, main_c_7, main_v43, main_v44, main_c_8, main_v45, main_v46, main_v47, main_v48, main_v49, main_v50, main_v51, main_v52, main_cst_9, main_v53, main_v54, main_v55]

theorem writes2 : (hostOps2 : List (HloOp τ sig (Elt F))).Forall fun op => op.writes ⊆ ((wl2).map (Proc.devRef (τ := τ) .tc)).toFinset := by
  simp only [hostOps2, wl2, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map_of_mem (by decide)))

/-- A buffer the stretch does not write keeps its contents. -/
theorem keep2 (V : Valuation τ sig (Elt F)) {r : Ref sig .tc} (h : r ∉ wl2) :
    StableHlo.after (hostOps2 (F := F)) V (Proc.devRef .tc r) = V (Proc.devRef .tc r) :=
  StableHlo.after_of_writes_sub _ V writes2 h

/-- The three stretches before the first kernel, run one after the other. -/
abbrev pre (V : Valuation τ sig (Elt F)) : Valuation τ sig (Elt F) :=
  StableHlo.after hostOps0_2 (StableHlo.after hostOps0_1 (StableHlo.after hostOps0 V))

theorem keepPre (V : Valuation τ sig (Elt F)) {r : Ref sig .tc} (h0 : r ∉ wl0) (h1 : r ∉ wl0_1) (h2 : r ∉ wl0_2) :
    pre V (Proc.devRef .tc r) = V (Proc.devRef .tc r) := by
  rw [pre, keep0_2 _ h2, keep0_1 _ h1, keep0 _ h0]

set_option maxHeartbeats 2000000 in
/-- The node table. -/
theorem pre_v0 (V : Valuation τ sig (Elt F)) :
    pre V (Proc.devRef .tc main_v0) = Cert.Stage.nodeTable (V (Proc.devRef .tc main_arg4)) (V (Proc.devRef .tc main_arg5)) := by
  unfold pre
  open Idealize.ShloMosaic.StableHlo in after_results_simp
  rfl

set_option maxHeartbeats 2000000 in
/-- The edges' sources. -/
theorem pre_v4 (V : Valuation τ sig (Elt F)) :
    pre V (Proc.devRef .tc main_v4) = Cert.Stage.srcOf (V (Proc.devRef .tc main_arg2)) := by
  unfold pre
  open Idealize.ShloMosaic.StableHlo in after_results_simp
  rfl

set_option maxHeartbeats 2000000 in
/-- The edges' destinations. -/
theorem pre_v7 (V : Valuation τ sig (Elt F)) :
    pre V (Proc.devRef .tc main_v7) = Cert.Stage.dstOf (V (Proc.devRef .tc main_arg2)) := by
  unfold pre
  open Idealize.ShloMosaic.StableHlo in after_results_simp
  rfl

set_option maxHeartbeats 2000000 in
/-- The edge factor: weight times the destination's reciprocal square root of the degree. -/
theorem pre_v24 (V : Valuation τ sig (Elt F)) :
    pre V (Proc.devRef .tc main_v24)
      = Cert.Stage.edgeFacK (Cert.Stage.edgeW (V (Proc.devRef .tc main_arg3))) (Cert.Results.dinv (V (Proc.devRef .tc main_arg2)) (V (Proc.devRef .tc main_arg3)))
          (Cert.Stage.dstOf (V (Proc.devRef .tc main_arg2))) := by
  unfold pre
  open Idealize.ShloMosaic.StableHlo in after_results_simp
  rfl

set_option maxHeartbeats 2000000 in
/-- The reciprocal square roots of the degrees as a one-column table. -/
theorem pre_v25 (V : Valuation τ sig (Elt F)) :
    pre V (Proc.devRef .tc main_v25) = Cert.Stage.dinvCol (Cert.Results.dinv (V (Proc.devRef .tc main_arg2)) (V (Proc.devRef .tc main_arg3))) := by
  unfold pre
  open Idealize.ShloMosaic.StableHlo in after_results_simp
  rfl

set_option maxHeartbeats 2000000 in
/-- The stretch between the first and the second kernel: the messages summed at their destinations. -/
theorem ops1_v40 (V : Valuation τ sig (Elt F)) :
    StableHlo.after (hostOps1 (F := F)) V (Proc.devRef .tc main_v40)
      = Cert.Stage.aggOf (V (Proc.devRef .tc main_v7)) (Cert.Stage.msgK (V (Proc.devRef .tc main_v24)) (V (Proc.devRef .tc main_v26)) (V (Proc.devRef .tc main_v4))) := by
  open Idealize.ShloMosaic.StableHlo in after_results_simp
  rfl

set_option maxHeartbeats 2000000 in
/-- The stretch between the second and the third kernel: the messages summed at their destinations. -/
theorem ops2_v55 (V : Valuation τ sig (Elt F)) :
    StableHlo.after (hostOps2 (F := F)) V (Proc.devRef .tc main_v55)
      = Cert.Stage.aggOf (V (Proc.devRef .tc main_v7)) (Cert.Stage.msgK (V (Proc.devRef .tc main_v24)) (V (Proc.devRef .tc main_v41_1)) (V (Proc.devRef .tc main_v4))) := by
  open Idealize.ShloMosaic.StableHlo in after_results_simp
  rfl

end Stretches

/-! # Equal arguments give equal values -/

section Congr

theorem congr3 {α β γ δ : Type} (f : α → β → γ → δ) {a a' : α} {b b' : β} {c c' : γ}
    (ha : a = a') (hb : b = b') (hc : c = c') : f a b c = f a' b' c' := by
  subst ha hb hc; rfl

theorem congr5 {α β γ δ ε ζ : Type} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl

/-- The messages summed at their destinations, as a function of destinations, edge factor, product rows and sources. -/
theorem aggMsg_congr {dst dst' : IVec S3350000 32} {e e' : FVec Ideal S3350000 .f32} {hw hw' : FVec Ideal S150000x64 .bf16}
    {src src' : IVec S3350000 32} (hd : dst = dst') (he : e = e') (hh : hw = hw') (hs : src = src') :
    Cert.Stage.aggOf (F := Ideal) dst (Cert.Stage.msgK e hw src) = Cert.Stage.aggOf dst' (Cert.Stage.msgK e' hw' src') := by
  subst hd he hh hs; rfl

end Congr

/-! # The buffers' contents at each boundary, from the launch to the third kernel's exit, in terms of the arguments -/

section Walk

variable (m : (ℓ : Loc nD τ sig) → Buf (Elt Ideal) ℓ) (ρ : Dev nD → PrngReg) (c : Dev nD)

/-! ## When the first kernel starts -/

/-- A buffer none of the first three stretches writes holds its launch contents. -/
theorem at3 {r : Ref sig .tc} (h0 : r ∉ wl0) (h1 : r ∉ wl0_1) (h2 : r ∉ wl0_2) :
    W3 (F := Ideal) m ρ c (Proc.devRef .tc r) = m ((c : Thread nD τ).loc r) :=
  keepPre (W0 m ρ c) h0 h1 h2

theorem at3_v0 : W3 (F := Ideal) m ρ c (Proc.devRef .tc main_v0) = Cert.Stage.nodeTable (F := Ideal) (m ((c : Thread nD τ).loc main_arg4)) (m ((c : Thread nD τ).loc main_arg5)) :=
  pre_v0 (W0 m ρ c)

theorem at3_v4 : W3 (F := Ideal) m ρ c (Proc.devRef .tc main_v4) = Cert.Stage.srcOf (m ((c : Thread nD τ).loc main_arg2)) :=
  pre_v4 (W0 m ρ c)

theorem at3_v7 : W3 (F := Ideal) m ρ c (Proc.devRef .tc main_v7) = Cert.Stage.dstOf (m ((c : Thread nD τ).loc main_arg2)) :=
  pre_v7 (W0 m ρ c)

theorem at3_v24 : W3 (F := Ideal) m ρ c (Proc.devRef .tc main_v24) = Cert.Results.kFac (m ((c : Thread nD τ).loc main_arg2)) (m ((c : Thread nD τ).loc main_arg3)) :=
  pre_v24 (W0 m ρ c)

theorem at3_v25 : W3 (F := Ideal) m ρ c (Proc.devRef .tc main_v25) = Cert.Stage.dinvCol (Cert.Results.dinv (F := Ideal) (m ((c : Thread nD τ).loc main_arg2)) (m ((c : Thread nD τ).loc main_arg3))) :=
  pre_v25 (W0 m ρ c)

/-! ## When the first kernel has finished -/

/-- The first kernel's output: layer 0's product with its rows scaled. -/
theorem at4_v26 (h0 : ∀ (V : (c : Dev nD) → (b : Ref sig .tc) → Buf (Elt Ideal) ((c : Thread nD τ).loc b)) (c : Dev nD),
        (Gen.dat0 (F := Ideal) V c).arrAt 3 cfg0.N = Cert.Spec.mmScale (V c main_v0) (V c main_arg6) (V c main_v25)) :
    W4 (F := Ideal) m ρ c (Proc.devRef .tc main_v26) = Cert.Results.kHW0 (m ((c : Thread nD τ).loc main_arg2)) (m ((c : Thread nD τ).loc main_arg3)) (m ((c : Thread nD τ).loc main_arg4)) (m ((c : Thread nD τ).loc main_arg5)) (m ((c : Thread nD τ).loc main_arg6)) :=
  (W4_arr m ρ c 3).trans ((h0 (V3 m ρ) c).trans
    (congr3 Cert.Spec.mmScale (at3_v0 m ρ c) (at3 m ρ c (r := main_arg6) (by decide) (by decide) (by decide)) (at3_v25 m ρ c)))

/-- The node table is an input of the first kernel: unchanged. -/
theorem at4_v0 : W4 (F := Ideal) m ρ c (Proc.devRef .tc main_v0) = Cert.Stage.nodeTable (F := Ideal) (m ((c : Thread nD τ).loc main_arg4)) (m ((c : Thread nD τ).loc main_arg5)) :=
  ((W4_arr m ρ c 0).trans (((dat0 (V3 m ρ) c).arrAt_in 0 rfl _).trans (A_eq0 (V3 m ρ) c 0))).trans (at3_v0 m ρ c)

/-- The scaling column is an input of the first kernel: unchanged. -/
theorem at4_v25 : W4 (F := Ideal) m ρ c (Proc.devRef .tc main_v25) = Cert.Stage.dinvCol (Cert.Results.dinv (F := Ideal) (m ((c : Thread nD τ).loc main_arg2)) (m ((c : Thread nD τ).loc main_arg3))) :=
  ((W4_arr m ρ c 2).trans (((dat0 (V3 m ρ) c).arrAt_in 2 rfl _).trans (A_eq0 (V3 m ρ) c 2))).trans (at3_v25 m ρ c)

/-! ## When the second kernel starts -/

/-- A buffer that is no array of the first kernel and that the fourth stretch does not write is as when the first kernel started. -/
theorem at5_mid {r : Ref sig .tc} (hR0 : ∀ w, Pipeline.arrRef spec0 w ≠ r) (h3 : r ∉ wl1) :
    W5 (F := Ideal) m ρ c (Proc.devRef .tc r) = W3 (F := Ideal) m ρ c (Proc.devRef .tc r) :=
  (keep1 (W4 m ρ c) h3).trans (W4_of_ne m ρ c r hR0)

theorem at5_arg {r : Ref sig .tc} (h0 : r ∉ wl0) (h1 : r ∉ wl0_1) (h2 : r ∉ wl0_2) (hR0 : ∀ w, Pipeline.arrRef spec0 w ≠ r) (h3 : r ∉ wl1) :
    W5 (F := Ideal) m ρ c (Proc.devRef .tc r) = m ((c : Thread nD τ).loc r) :=
  (at5_mid m ρ c hR0 h3).trans (at3 m ρ c h0 h1 h2)

/-- The first aggregation. -/
theorem at5_v40 (h0 : ∀ (V : (c : Dev nD) → (b : Ref sig .tc) → Buf (Elt Ideal) ((c : Thread nD τ).loc b)) (c : Dev nD),
        (Gen.dat0 (F := Ideal) V c).arrAt 3 cfg0.N = Cert.Spec.mmScale (V c main_v0) (V c main_arg6) (V c main_v25)) :
    W5 (F := Ideal) m ρ c (Proc.devRef .tc main_v40) = Cert.Results.kAgg0 (m ((c : Thread nD τ).loc main_arg2)) (m ((c : Thread nD τ).loc main_arg3)) (m ((c : Thread nD τ).loc main_arg4)) (m ((c : Thread nD τ).loc main_arg5)) (m ((c : Thread nD τ).loc main_arg6)) :=
  (ops1_v40 (W4 m ρ c)).trans (aggMsg_congr
    ((W4_of_ne m ρ c main_v7 (by decide)).trans (at3_v7 m ρ c))
    ((W4_of_ne m ρ c main_v24 (by decide)).trans (at3_v24 m ρ c))
    (at4_v26 m ρ c h0)
    ((W4_of_ne m ρ c main_v4 (by decide)).trans (at3_v4 m ρ c)))

theorem at5_v0 : W5 (F := Ideal) m ρ c (Proc.devRef .tc main_v0) = Cert.Stage.nodeTable (F := Ideal) (m ((c : Thread nD τ).loc main_arg4)) (m ((c : Thread nD τ).loc main_arg5)) :=
  (keep1 (W4 m ρ c) (by decide)).trans (at4_v0 m ρ c)

theorem at5_v25 : W5 (F := Ideal) m ρ c (Proc.devRef .tc main_v25) = Cert.Stage.dinvCol (Cert.Results.dinv (F := Ideal) (m ((c : Thread nD τ).loc main_arg2)) (m ((c : Thread nD τ).loc main_arg3))) :=
  (keep1 (W4 m ρ c) (by decide)).trans (at4_v25 m ρ c)

/-! ## When the second kernel has finished -/

/-- The node state after layer 0, as a function of the second kernel's inputs. -/
theorem at6_h0 (h0 : ∀ (V : (c : Dev nD) → (b : Ref sig .tc) → Buf (Elt Ideal) ((c : Thread nD τ).loc b)) (c : Dev nD),
        (Gen.dat0 (F := Ideal) V c).arrAt 3 cfg0.N = Cert.Spec.mmScale (V c main_v0) (V c main_arg6) (V c main_v25)) :
    Cert.Spec.lnRelu (V5 (F := Ideal) m ρ c main_v40) (V5 (F := Ideal) m ρ c main_arg7) (V5 (F := Ideal) m ρ c main_v0) (V5 (F := Ideal) m ρ c main_arg8) (V5 (F := Ideal) m ρ c main_arg9)
      = Cert.Results.kH0 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  congr5 Cert.Spec.lnRelu (at5_v40 m ρ c h0) (at5_arg m ρ c (r := main_arg7) (by decide) (by decide) (by decide) (by decide) (by decide)) (at5_v0 m ρ c) (at5_arg m ρ c (r := main_arg8) (by decide) (by decide) (by decide) (by decide) (by decide)) (at5_arg m ρ c (r := main_arg9) (by decide) (by decide) (by decide) (by decide) (by decide))

/-- The second kernel's first output: the node state after layer 0. -/
theorem at6_v41_0 (h0 : ∀ (V : (c : Dev nD) → (b : Ref sig .tc) → Buf (Elt Ideal) ((c : Thread nD τ).loc b)) (c : Dev nD),
        (Gen.dat0 (F := Ideal) V c).arrAt 3 cfg0.N = Cert.Spec.mmScale (V c main_v0) (V c main_arg6) (V c main_v25))
    (h17 : ∀ (V : (c : Dev nD) → (b : Ref sig .tc) → Buf (Elt Ideal) ((c : Thread nD τ).loc b)) (c : Dev nD),
        (Gen.dat1 (F := Ideal) V c).arrAt 7 cfg1.N = Cert.Spec.lnRelu (V c main_v40) (V c main_arg7) (V c main_v0) (V c main_arg8) (V c main_arg9)) :
    W6 (F := Ideal) m ρ c (Proc.devRef .tc main_v41_0) = Cert.Results.kH0 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W6_arr m ρ c 7).trans ((h17 (V5 m ρ) c).trans (at6_h0 m ρ c h0))

/-- The second kernel's second output: layer 1's product with its rows scaled. -/
theorem at6_v41_1 (h0 : ∀ (V : (c : Dev nD) → (b : Ref sig .tc) → Buf (Elt Ideal) ((c : Thread nD τ).loc b)) (c : Dev nD),
        (Gen.dat0 (F := Ideal) V c).arrAt 3 cfg0.N = Cert.Spec.mmScale (V c main_v0) (V c main_arg6) (V c main_v25))
    (h18 : ∀ (V : (c : Dev nD) → (b : Ref sig .tc) → Buf (Elt Ideal) ((c : Thread nD τ).loc b)) (c : Dev nD),
        (Gen.dat1 (F := Ideal) V c).arrAt 8 cfg1.N = Cert.Spec.mmScale (Cert.Spec.lnRelu (V c main_v40) (V c main_arg7) (V c main_v0) (V c main_arg8) (V c main_arg9)) (V c main_arg10) (V c main_v25)) :
    W6 (F := Ideal) m ρ c (Proc.devRef .tc main_v41_1) = Cert.Results.kHW1 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W6_arr m ρ c 8).trans ((h18 (V5 m ρ) c).trans
    (congr3 Cert.Spec.mmScale (at6_h0 m ρ c h0) (at5_arg m ρ c (r := main_arg10) (by decide) (by decide) (by decide) (by decide) (by decide)) (at5_v25 m ρ c)))

/-- A buffer that is no array of the first two kernels and that the fourth stretch does not write is as when the first kernel started. -/
theorem at6_mid {r : Ref sig .tc} (hR0 : ∀ w, Pipeline.arrRef spec0 w ≠ r) (h3 : r ∉ wl1) (hR1 : ∀ w, Pipeline.arrRef spec1 w ≠ r) :
    W6 (F := Ideal) m ρ c (Proc.devRef .tc r) = W3 (F := Ideal) m ρ c (Proc.devRef .tc r) :=
  (W6_of_ne m ρ c r hR1).trans (at5_mid m ρ c hR0 h3)

/-! ## When the third kernel starts -/

theorem at7_arg {r : Ref sig .tc} (h0 : r ∉ wl0) (h1 : r ∉ wl0_1) (h2 : r ∉ wl0_2) (hR0 : ∀ w, Pipeline.arrRef spec0 w ≠ r) (h3 : r ∉ wl1)
    (hR1 : ∀ w, Pipeline.arrRef spec1 w ≠ r) (h4 : r ∉ wl2) :
    W7 (F := Ideal) m ρ c (Proc.devRef .tc r) = m ((c : Thread nD τ).loc r) :=
  (keep2 (W6 m ρ c) h4).trans ((at6_mid m ρ c hR0 h3 hR1).trans (at3 m ρ c h0 h1 h2))

/-- The second aggregation. -/
theorem at7_v55 (h0 : ∀ (V : (c : Dev nD) → (b : Ref sig .tc) → Buf (Elt Ideal) ((c : Thread nD τ).loc b)) (c : Dev nD),
        (Gen.dat0 (F := Ideal) V c).arrAt 3 cfg0.N = Cert.Spec.mmScale (V c main_v0) (V c main_arg6) (V c main_v25))
    (h18 : ∀ (V : (c : Dev nD) → (b : Ref sig .tc) → Buf (Elt Ideal) ((c : Thread nD τ).loc b)) (c : Dev nD),
        (Gen.dat1 (F := Ideal) V c).arrAt 8 cfg1.N = Cert.Spec.mmScale (Cert.Spec.lnRelu (V c main_v40) (V c main_arg7) (V c main_v0) (V c main_arg8) (V c main_arg9)) (V c main_arg10) (V c main_v25)) :
    W7 (F := Ideal) m ρ c (Proc.devRef .tc main_v55) = Cert.Results.kAgg1 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (ops2_v55 (W6 m ρ c)).trans (aggMsg_congr
    ((at6_mid m ρ c (r := main_v7) (by decide) (by decide) (by decide)).trans (at3_v7 m ρ c))
    ((at6_mid m ρ c (r := main_v24) (by decide) (by decide) (by decide)).trans (at3_v24 m ρ c))
    (at6_v41_1 m ρ c h0 h18)
    ((at6_mid m ρ c (r := main_v4) (by decide) (by decide) (by decide)).trans (at3_v4 m ρ c)))

theorem at7_v41_0 (h0 : ∀ (V : (c : Dev nD) → (b : Ref sig .tc) → Buf (Elt Ideal) ((c : Thread nD τ).loc b)) (c : Dev nD),
        (Gen.dat0 (F := Ideal) V c).arrAt 3 cfg0.N = Cert.Spec.mmScale (V c main_v0) (V c main_arg6) (V c main_v25))
    (h17 : ∀ (V : (c : Dev nD) → (b : Ref sig .tc) → Buf (Elt Ideal) ((c : Thread nD τ).loc b)) (c : Dev nD),
        (Gen.dat1 (F := Ideal) V c).arrAt 7 cfg1.N = Cert.Spec.lnRelu (V c main_v40) (V c main_arg7) (V c main_v0) (V c main_arg8) (V c main_arg9)) :
    W7 (F := Ideal) m ρ c (Proc.devRef .tc main_v41_0) = Cert.Results.kH0 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (keep2 (W6 m ρ c) (by decide)).trans (at6_v41_0 m ρ c h0 h17)

/-! ## When the third kernel has finished -/

/-- The third kernel's output: the projected table. -/
theorem at8_v56 (h0 : ∀ (V : (c : Dev nD) → (b : Ref sig .tc) → Buf (Elt Ideal) ((c : Thread nD τ).loc b)) (c : Dev nD),
        (Gen.dat0 (F := Ideal) V c).arrAt 3 cfg0.N = Cert.Spec.mmScale (V c main_v0) (V c main_arg6) (V c main_v25))
    (h17 : ∀ (V : (c : Dev nD) → (b : Ref sig .tc) → Buf (Elt Ideal) ((c : Thread nD τ).loc b)) (c : Dev nD),
        (Gen.dat1 (F := Ideal) V c).arrAt 7 cfg1.N = Cert.Spec.lnRelu (V c main_v40) (V c main_arg7) (V c main_v0) (V c main_arg8) (V c main_arg9))
    (h18 : ∀ (V : (c : Dev nD) → (b : Ref sig .tc) → Buf (Elt Ideal) ((c : Thread nD τ).loc b)) (c : Dev nD),
        (Gen.dat1 (F := Ideal) V c).arrAt 8 cfg1.N = Cert.Spec.mmScale (Cert.Spec.lnRelu (V c main_v40) (V c main_arg7) (V c main_v0) (V c main_arg8) (V c main_arg9)) (V c main_arg10) (V c main_v25))
    (h27 : ∀ (V : (c : Dev nD) → (b : Ref sig .tc) → Buf (Elt Ideal) ((c : Thread nD τ).loc b)) (c : Dev nD),
        (Gen.dat2 (F := Ideal) V c).arrAt 7 cfg2.N = Cert.Spec.mmBias (Cert.Spec.lnRelu (V c main_v55) (V c main_arg11) (V c main_v41_0) (V c main_arg12) (V c main_arg13)) (V c main_arg14) (V c main_arg15)) :
    W8 (F := Ideal) m ρ c (Proc.devRef .tc main_v56) = Cert.Results.kProj (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (W8_arr m ρ c 7).trans ((h27 (V7 m ρ) c).trans
    (congr3 Cert.Spec.mmBias
      (congr5 Cert.Spec.lnRelu (at7_v55 m ρ c h0 h18) (at7_arg m ρ c (r := main_arg11) (by decide) (by decide) (by decide) (by decide) (by decide) (by decide) (by decide)) (at7_v41_0 m ρ c h0 h17) (at7_arg m ρ c (r := main_arg12) (by decide) (by decide) (by decide) (by decide) (by decide) (by decide) (by decide)) (at7_arg m ρ c (r := main_arg13) (by decide) (by decide) (by decide) (by decide) (by decide) (by decide) (by decide)))
      (at7_arg m ρ c (r := main_arg14) (by decide) (by decide) (by decide) (by decide) (by decide) (by decide) (by decide)) (at7_arg m ρ c (r := main_arg15) (by decide) (by decide) (by decide) (by decide) (by decide) (by decide) (by decide))))

theorem at8_arg {r : Ref sig .tc} (h0 : r ∉ wl0) (h1 : r ∉ wl0_1) (h2 : r ∉ wl0_2) (hR0 : ∀ w, Pipeline.arrRef spec0 w ≠ r) (h3 : r ∉ wl1)
    (hR1 : ∀ w, Pipeline.arrRef spec1 w ≠ r) (h4 : r ∉ wl2) (hR2 : ∀ w, Pipeline.arrRef spec2 w ≠ r) :
    W8 (F := Ideal) m ρ c (Proc.devRef .tc r) = m ((c : Thread nD τ).loc r) :=
  (W8_of_ne m ρ c r hR2).trans (at7_arg m ρ c h0 h1 h2 hR0 h3 hR1 h4)

end Walk

/-! # The result buffer -/

/-- The kernel program's result buffer holds the scores computed from the nineteen arguments: the three kernels' outputs
    are the row-wise maps of the specification, the stretches between them the graph's aggregation, the last stretches
    the clipped scores. -/
theorem result
    (h0 : ∀ (V : (c : Dev nD) → (b : Ref sig .tc) → Buf (Elt Ideal) ((c : Thread nD τ).loc b)) (c : Dev nD),
        (Gen.dat0 (F := Ideal) V c).arrAt 3 cfg0.N = Cert.Spec.mmScale (V c main_v0) (V c main_arg6) (V c main_v25))
    (h17 : ∀ (V : (c : Dev nD) → (b : Ref sig .tc) → Buf (Elt Ideal) ((c : Thread nD τ).loc b)) (c : Dev nD),
        (Gen.dat1 (F := Ideal) V c).arrAt 7 cfg1.N = Cert.Spec.lnRelu (V c main_v40) (V c main_arg7) (V c main_v0) (V c main_arg8) (V c main_arg9))
    (h18 : ∀ (V : (c : Dev nD) → (b : Ref sig .tc) → Buf (Elt Ideal) ((c : Thread nD τ).loc b)) (c : Dev nD),
        (Gen.dat1 (F := Ideal) V c).arrAt 8 cfg1.N = Cert.Spec.mmScale (Cert.Spec.lnRelu (V c main_v40) (V c main_arg7) (V c main_v0) (V c main_arg8) (V c main_arg9)) (V c main_arg10) (V c main_v25))
    (h27 : ∀ (V : (c : Dev nD) → (b : Ref sig .tc) → Buf (Elt Ideal) ((c : Thread nD τ).loc b)) (c : Dev nD),
        (Gen.dat2 (F := Ideal) V c).arrAt 7 cfg2.N = Cert.Spec.mmBias (Cert.Spec.lnRelu (V c main_v55) (V c main_arg11) (V c main_v41_0) (V c main_arg12) (V c main_arg13)) (V c main_arg14) (V c main_arg15))
    (htail : ∀ (V : Valuation τ sig (Elt Ideal)),
        StableHlo.after hostOps3_4 (StableHlo.after hostOps3_3 (StableHlo.after hostOps3_2 (StableHlo.after hostOps3_1 (StableHlo.after hostOps3 V)))) (Proc.devRef .tc main_v81)
          = Cert.Stage.score (F := Ideal) (Cert.Stage.takeU (Cert.Stage.usersPart (V (Proc.devRef .tc main_v56))) (Cert.Stage.qcol 100000#32 (V (Proc.devRef .tc main_arg0))))
              (Cert.Stage.takeI (Cert.Stage.itemsPart (V (Proc.devRef .tc main_v56))) (Cert.Stage.qcol 50000#32 (V (Proc.devRef .tc main_arg1))))
              (V (Proc.devRef .tc main_arg16)) (V (Proc.devRef .tc main_arg17)) (V (Proc.devRef .tc main_arg18)) (V (Proc.devRef .tc main_arg0)) (V (Proc.devRef .tc main_arg1)))
    (m : (ℓ : Loc nD τ sig) → Buf (Elt Ideal) ℓ) (ρ : Dev nD → PrngReg) (c : Dev nD) :
    Gen.W13 (F := Ideal) m ρ c (Proc.devRef .tc main_v81)
      = Cert.Results.kRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (htail (W8 m ρ c)).trans ?_
  rw [at8_v56 m ρ c h0 h17 h18 h27,
    at8_arg m ρ c (r := main_arg0) (by decide) (by decide) (by decide) (by decide) (by decide) (by decide) (by decide) (by decide),
    at8_arg m ρ c (r := main_arg1) (by decide) (by decide) (by decide) (by decide) (by decide) (by decide) (by decide) (by decide),
    at8_arg m ρ c (r := main_arg16) (by decide) (by decide) (by decide) (by decide) (by decide) (by decide) (by decide) (by decide),
    at8_arg m ρ c (r := main_arg17) (by decide) (by decide) (by decide) (by decide) (by decide) (by decide) (by decide) (by decide),
    at8_arg m ρ c (r := main_arg18) (by decide) (by decide) (by decide) (by decide) (by decide) (by decide) (by decide) (by decide)]
  rfl

end Cert.KernelIdeal.Walk

end
-- ==== Proof.RFrame.lean ====
/-
  THE REFERENCE'S RUN WITH ITS ARGUMENTS KEPT. The run leaves every buffer at the fold of the operations over the
  launch contents. Each operation writes one buffer, its result; the results are listed once, and no argument is in
  the list, so the fold at an argument's buffer is the launch contents there: the arguments end as launched.
-/
import proofs.«405038_j14748917694873_3_alg».proof.Proof.RefOps
import Idealize.ShloMosaic.Lib.StableHlo.Run

noncomputable section

namespace Cert.ReferenceIdeal.Walk

open Cert.ReferenceIdeal Cert.ReferenceIdeal.Gen Idealize.ShloMosaic Idealize.ShloMosaic.TcCoe Idealize.SL.Sem Idealize.ShloMosaic.StableHlo

variable {F : FTy → Type} [FloatOps F]

/-- The buffers the operations write: each operation's result, in order. No argument is among them. -/
abbrev written : List (Ref sig .tc) :=
  [
    main_v0, main_v1, main_v2, main_v3, main_v4, main_v5, main_v6, main_v7, main_cst, main_v8, main_v9, main_cst_0,
    main_v10, main_v11, main_v12, main_cst_1, main_v13, main_v14, main_v15, main_cst_2, main_call0_v0, main_call0_v1,
    main_v16, main_c, main_v17, main_v18, main_c_3, main_v19, main_v20, main_v21, main_v22, main_v23, main_v24,
    main_c_4, main_v25, main_v26, main_c_5, main_v27, main_v28, main_v29, main_v30, main_v31, main_v32, main_v33,
    main_v34, main_c_6, main_v35, main_v36, main_c_7, main_v37, main_v38, main_v39, main_v40, main_v41, main_v42,
    main_v43, main_cst_8, main_v44, main_v45, main_v46, main_v47, main_v48, main_v49, main_cst_9, main_v50, main_v51,
    main_cst_10, main_v52, main_v53, main_v54, main_v55, main_v56, main_cst_11, main_v57, main_v58, main_cst_12,
    main_v59, main_v60, main_v61, main_v62, main_cst_13, main_v63, main_v64, main_v65, main_v66, main_v67, main_v68,
    main_v69, main_v70, main_v71, main_v72, main_v73, main_call1_cst, main_call1_v0, main_v74, main_v75, main_v76,
    main_v77, main_c_14, main_v78, main_v79, main_c_15, main_v80, main_v81, main_v82, main_v83, main_v84, main_v85,
    main_v86, main_cst_16, main_v87, main_v88, main_v89, main_v90, main_v91, main_v92, main_cst_17, main_v93,
    main_v94, main_cst_18, main_v95, main_v96, main_v97, main_v98, main_v99, main_cst_19, main_v100, main_v101,
    main_cst_20, main_v102, main_v103, main_v104, main_v105, main_cst_21, main_v106, main_v107, main_v108, main_v109,
    main_v110, main_v111, main_v112, main_v113, main_v114, main_v115, main_v116, main_call2_cst, main_call2_v0,
    main_v117, main_v118, main_v119, main_v120, main_v121, main_v122, main_v123, main_v124, main_c_22, main_v125,
    main_v126, main_c_23, main_v127, main_v128, main_v129, main_v130, main_v131, main_c_24, main_v132, main_v133,
    main_c_25, main_v134, main_v135, main_v136, main_v137, main_v138, main_v139, main_cst_26, main_v140, main_c_27,
    main_v141, main_v142, main_c_28, main_v143, main_v144, main_v145, main_v146, main_v147, main_v148, main_c_29,
    main_v149, main_v150, main_c_30, main_v151, main_v152, main_v153, main_v154, main_v155, main_v156, main_v157,
    main_v158, main_cst_31, main_cst_32, main_call3_v0, main_call3_v1, main_call3_v2, main_call3_v3, main_call3_v4,
    main_v159 ]

/-- An operation whose one written buffer is listed writes inside the list. -/
theorem writes_sub {op : HloOp τ sig (Elt F)} (y : Ref sig .tc) (hw : op.writes = {Proc.devRef .tc y}) (hy : y ∈ written) :
    op.writes ⊆ (written.map (Proc.devRef (τ := τ) .tc)).toFinset := by
  rw [hw, Finset.singleton_subset_iff, List.mem_toFinset]
  exact List.mem_map.2 ⟨y, hy, rfl⟩

set_option maxRecDepth 8192 in
/-- Every operation writes inside the list. -/
theorem ops_writes :
    (Cert.ReferenceIdeal.Fold.ops (F := F)).Forall fun op => op.writes ⊆ (written.map (Proc.devRef (τ := τ) .tc)).toFinset := by
  repeat' apply And.intro
  all_goals exact writes_sub _ rfl (by decide)

/-- A buffer not in the list keeps its contents through the operations. -/
theorem kept_of_not_written (V : Valuation τ sig (Elt F)) (r : Ref sig .tc) (hr : r ∉ written) :
    StableHlo.after (Cert.ReferenceIdeal.Fold.ops (F := F)) V (Proc.devRef .tc r) = V (Proc.devRef .tc r) :=
  StableHlo.after_of_writes_sub (W := written) _ V ops_writes hr

/-- No operation writes argument 0. -/
theorem kept_arg0 (V : Valuation τ sig (Elt F)) :
    StableHlo.after (Cert.ReferenceIdeal.Fold.ops (F := F)) V (Proc.devRef .tc main_arg0) = V (Proc.devRef .tc main_arg0) :=
  kept_of_not_written V main_arg0 (by decide)

/-- No operation writes argument 1. -/
theorem kept_arg1 (V : Valuation τ sig (Elt F)) :
    StableHlo.after (Cert.ReferenceIdeal.Fold.ops (F := F)) V (Proc.devRef .tc main_arg1) = V (Proc.devRef .tc main_arg1) :=
  kept_of_not_written V main_arg1 (by decide)

/-- No operation writes argument 2. -/
theorem kept_arg2 (V : Valuation τ sig (Elt F)) :
    StableHlo.after (Cert.ReferenceIdeal.Fold.ops (F := F)) V (Proc.devRef .tc main_arg2) = V (Proc.devRef .tc main_arg2) :=
  kept_of_not_written V main_arg2 (by decide)

/-- No operation writes argument 3. -/
theorem kept_arg3 (V : Valuation τ sig (Elt F)) :
    StableHlo.after (Cert.ReferenceIdeal.Fold.ops (F := F)) V (Proc.devRef .tc main_arg3) = V (Proc.devRef .tc main_arg3) :=
  kept_of_not_written V main_arg3 (by decide)

/-- No operation writes argument 4. -/
theorem kept_arg4 (V : Valuation τ sig (Elt F)) :
    StableHlo.after (Cert.ReferenceIdeal.Fold.ops (F := F)) V (Proc.devRef .tc main_arg4) = V (Proc.devRef .tc main_arg4) :=
  kept_of_not_written V main_arg4 (by decide)

/-- No operation writes argument 5. -/
theorem kept_arg5 (V : Valuation τ sig (Elt F)) :
    StableHlo.after (Cert.ReferenceIdeal.Fold.ops (F := F)) V (Proc.devRef .tc main_arg5) = V (Proc.devRef .tc main_arg5) :=
  kept_of_not_written V main_arg5 (by decide)

/-- No operation writes argument 6. -/
theorem kept_arg6 (V : Valuation τ sig (Elt F)) :
    StableHlo.after (Cert.ReferenceIdeal.Fold.ops (F := F)) V (Proc.devRef .tc main_arg6) = V (Proc.devRef .tc main_arg6) :=
  kept_of_not_written V main_arg6 (by decide)

/-- No operation writes argument 7. -/
theorem kept_arg7 (V : Valuation τ sig (Elt F)) :
    StableHlo.after (Cert.ReferenceIdeal.Fold.ops (F := F)) V (Proc.devRef .tc main_arg7) = V (Proc.devRef .tc main_arg7) :=
  kept_of_not_written V main_arg7 (by decide)

/-- No operation writes argument 8. -/
theorem kept_arg8 (V : Valuation τ sig (Elt F)) :
    StableHlo.after (Cert.ReferenceIdeal.Fold.ops (F := F)) V (Proc.devRef .tc main_arg8) = V (Proc.devRef .tc main_arg8) :=
  kept_of_not_written V main_arg8 (by decide)

/-- No operation writes argument 9. -/
theorem kept_arg9 (V : Valuation τ sig (Elt F)) :
    StableHlo.after (Cert.ReferenceIdeal.Fold.ops (F := F)) V (Proc.devRef .tc main_arg9) = V (Proc.devRef .tc main_arg9) :=
  kept_of_not_written V main_arg9 (by decide)

/-- No operation writes argument 10. -/
theorem kept_arg10 (V : Valuation τ sig (Elt F)) :
    StableHlo.after (Cert.ReferenceIdeal.Fold.ops (F := F)) V (Proc.devRef .tc main_arg10) = V (Proc.devRef .tc main_arg10) :=
  kept_of_not_written V main_arg10 (by decide)

/-- No operation writes argument 11. -/
theorem kept_arg11 (V : Valuation τ sig (Elt F)) :
    StableHlo.after (Cert.ReferenceIdeal.Fold.ops (F := F)) V (Proc.devRef .tc main_arg11) = V (Proc.devRef .tc main_arg11) :=
  kept_of_not_written V main_arg11 (by decide)

/-- No operation writes argument 12. -/
theorem kept_arg12 (V : Valuation τ sig (Elt F)) :
    StableHlo.after (Cert.ReferenceIdeal.Fold.ops (F := F)) V (Proc.devRef .tc main_arg12) = V (Proc.devRef .tc main_arg12) :=
  kept_of_not_written V main_arg12 (by decide)

/-- No operation writes argument 13. -/
theorem kept_arg13 (V : Valuation τ sig (Elt F)) :
    StableHlo.after (Cert.ReferenceIdeal.Fold.ops (F := F)) V (Proc.devRef .tc main_arg13) = V (Proc.devRef .tc main_arg13) :=
  kept_of_not_written V main_arg13 (by decide)

/-- No operation writes argument 14. -/
theorem kept_arg14 (V : Valuation τ sig (Elt F)) :
    StableHlo.after (Cert.ReferenceIdeal.Fold.ops (F := F)) V (Proc.devRef .tc main_arg14) = V (Proc.devRef .tc main_arg14) :=
  kept_of_not_written V main_arg14 (by decide)

/-- No operation writes argument 15. -/
theorem kept_arg15 (V : Valuation τ sig (Elt F)) :
    StableHlo.after (Cert.ReferenceIdeal.Fold.ops (F := F)) V (Proc.devRef .tc main_arg15) = V (Proc.devRef .tc main_arg15) :=
  kept_of_not_written V main_arg15 (by decide)

/-- No operation writes argument 16. -/
theorem kept_arg16 (V : Valuation τ sig (Elt F)) :
    StableHlo.after (Cert.ReferenceIdeal.Fold.ops (F := F)) V (Proc.devRef .tc main_arg16) = V (Proc.devRef .tc main_arg16) :=
  kept_of_not_written V main_arg16 (by decide)

/-- No operation writes argument 17. -/
theorem kept_arg17 (V : Valuation τ sig (Elt F)) :
    StableHlo.after (Cert.ReferenceIdeal.Fold.ops (F := F)) V (Proc.devRef .tc main_arg17) = V (Proc.devRef .tc main_arg17) :=
  kept_of_not_written V main_arg17 (by decide)

/-- No operation writes argument 18. -/
theorem kept_arg18 (V : Valuation τ sig (Elt F)) :
    StableHlo.after (Cert.ReferenceIdeal.Fold.ops (F := F)) V (Proc.devRef .tc main_arg18) = V (Proc.devRef .tc main_arg18) :=
  kept_of_not_written V main_arg18 (by decide)

/-- On every device, from any memory with zero counters: every weakly fair execution of the reference terminates with
    its result at the fold of the operations over the launch contents, and every argument as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
          r.2.mem ((c.tc : Thread nD τ).loc main_v159) = StableHlo.after (Cert.ReferenceIdeal.Fold.ops (F := F)) (launchContents m c) (Proc.devRef .tc main_v159)
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7)
          ∧ r.2.mem ((c.tc : Thread nD τ).loc main_arg8) = m ((c.tc : Thread nD τ).loc main_arg8)
          ∧ r.2.mem ((c.tc : Thread nD τ).loc main_arg9) = m ((c.tc : Thread nD τ).loc main_arg9)
          ∧ r.2.mem ((c.tc : Thread nD τ).loc main_arg10) = m ((c.tc : Thread nD τ).loc main_arg10)
          ∧ r.2.mem ((c.tc : Thread nD τ).loc main_arg11) = m ((c.tc : Thread nD τ).loc main_arg11)
          ∧ r.2.mem ((c.tc : Thread nD τ).loc main_arg12) = m ((c.tc : Thread nD τ).loc main_arg12)
          ∧ r.2.mem ((c.tc : Thread nD τ).loc main_arg13) = m ((c.tc : Thread nD τ).loc main_arg13)
          ∧ r.2.mem ((c.tc : Thread nD τ).loc main_arg14) = m ((c.tc : Thread nD τ).loc main_arg14)
          ∧ r.2.mem ((c.tc : Thread nD τ).loc main_arg15) = m ((c.tc : Thread nD τ).loc main_arg15)
          ∧ r.2.mem ((c.tc : Thread nD τ).loc main_arg16) = m ((c.tc : Thread nD τ).loc main_arg16)
          ∧ r.2.mem ((c.tc : Thread nD τ).loc main_arg17) = m ((c.tc : Thread nD τ).loc main_arg17)
          ∧ r.2.mem ((c.tc : Thread nD τ).loc main_arg18) = m ((c.tc : Thread nD τ).loc main_arg18) :=
  (θ_run defs _ _).mono (fun r h c =>
    ⟨h c main_v159,
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c)),
      (h c main_arg10).trans (kept_arg10 (launchContents m c)),
      (h c main_arg11).trans (kept_arg11 (launchContents m c)),
      (h c main_arg12).trans (kept_arg12 (launchContents m c)),
      (h c main_arg13).trans (kept_arg13 (launchContents m c)),
      (h c main_arg14).trans (kept_arg14 (launchContents m c)),
      (h c main_arg15).trans (kept_arg15 (launchContents m c)),
      (h c main_arg16).trans (kept_arg16 (launchContents m c)),
      (h c main_arg17).trans (kept_arg17 (launchContents m c)),
      (h c main_arg18).trans (kept_arg18 (launchContents m c))⟩)
    (Cert.ReferenceIdeal.Fold.run_fold m ρ)

end Cert.ReferenceIdeal.Walk

end
-- ==== Proof.LibAfterAppend.lean ====
/-
  Running two stretches of host operations one after the other.

  `StableHlo.after ops V` is the valuation of the buffers after the operations `ops` have run, in order, from the
  valuation `V`. Running a list that is two stretches joined is running the second stretch from what the first
  leaves. (The library has the one-operation steps `after_cons` and `after_nil`; this is their fold over the
  first stretch.) Useful wherever a program's host operations come as several stretches — a module-local function
  called from @main is a stretch of its own — and one wants to evaluate each stretch over a generic valuation.
-/
import Idealize.ShloMosaic.Lib.StableHlo.Run

namespace Cert.Lib

open Idealize.ShloMosaic Idealize.ShloMosaic.StableHlo

variable {τ : Topo} {sig : RefSig} {Val : EltTy → Type}

/-- The operations `ops₁ ++ ops₂` from `V` leave what `ops₂` leaves from what `ops₁` leaves from `V`. -/
theorem after_append (ops₁ ops₂ : List (HloOp τ sig Val)) (V : Valuation τ sig Val) :
    after (ops₁ ++ ops₂) V = after ops₂ (after ops₁ V) := by
  induction ops₁ generalizing V with
  | nil => rfl
  | cons op ops ih => exact ih (op.result V)

/-- Two stretches given as a list of lists, as a program's host operations after a launch are. -/
theorem after_flatten_pair (ops₁ ops₂ : List (HloOp τ sig Val)) (V : Valuation τ sig Val) :
    after (List.flatten [ops₁, ops₂]) V = after ops₂ (after ops₁ V) := by
  rw [List.flatten_cons, List.flatten_cons, List.flatten_nil, List.append_nil]
  exact after_append ops₁ ops₂ V

end Cert.Lib
-- ==== Proof.RWalk.lean ====
/-
  The reference program's result buffer as a function of the arguments.

  The reference's 206 host operations are cut into eight stretches: the graph (node table, edge list with self
  loops, weights, reciprocal square roots of the degrees), the edge factors, the first aggregation, the first
  layer, the second aggregation, the second layer, the projection with its two parts, and the scores.  Each stretch,
  run from ANY contents of the buffers, leaves at its outputs one stage function of the contents of the buffers it
  reads; a buffer a stretch does not write keeps its contents.  Chaining the stretches from the launch contents
  gives the result buffer as the composed function of the nineteen arguments.
-/
import proofs.«405038_j14748917694873_3_alg».proof.Proof.RefOps
import proofs.«405038_j14748917694873_3_alg».proof.Proof.Results
import proofs.«405038_j14748917694873_3_alg».proof.Proof.LibAfterAppend
import Idealize.ShloMosaic.Lib.StableHlo.Run

noncomputable section

namespace Cert.ReferenceIdeal.Walk

open Cert.ReferenceIdeal Cert.ReferenceIdeal.Gen Idealize.ShloMosaic Idealize.ShloMosaic.TcCoe Idealize.SL.Sem Idealize.ShloMosaic.StableHlo

variable {F : FTy → Type} [FloatOps F]

/-! ## The eight stretches of the operation list -/

/-- The graph: node table, sources, destinations, weights, reciprocal square roots of the degrees. (operations 0 … 22) -/
abbrev opsA : List (HloOp τ sig (Elt F)) :=
  [ binary main_arg4 main_arg5 main_v0 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)),
    nullary main_v1 (iotaInDim S150000 32 0),
    unary main_arg2 main_v2 ((extractStridedSlice S1x3200000 ![0, 0] · slices_S2x3200000_S1x3200000_0_0) : (⟨S2x3200000, .i32⟩ : BufTy).Contents (Elt F) → (⟨S1x3200000, .i32⟩ : BufTy).Contents (Elt F)),
    reshape main_v2 main_v3 rfl shapeCasts_S1x3200000_S3200000,
    binary main_v3 main_v1 main_v4 ((fun a b => concatenate S3350000 0 [⟨S3200000, a⟩, ⟨S150000, b⟩] concatenates_S3200000_S150000_S3350000_d0) : (⟨S3200000, .i32⟩ : BufTy).Contents (Elt F) → (⟨S150000, .i32⟩ : BufTy).Contents (Elt F) → (⟨S3350000, .i32⟩ : BufTy).Contents (Elt F)),
    unary main_arg2 main_v5 ((extractStridedSlice S1x3200000 ![1, 0] · slices_S2x3200000_S1x3200000_1_0) : (⟨S2x3200000, .i32⟩ : BufTy).Contents (Elt F) → (⟨S1x3200000, .i32⟩ : BufTy).Contents (Elt F)),
    reshape main_v5 main_v6 rfl shapeCasts_S1x3200000_S3200000,
    binary main_v6 main_v1 main_v7 ((fun a b => concatenate S3350000 0 [⟨S3200000, a⟩, ⟨S150000, b⟩] concatenates_S3200000_S150000_S3350000_d0) : (⟨S3200000, .i32⟩ : BufTy).Contents (Elt F) → (⟨S150000, .i32⟩ : BufTy).Contents (Elt F) → (⟨S3350000, .i32⟩ : BufTy).Contents (Elt F)),
    nullary main_cst (constant S_ .f32 0x3F800000#32),
    unary main_cst main_v8 (broadcastInDim S150000 ![] bcast_S_S150000 : (⟨S_, .f32⟩ : BufTy).Contents (Elt F) → (⟨S150000, .f32⟩ : BufTy).Contents (Elt F)),
    binary main_arg3 main_v8 main_v9 ((fun a b => concatenate S3350000 0 [⟨S3200000, a⟩, ⟨S150000, b⟩] concatenates_S3200000_S150000_S3350000_d0) : (⟨S3200000, .f32⟩ : BufTy).Contents (Elt F) → (⟨S150000, .f32⟩ : BufTy).Contents (Elt F) → (⟨S3350000, .f32⟩ : BufTy).Contents (Elt F)),
    nullary main_cst_0 (constant S_ .f32 0x00000000#32),
    unary main_cst_0 main_v10 (broadcastInDim S150000 ![] bcast_S_S150000 : (⟨S_, .f32⟩ : BufTy).Contents (Elt F) → (⟨S150000, .f32⟩ : BufTy).Contents (Elt F)),
    unary main_v7 main_v11 (broadcastInDim S3350000x1 ![0] bcast_S3350000_S3350000x1_0 : (⟨S3350000, .i32⟩ : BufTy).Contents (Elt F) → (⟨S3350000x1, .i32⟩ : BufTy).Contents (Elt F)),
    ternary main_v10 main_v11 main_v9 main_v12 ((fun x i u => Host.scatterAdd scatter_S150000_S3350000x1_S3350000_n_0_0_1 x i u) : (⟨S150000, .f32⟩ : BufTy).Contents (Elt F) → (⟨S3350000x1, .i32⟩ : BufTy).Contents (Elt F) → (⟨S3350000, .f32⟩ : BufTy).Contents (Elt F) → (⟨S150000, .f32⟩ : BufTy).Contents (Elt F)),
    nullary main_cst_1 (constant S_ .f32 0x00000000#32),
    unary main_cst_1 main_v13 (broadcastInDim S150000 ![] bcast_S_S150000 : (⟨S_, .f32⟩ : BufTy).Contents (Elt F) → (⟨S150000, .f32⟩ : BufTy).Contents (Elt F)),
    binary main_v12 main_v13 main_v14 (cmpf .ogt : (⟨S150000, .f32⟩ : BufTy).Contents (Elt F) → (⟨S150000, .f32⟩ : BufTy).Contents (Elt F) → (⟨S150000, .i1⟩ : BufTy).Contents (Elt F)),
    unary main_v12 main_v15 (Host.rsqrt : (⟨S150000, .f32⟩ : BufTy).Contents (Elt F) → (⟨S150000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S150000, .f32⟩) main_call0_v1) (broadcastInDim S150000 ![] bcast_S_S150000),
    TRef.ternary (TRef.of (T := ⟨S150000, .i1⟩) main_v14) (TRef.of (T := ⟨S150000, .f32⟩) main_v15) (TRef.of (T := ⟨S150000, .f32⟩) main_call0_v1) (TRef.of (T := ⟨S150000, .f32⟩) main_v16) select ]

/-- The edge factors. (operations 23 … 42) -/
abbrev opsB : List (HloOp τ sig (Elt F)) :=
  [ nullary main_c (constantI S_ 32 0#32),
    unary main_c main_v17 (broadcastInDim S3350000 ![] bcast_S_S3350000 : (⟨S_, .i32⟩ : BufTy).Contents (Elt F) → (⟨S3350000, .i32⟩ : BufTy).Contents (Elt F)),
    binary main_v4 main_v17 main_v18 (cmpi .slt : (⟨S3350000, .i32⟩ : BufTy).Contents (Elt F) → (⟨S3350000, .i32⟩ : BufTy).Contents (Elt F) → (⟨S3350000, .i1⟩ : BufTy).Contents (Elt F)),
    nullary main_c_3 (constantI S_ 32 150000#32),
    unary main_c_3 main_v19 (broadcastInDim S3350000 ![] bcast_S_S3350000 : (⟨S_, .i32⟩ : BufTy).Contents (Elt F) → (⟨S3350000, .i32⟩ : BufTy).Contents (Elt F)),
    binary main_v4 main_v19 main_v20 (addi : (⟨S3350000, .i32⟩ : BufTy).Contents (Elt F) → (⟨S3350000, .i32⟩ : BufTy).Contents (Elt F) → (⟨S3350000, .i32⟩ : BufTy).Contents (Elt F)),
    ternary main_v18 main_v20 main_v4 main_v21 (select : (⟨S3350000, .i1⟩ : BufTy).Contents (Elt F) → (⟨S3350000, .i32⟩ : BufTy).Contents (Elt F) → (⟨S3350000, .i32⟩ : BufTy).Contents (Elt F) → (⟨S3350000, .i32⟩ : BufTy).Contents (Elt F)),
    unary main_v21 main_v22 (broadcastInDim S3350000x1 ![0] bcast_S3350000_S3350000x1_0 : (⟨S3350000, .i32⟩ : BufTy).Contents (Elt F) → (⟨S3350000x1, .i32⟩ : BufTy).Contents (Elt F)),
    binary main_v16 main_v22 main_v23 ((fun x i => Host.gather gather_S150000_S3350000x1_S3350000_n_0_n_n_0_1_1 x i) : (⟨S150000, .f32⟩ : BufTy).Contents (Elt F) → (⟨S3350000x1, .i32⟩ : BufTy).Contents (Elt F) → (⟨S3350000, .f32⟩ : BufTy).Contents (Elt F)),
    binary main_v23 main_v9 main_v24 (mulf : (⟨S3350000, .f32⟩ : BufTy).Contents (Elt F) → (⟨S3350000, .f32⟩ : BufTy).Contents (Elt F) → (⟨S3350000, .f32⟩ : BufTy).Contents (Elt F)),
    nullary main_c_4 (constantI S_ 32 0#32),
    unary main_c_4 main_v25 (broadcastInDim S3350000 ![] bcast_S_S3350000 : (⟨S_, .i32⟩ : BufTy).Contents (Elt F) → (⟨S3350000, .i32⟩ : BufTy).Contents (Elt F)),
    binary main_v7 main_v25 main_v26 (cmpi .slt : (⟨S3350000, .i32⟩ : BufTy).Contents (Elt F) → (⟨S3350000, .i32⟩ : BufTy).Contents (Elt F) → (⟨S3350000, .i1⟩ : BufTy).Contents (Elt F)),
    nullary main_c_5 (constantI S_ 32 150000#32),
    unary main_c_5 main_v27 (broadcastInDim S3350000 ![] bcast_S_S3350000 : (⟨S_, .i32⟩ : BufTy).Contents (Elt F) → (⟨S3350000, .i32⟩ : BufTy).Contents (Elt F)),
    binary main_v7 main_v27 main_v28 (addi : (⟨S3350000, .i32⟩ : BufTy).Contents (Elt F) → (⟨S3350000, .i32⟩ : BufTy).Contents (Elt F) → (⟨S3350000, .i32⟩ : BufTy).Contents (Elt F)),
    ternary main_v26 main_v28 main_v7 main_v29 (select : (⟨S3350000, .i1⟩ : BufTy).Contents (Elt F) → (⟨S3350000, .i32⟩ : BufTy).Contents (Elt F) → (⟨S3350000, .i32⟩ : BufTy).Contents (Elt F) → (⟨S3350000, .i32⟩ : BufTy).Contents (Elt F)),
    unary main_v29 main_v30 (broadcastInDim S3350000x1 ![0] bcast_S3350000_S3350000x1_0 : (⟨S3350000, .i32⟩ : BufTy).Contents (Elt F) → (⟨S3350000x1, .i32⟩ : BufTy).Contents (Elt F)),
    binary main_v16 main_v30 main_v31 ((fun x i => Host.gather gather_S150000_S3350000x1_S3350000_n_0_n_n_0_1_1 x i) : (⟨S150000, .f32⟩ : BufTy).Contents (Elt F) → (⟨S3350000x1, .i32⟩ : BufTy).Contents (Elt F) → (⟨S3350000, .f32⟩ : BufTy).Contents (Elt F)),
    binary main_v24 main_v31 main_v32 (mulf : (⟨S3350000, .f32⟩ : BufTy).Contents (Elt F) → (⟨S3350000, .f32⟩ : BufTy).Contents (Elt F) → (⟨S3350000, .f32⟩ : BufTy).Contents (Elt F)) ]

/-- The first product and aggregation. (operations 43 … 59) -/
abbrev opsC : List (HloOp τ sig (Elt F)) :=
  [ binary main_v0 main_arg6 main_v33 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_v32 main_v34 (broadcastInDim S3350000x1 ![0] bcast_S3350000_S3350000x1_0 : (⟨S3350000, .f32⟩ : BufTy).Contents (Elt F) → (⟨S3350000x1, .f32⟩ : BufTy).Contents (Elt F)),
    nullary main_c_6 (constantI S_ 32 0#32),
    unary main_c_6 main_v35 (broadcastInDim S3350000 ![] bcast_S_S3350000 : (⟨S_, .i32⟩ : BufTy).Contents (Elt F) → (⟨S3350000, .i32⟩ : BufTy).Contents (Elt F)),
    binary main_v4 main_v35 main_v36 (cmpi .slt : (⟨S3350000, .i32⟩ : BufTy).Contents (Elt F) → (⟨S3350000, .i32⟩ : BufTy).Contents (Elt F) → (⟨S3350000, .i1⟩ : BufTy).Contents (Elt F)),
    nullary main_c_7 (constantI S_ 32 150000#32),
    unary main_c_7 main_v37 (broadcastInDim S3350000 ![] bcast_S_S3350000 : (⟨S_, .i32⟩ : BufTy).Contents (Elt F) → (⟨S3350000, .i32⟩ : BufTy).Contents (Elt F)),
    binary main_v4 main_v37 main_v38 (addi : (⟨S3350000, .i32⟩ : BufTy).Contents (Elt F) → (⟨S3350000, .i32⟩ : BufTy).Contents (Elt F) → (⟨S3350000, .i32⟩ : BufTy).Contents (Elt F)),
    ternary main_v36 main_v38 main_v4 main_v39 (select : (⟨S3350000, .i1⟩ : BufTy).Contents (Elt F) → (⟨S3350000, .i32⟩ : BufTy).Contents (Elt F) → (⟨S3350000, .i32⟩ : BufTy).Contents (Elt F) → (⟨S3350000, .i32⟩ : BufTy).Contents (Elt F)),
    unary main_v39 main_v40 (broadcastInDim S3350000x1 ![0] bcast_S3350000_S3350000x1_0 : (⟨S3350000, .i32⟩ : BufTy).Contents (Elt F) → (⟨S3350000x1, .i32⟩ : BufTy).Contents (Elt F)),
    binary main_v33 main_v40 main_v41 ((fun x i => Host.gather gather_S150000x64_S3350000x1_S3350000x64_1_0_n_n_0_1_164 x i) : (⟨S150000x64, .f32⟩ : BufTy).Contents (Elt F) → (⟨S3350000x1, .i32⟩ : BufTy).Contents (Elt F) → (⟨S3350000x64, .f32⟩ : BufTy).Contents (Elt F)),
    unary main_v34 main_v42 (broadcastInDim S3350000x64 ![0, 1] bcast_S3350000x1_S3350000x64_0_1 : (⟨S3350000x1, .f32⟩ : BufTy).Contents (Elt F) → (⟨S3350000x64, .f32⟩ : BufTy).Contents (Elt F)),
    binary main_v42 main_v41 main_v43 (mulf : (⟨S3350000x64, .f32⟩ : BufTy).Contents (Elt F) → (⟨S3350000x64, .f32⟩ : BufTy).Contents (Elt F) → (⟨S3350000x64, .f32⟩ : BufTy).Contents (Elt F)),
    nullary main_cst_8 (constant S_ .f32 0x00000000#32),
    unary main_cst_8 main_v44 (broadcastInDim S150000x64 ![] bcast_S_S150000x64 : (⟨S_, .f32⟩ : BufTy).Contents (Elt F) → (⟨S150000x64, .f32⟩ : BufTy).Contents (Elt F)),
    unary main_v7 main_v45 (broadcastInDim S3350000x1 ![0] bcast_S3350000_S3350000x1_0 : (⟨S3350000, .i32⟩ : BufTy).Contents (Elt F) → (⟨S3350000x1, .i32⟩ : BufTy).Contents (Elt F)),
    ternary main_v44 main_v45 main_v43 main_v46 ((fun x i u => Host.scatterAdd scatter_S150000x64_S3350000x1_S3350000x64_1_0_0_1 x i u) : (⟨S150000x64, .f32⟩ : BufTy).Contents (Elt F) → (⟨S3350000x1, .i32⟩ : BufTy).Contents (Elt F) → (⟨S3350000x64, .f32⟩ : BufTy).Contents (Elt F) → (⟨S150000x64, .f32⟩ : BufTy).Contents (Elt F)) ]

/-- The first layer: bias, normalisation, scale and shift, rectifier, residual. (operations 60 … 95) -/
abbrev opsD : List (HloOp τ sig (Elt F)) :=
  [ unary main_arg7 main_v47 (broadcastInDim S1x64 ![1] bcast_S64_S1x64_1 : (⟨S64, .f32⟩ : BufTy).Contents (Elt F) → (⟨S1x64, .f32⟩ : BufTy).Contents (Elt F)),
    unary main_v47 main_v48 (broadcastInDim S150000x64 ![0, 1] bcast_S1x64_S150000x64_0_1 : (⟨S1x64, .f32⟩ : BufTy).Contents (Elt F) → (⟨S150000x64, .f32⟩ : BufTy).Contents (Elt F)),
    binary main_v46 main_v48 main_v49 (addf : (⟨S150000x64, .f32⟩ : BufTy).Contents (Elt F) → (⟨S150000x64, .f32⟩ : BufTy).Contents (Elt F) → (⟨S150000x64, .f32⟩ : BufTy).Contents (Elt F)),
    nullary main_cst_9 (constant S_ .f32 0x00000000#32),
    binary main_v49 main_cst_9 main_v50 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    unary main_v50 main_v51 (broadcastInDim S150000x1 ![0] bcast_S150000_S150000x1_0 : (⟨S150000, .f32⟩ : BufTy).Contents (Elt F) → (⟨S150000x1, .f32⟩ : BufTy).Contents (Elt F)),
    nullary main_cst_10 (constant S_ .f32 0x42800000#32),
    unary main_cst_10 main_v52 (broadcastInDim S150000x1 ![] bcast_S_S150000x1 : (⟨S_, .f32⟩ : BufTy).Contents (Elt F) → (⟨S150000x1, .f32⟩ : BufTy).Contents (Elt F)),
    binary main_v51 main_v52 main_v53 (Host.divf : (⟨S150000x1, .f32⟩ : BufTy).Contents (Elt F) → (⟨S150000x1, .f32⟩ : BufTy).Contents (Elt F) → (⟨S150000x1, .f32⟩ : BufTy).Contents (Elt F)),
    unary main_v53 main_v54 (broadcastInDim S150000x64 ![0, 1] bcast_S150000x1_S150000x64_0_1 : (⟨S150000x1, .f32⟩ : BufTy).Contents (Elt F) → (⟨S150000x64, .f32⟩ : BufTy).Contents (Elt F)),
    binary main_v49 main_v54 main_v55 (subf : (⟨S150000x64, .f32⟩ : BufTy).Contents (Elt F) → (⟨S150000x64, .f32⟩ : BufTy).Contents (Elt F) → (⟨S150000x64, .f32⟩ : BufTy).Contents (Elt F)),
    binary main_v55 main_v55 main_v56 (mulf : (⟨S150000x64, .f32⟩ : BufTy).Contents (Elt F) → (⟨S150000x64, .f32⟩ : BufTy).Contents (Elt F) → (⟨S150000x64, .f32⟩ : BufTy).Contents (Elt F)),
    nullary main_cst_11 (constant S_ .f32 0x00000000#32),
    binary main_v56 main_cst_11 main_v57 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    unary main_v57 main_v58 (broadcastInDim S150000x1 ![0] bcast_S150000_S150000x1_0 : (⟨S150000, .f32⟩ : BufTy).Contents (Elt F) → (⟨S150000x1, .f32⟩ : BufTy).Contents (Elt F)),
    nullary main_cst_12 (constant S_ .f32 0x42800000#32),
    unary main_cst_12 main_v59 (broadcastInDim S150000x1 ![] bcast_S_S150000x1 : (⟨S_, .f32⟩ : BufTy).Contents (Elt F) → (⟨S150000x1, .f32⟩ : BufTy).Contents (Elt F)),
    binary main_v58 main_v59 main_v60 (Host.divf : (⟨S150000x1, .f32⟩ : BufTy).Contents (Elt F) → (⟨S150000x1, .f32⟩ : BufTy).Contents (Elt F) → (⟨S150000x1, .f32⟩ : BufTy).Contents (Elt F)),
    unary main_v53 main_v61 (broadcastInDim S150000x64 ![0, 1] bcast_S150000x1_S150000x64_0_1 : (⟨S150000x1, .f32⟩ : BufTy).Contents (Elt F) → (⟨S150000x64, .f32⟩ : BufTy).Contents (Elt F)),
    binary main_v49 main_v61 main_v62 (subf : (⟨S150000x64, .f32⟩ : BufTy).Contents (Elt F) → (⟨S150000x64, .f32⟩ : BufTy).Contents (Elt F) → (⟨S150000x64, .f32⟩ : BufTy).Contents (Elt F)),
    nullary main_cst_13 (constant S_ .f32 0x3727C5AC#32),
    unary main_cst_13 main_v63 (broadcastInDim S150000x1 ![] bcast_S_S150000x1 : (⟨S_, .f32⟩ : BufTy).Contents (Elt F) → (⟨S150000x1, .f32⟩ : BufTy).Contents (Elt F)),
    binary main_v60 main_v63 main_v64 (addf : (⟨S150000x1, .f32⟩ : BufTy).Contents (Elt F) → (⟨S150000x1, .f32⟩ : BufTy).Contents (Elt F) → (⟨S150000x1, .f32⟩ : BufTy).Contents (Elt F)),
    unary main_v64 main_v65 (Host.rsqrt : (⟨S150000x1, .f32⟩ : BufTy).Contents (Elt F) → (⟨S150000x1, .f32⟩ : BufTy).Contents (Elt F)),
    unary main_v65 main_v66 (broadcastInDim S150000x64 ![0, 1] bcast_S150000x1_S150000x64_0_1 : (⟨S150000x1, .f32⟩ : BufTy).Contents (Elt F) → (⟨S150000x64, .f32⟩ : BufTy).Contents (Elt F)),
    binary main_v62 main_v66 main_v67 (mulf : (⟨S150000x64, .f32⟩ : BufTy).Contents (Elt F) → (⟨S150000x64, .f32⟩ : BufTy).Contents (Elt F) → (⟨S150000x64, .f32⟩ : BufTy).Contents (Elt F)),
    unary main_arg8 main_v68 (broadcastInDim S1x64 ![1] bcast_S64_S1x64_1 : (⟨S64, .f32⟩ : BufTy).Contents (Elt F) → (⟨S1x64, .f32⟩ : BufTy).Contents (Elt F)),
    unary main_v68 main_v69 (broadcastInDim S150000x64 ![0, 1] bcast_S1x64_S150000x64_0_1 : (⟨S1x64, .f32⟩ : BufTy).Contents (Elt F) → (⟨S150000x64, .f32⟩ : BufTy).Contents (Elt F)),
    binary main_v67 main_v69 main_v70 (mulf : (⟨S150000x64, .f32⟩ : BufTy).Contents (Elt F) → (⟨S150000x64, .f32⟩ : BufTy).Contents (Elt F) → (⟨S150000x64, .f32⟩ : BufTy).Contents (Elt F)),
    unary main_arg9 main_v71 (broadcastInDim S1x64 ![1] bcast_S64_S1x64_1 : (⟨S64, .f32⟩ : BufTy).Contents (Elt F) → (⟨S1x64, .f32⟩ : BufTy).Contents (Elt F)),
    unary main_v71 main_v72 (broadcastInDim S150000x64 ![0, 1] bcast_S1x64_S150000x64_0_1 : (⟨S1x64, .f32⟩ : BufTy).Contents (Elt F) → (⟨S150000x64, .f32⟩ : BufTy).Contents (Elt F)),
    binary main_v70 main_v72 main_v73 (addf : (⟨S150000x64, .f32⟩ : BufTy).Contents (Elt F) → (⟨S150000x64, .f32⟩ : BufTy).Contents (Elt F) → (⟨S150000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S150000x64, .f32⟩) main_call1_v0) (broadcastInDim S150000x64 ![] bcast_S_S150000x64),
    TRef.binary (TRef.of (T := ⟨S150000x64, .f32⟩) main_v73) (TRef.of (T := ⟨S150000x64, .f32⟩) main_call1_v0) (TRef.of (T := ⟨S150000x64, .f32⟩) main_v74) maximumf,
    binary main_v74 main_v0 main_v75 (addf : (⟨S150000x64, .f32⟩ : BufTy).Contents (Elt F) → (⟨S150000x64, .f32⟩ : BufTy).Contents (Elt F) → (⟨S150000x64, .f32⟩ : BufTy).Contents (Elt F)) ]

/-- The second product and aggregation. (operations 96 … 112) -/
abbrev opsE : List (HloOp τ sig (Elt F)) :=
  [ binary main_v75 main_arg10 main_v76 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_v32 main_v77 (broadcastInDim S3350000x1 ![0] bcast_S3350000_S3350000x1_0 : (⟨S3350000, .f32⟩ : BufTy).Contents (Elt F) → (⟨S3350000x1, .f32⟩ : BufTy).Contents (Elt F)),
    nullary main_c_14 (constantI S_ 32 0#32),
    unary main_c_14 main_v78 (broadcastInDim S3350000 ![] bcast_S_S3350000 : (⟨S_, .i32⟩ : BufTy).Contents (Elt F) → (⟨S3350000, .i32⟩ : BufTy).Contents (Elt F)),
    binary main_v4 main_v78 main_v79 (cmpi .slt : (⟨S3350000, .i32⟩ : BufTy).Contents (Elt F) → (⟨S3350000, .i32⟩ : BufTy).Contents (Elt F) → (⟨S3350000, .i1⟩ : BufTy).Contents (Elt F)),
    nullary main_c_15 (constantI S_ 32 150000#32),
    unary main_c_15 main_v80 (broadcastInDim S3350000 ![] bcast_S_S3350000 : (⟨S_, .i32⟩ : BufTy).Contents (Elt F) → (⟨S3350000, .i32⟩ : BufTy).Contents (Elt F)),
    binary main_v4 main_v80 main_v81 (addi : (⟨S3350000, .i32⟩ : BufTy).Contents (Elt F) → (⟨S3350000, .i32⟩ : BufTy).Contents (Elt F) → (⟨S3350000, .i32⟩ : BufTy).Contents (Elt F)),
    ternary main_v79 main_v81 main_v4 main_v82 (select : (⟨S3350000, .i1⟩ : BufTy).Contents (Elt F) → (⟨S3350000, .i32⟩ : BufTy).Contents (Elt F) → (⟨S3350000, .i32⟩ : BufTy).Contents (Elt F) → (⟨S3350000, .i32⟩ : BufTy).Contents (Elt F)),
    unary main_v82 main_v83 (broadcastInDim S3350000x1 ![0] bcast_S3350000_S3350000x1_0 : (⟨S3350000, .i32⟩ : BufTy).Contents (Elt F) → (⟨S3350000x1, .i32⟩ : BufTy).Contents (Elt F)),
    binary main_v76 main_v83 main_v84 ((fun x i => Host.gather gather_S150000x64_S3350000x1_S3350000x64_1_0_n_n_0_1_164 x i) : (⟨S150000x64, .f32⟩ : BufTy).Contents (Elt F) → (⟨S3350000x1, .i32⟩ : BufTy).Contents (Elt F) → (⟨S3350000x64, .f32⟩ : BufTy).Contents (Elt F)),
    unary main_v77 main_v85 (broadcastInDim S3350000x64 ![0, 1] bcast_S3350000x1_S3350000x64_0_1 : (⟨S3350000x1, .f32⟩ : BufTy).Contents (Elt F) → (⟨S3350000x64, .f32⟩ : BufTy).Contents (Elt F)),
    binary main_v85 main_v84 main_v86 (mulf : (⟨S3350000x64, .f32⟩ : BufTy).Contents (Elt F) → (⟨S3350000x64, .f32⟩ : BufTy).Contents (Elt F) → (⟨S3350000x64, .f32⟩ : BufTy).Contents (Elt F)),
    nullary main_cst_16 (constant S_ .f32 0x00000000#32),
    unary main_cst_16 main_v87 (broadcastInDim S150000x64 ![] bcast_S_S150000x64 : (⟨S_, .f32⟩ : BufTy).Contents (Elt F) → (⟨S150000x64, .f32⟩ : BufTy).Contents (Elt F)),
    unary main_v7 main_v88 (broadcastInDim S3350000x1 ![0] bcast_S3350000_S3350000x1_0 : (⟨S3350000, .i32⟩ : BufTy).Contents (Elt F) → (⟨S3350000x1, .i32⟩ : BufTy).Contents (Elt F)),
    ternary main_v87 main_v88 main_v86 main_v89 ((fun x i u => Host.scatterAdd scatter_S150000x64_S3350000x1_S3350000x64_1_0_0_1 x i u) : (⟨S150000x64, .f32⟩ : BufTy).Contents (Elt F) → (⟨S3350000x1, .i32⟩ : BufTy).Contents (Elt F) → (⟨S3350000x64, .f32⟩ : BufTy).Contents (Elt F) → (⟨S150000x64, .f32⟩ : BufTy).Contents (Elt F)) ]

/-- The second layer. (operations 113 … 148) -/
abbrev opsF : List (HloOp τ sig (Elt F)) :=
  [ unary main_arg11 main_v90 (broadcastInDim S1x64 ![1] bcast_S64_S1x64_1 : (⟨S64, .f32⟩ : BufTy).Contents (Elt F) → (⟨S1x64, .f32⟩ : BufTy).Contents (Elt F)),
    unary main_v90 main_v91 (broadcastInDim S150000x64 ![0, 1] bcast_S1x64_S150000x64_0_1 : (⟨S1x64, .f32⟩ : BufTy).Contents (Elt F) → (⟨S150000x64, .f32⟩ : BufTy).Contents (Elt F)),
    binary main_v89 main_v91 main_v92 (addf : (⟨S150000x64, .f32⟩ : BufTy).Contents (Elt F) → (⟨S150000x64, .f32⟩ : BufTy).Contents (Elt F) → (⟨S150000x64, .f32⟩ : BufTy).Contents (Elt F)),
    nullary main_cst_17 (constant S_ .f32 0x00000000#32),
    binary main_v92 main_cst_17 main_v93 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    unary main_v93 main_v94 (broadcastInDim S150000x1 ![0] bcast_S150000_S150000x1_0 : (⟨S150000, .f32⟩ : BufTy).Contents (Elt F) → (⟨S150000x1, .f32⟩ : BufTy).Contents (Elt F)),
    nullary main_cst_18 (constant S_ .f32 0x42800000#32),
    unary main_cst_18 main_v95 (broadcastInDim S150000x1 ![] bcast_S_S150000x1 : (⟨S_, .f32⟩ : BufTy).Contents (Elt F) → (⟨S150000x1, .f32⟩ : BufTy).Contents (Elt F)),
    binary main_v94 main_v95 main_v96 (Host.divf : (⟨S150000x1, .f32⟩ : BufTy).Contents (Elt F) → (⟨S150000x1, .f32⟩ : BufTy).Contents (Elt F) → (⟨S150000x1, .f32⟩ : BufTy).Contents (Elt F)),
    unary main_v96 main_v97 (broadcastInDim S150000x64 ![0, 1] bcast_S150000x1_S150000x64_0_1 : (⟨S150000x1, .f32⟩ : BufTy).Contents (Elt F) → (⟨S150000x64, .f32⟩ : BufTy).Contents (Elt F)),
    binary main_v92 main_v97 main_v98 (subf : (⟨S150000x64, .f32⟩ : BufTy).Contents (Elt F) → (⟨S150000x64, .f32⟩ : BufTy).Contents (Elt F) → (⟨S150000x64, .f32⟩ : BufTy).Contents (Elt F)),
    binary main_v98 main_v98 main_v99 (mulf : (⟨S150000x64, .f32⟩ : BufTy).Contents (Elt F) → (⟨S150000x64, .f32⟩ : BufTy).Contents (Elt F) → (⟨S150000x64, .f32⟩ : BufTy).Contents (Elt F)),
    nullary main_cst_19 (constant S_ .f32 0x00000000#32),
    binary main_v99 main_cst_19 main_v100 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    unary main_v100 main_v101 (broadcastInDim S150000x1 ![0] bcast_S150000_S150000x1_0 : (⟨S150000, .f32⟩ : BufTy).Contents (Elt F) → (⟨S150000x1, .f32⟩ : BufTy).Contents (Elt F)),
    nullary main_cst_20 (constant S_ .f32 0x42800000#32),
    unary main_cst_20 main_v102 (broadcastInDim S150000x1 ![] bcast_S_S150000x1 : (⟨S_, .f32⟩ : BufTy).Contents (Elt F) → (⟨S150000x1, .f32⟩ : BufTy).Contents (Elt F)),
    binary main_v101 main_v102 main_v103 (Host.divf : (⟨S150000x1, .f32⟩ : BufTy).Contents (Elt F) → (⟨S150000x1, .f32⟩ : BufTy).Contents (Elt F) → (⟨S150000x1, .f32⟩ : BufTy).Contents (Elt F)),
    unary main_v96 main_v104 (broadcastInDim S150000x64 ![0, 1] bcast_S150000x1_S150000x64_0_1 : (⟨S150000x1, .f32⟩ : BufTy).Contents (Elt F) → (⟨S150000x64, .f32⟩ : BufTy).Contents (Elt F)),
    binary main_v92 main_v104 main_v105 (subf : (⟨S150000x64, .f32⟩ : BufTy).Contents (Elt F) → (⟨S150000x64, .f32⟩ : BufTy).Contents (Elt F) → (⟨S150000x64, .f32⟩ : BufTy).Contents (Elt F)),
    nullary main_cst_21 (constant S_ .f32 0x3727C5AC#32),
    unary main_cst_21 main_v106 (broadcastInDim S150000x1 ![] bcast_S_S150000x1 : (⟨S_, .f32⟩ : BufTy).Contents (Elt F) → (⟨S150000x1, .f32⟩ : BufTy).Contents (Elt F)),
    binary main_v103 main_v106 main_v107 (addf : (⟨S150000x1, .f32⟩ : BufTy).Contents (Elt F) → (⟨S150000x1, .f32⟩ : BufTy).Contents (Elt F) → (⟨S150000x1, .f32⟩ : BufTy).Contents (Elt F)),
    unary main_v107 main_v108 (Host.rsqrt : (⟨S150000x1, .f32⟩ : BufTy).Contents (Elt F) → (⟨S150000x1, .f32⟩ : BufTy).Contents (Elt F)),
    unary main_v108 main_v109 (broadcastInDim S150000x64 ![0, 1] bcast_S150000x1_S150000x64_0_1 : (⟨S150000x1, .f32⟩ : BufTy).Contents (Elt F) → (⟨S150000x64, .f32⟩ : BufTy).Contents (Elt F)),
    binary main_v105 main_v109 main_v110 (mulf : (⟨S150000x64, .f32⟩ : BufTy).Contents (Elt F) → (⟨S150000x64, .f32⟩ : BufTy).Contents (Elt F) → (⟨S150000x64, .f32⟩ : BufTy).Contents (Elt F)),
    unary main_arg12 main_v111 (broadcastInDim S1x64 ![1] bcast_S64_S1x64_1 : (⟨S64, .f32⟩ : BufTy).Contents (Elt F) → (⟨S1x64, .f32⟩ : BufTy).Contents (Elt F)),
    unary main_v111 main_v112 (broadcastInDim S150000x64 ![0, 1] bcast_S1x64_S150000x64_0_1 : (⟨S1x64, .f32⟩ : BufTy).Contents (Elt F) → (⟨S150000x64, .f32⟩ : BufTy).Contents (Elt F)),
    binary main_v110 main_v112 main_v113 (mulf : (⟨S150000x64, .f32⟩ : BufTy).Contents (Elt F) → (⟨S150000x64, .f32⟩ : BufTy).Contents (Elt F) → (⟨S150000x64, .f32⟩ : BufTy).Contents (Elt F)),
    unary main_arg13 main_v114 (broadcastInDim S1x64 ![1] bcast_S64_S1x64_1 : (⟨S64, .f32⟩ : BufTy).Contents (Elt F) → (⟨S1x64, .f32⟩ : BufTy).Contents (Elt F)),
    unary main_v114 main_v115 (broadcastInDim S150000x64 ![0, 1] bcast_S1x64_S150000x64_0_1 : (⟨S1x64, .f32⟩ : BufTy).Contents (Elt F) → (⟨S150000x64, .f32⟩ : BufTy).Contents (Elt F)),
    binary main_v113 main_v115 main_v116 (addf : (⟨S150000x64, .f32⟩ : BufTy).Contents (Elt F) → (⟨S150000x64, .f32⟩ : BufTy).Contents (Elt F) → (⟨S150000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S150000x64, .f32⟩) main_call2_v0) (broadcastInDim S150000x64 ![] bcast_S_S150000x64),
    TRef.binary (TRef.of (T := ⟨S150000x64, .f32⟩) main_v116) (TRef.of (T := ⟨S150000x64, .f32⟩) main_call2_v0) (TRef.of (T := ⟨S150000x64, .f32⟩) main_v117) maximumf,
    binary main_v117 main_v75 main_v118 (addf : (⟨S150000x64, .f32⟩ : BufTy).Contents (Elt F) → (⟨S150000x64, .f32⟩ : BufTy).Contents (Elt F) → (⟨S150000x64, .f32⟩ : BufTy).Contents (Elt F)) ]

/-- The projection and its users' and items' parts. (operations 149 … 154) -/
abbrev opsG : List (HloOp τ sig (Elt F)) :=
  [ binary main_v118 main_arg14 main_v119 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg15 main_v120 (broadcastInDim S1x64 ![1] bcast_S64_S1x64_1 : (⟨S64, .f32⟩ : BufTy).Contents (Elt F) → (⟨S1x64, .f32⟩ : BufTy).Contents (Elt F)),
    unary main_v120 main_v121 (broadcastInDim S150000x64 ![0, 1] bcast_S1x64_S150000x64_0_1 : (⟨S1x64, .f32⟩ : BufTy).Contents (Elt F) → (⟨S150000x64, .f32⟩ : BufTy).Contents (Elt F)),
    binary main_v119 main_v121 main_v122 (addf : (⟨S150000x64, .f32⟩ : BufTy).Contents (Elt F) → (⟨S150000x64, .f32⟩ : BufTy).Contents (Elt F) → (⟨S150000x64, .f32⟩ : BufTy).Contents (Elt F)),
    unary main_v122 main_v123 ((extractStridedSlice S100000x64 ![0, 0] · slices_S150000x64_S100000x64_0_0) : (⟨S150000x64, .f32⟩ : BufTy).Contents (Elt F) → (⟨S100000x64, .f32⟩ : BufTy).Contents (Elt F)),
    unary main_v122 main_v124 ((extractStridedSlice S50000x64 ![100000, 0] · slices_S150000x64_S50000x64_100000_0) : (⟨S150000x64, .f32⟩ : BufTy).Contents (Elt F) → (⟨S50000x64, .f32⟩ : BufTy).Contents (Elt F)) ]

/-- The scores. (operations 155 … 205) -/
abbrev opsH : List (HloOp τ sig (Elt F)) :=
  [ nullary main_c_22 (constantI S_ 32 0#32),
    unary main_c_22 main_v125 (broadcastInDim S16384 ![] bcast_S_S16384 : (⟨S_, .i32⟩ : BufTy).Contents (Elt F) → (⟨S16384, .i32⟩ : BufTy).Contents (Elt F)),
    binary main_arg0 main_v125 main_v126 (cmpi .slt : (⟨S16384, .i32⟩ : BufTy).Contents (Elt F) → (⟨S16384, .i32⟩ : BufTy).Contents (Elt F) → (⟨S16384, .i1⟩ : BufTy).Contents (Elt F)),
    nullary main_c_23 (constantI S_ 32 100000#32),
    unary main_c_23 main_v127 (broadcastInDim S16384 ![] bcast_S_S16384 : (⟨S_, .i32⟩ : BufTy).Contents (Elt F) → (⟨S16384, .i32⟩ : BufTy).Contents (Elt F)),
    binary main_arg0 main_v127 main_v128 (addi : (⟨S16384, .i32⟩ : BufTy).Contents (Elt F) → (⟨S16384, .i32⟩ : BufTy).Contents (Elt F) → (⟨S16384, .i32⟩ : BufTy).Contents (Elt F)),
    ternary main_v126 main_v128 main_arg0 main_v129 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v129 main_v130 (broadcastInDim S16384x1 ![0] bcast_S16384_S16384x1_0 : (⟨S16384, .i32⟩ : BufTy).Contents (Elt F) → (⟨S16384x1, .i32⟩ : BufTy).Contents (Elt F)),
    binary main_v123 main_v130 main_v131 ((fun x i => Host.gather gather_S100000x64_S16384x1_S16384x64_1_0_n_n_0_1_164 x i) : (⟨S100000x64, .f32⟩ : BufTy).Contents (Elt F) → (⟨S16384x1, .i32⟩ : BufTy).Contents (Elt F) → (⟨S16384x64, .f32⟩ : BufTy).Contents (Elt F)),
    nullary main_c_24 (constantI S_ 32 0#32),
    unary main_c_24 main_v132 (broadcastInDim S16384 ![] bcast_S_S16384 : (⟨S_, .i32⟩ : BufTy).Contents (Elt F) → (⟨S16384, .i32⟩ : BufTy).Contents (Elt F)),
    binary main_arg1 main_v132 main_v133 (cmpi .slt : (⟨S16384, .i32⟩ : BufTy).Contents (Elt F) → (⟨S16384, .i32⟩ : BufTy).Contents (Elt F) → (⟨S16384, .i1⟩ : BufTy).Contents (Elt F)),
    nullary main_c_25 (constantI S_ 32 50000#32),
    unary main_c_25 main_v134 (broadcastInDim S16384 ![] bcast_S_S16384 : (⟨S_, .i32⟩ : BufTy).Contents (Elt F) → (⟨S16384, .i32⟩ : BufTy).Contents (Elt F)),
    binary main_arg1 main_v134 main_v135 (addi : (⟨S16384, .i32⟩ : BufTy).Contents (Elt F) → (⟨S16384, .i32⟩ : BufTy).Contents (Elt F) → (⟨S16384, .i32⟩ : BufTy).Contents (Elt F)),
    ternary main_v133 main_v135 main_arg1 main_v136 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v136 main_v137 (broadcastInDim S16384x1 ![0] bcast_S16384_S16384x1_0 : (⟨S16384, .i32⟩ : BufTy).Contents (Elt F) → (⟨S16384x1, .i32⟩ : BufTy).Contents (Elt F)),
    binary main_v124 main_v137 main_v138 ((fun x i => Host.gather gather_S50000x64_S16384x1_S16384x64_1_0_n_n_0_1_164 x i) : (⟨S50000x64, .f32⟩ : BufTy).Contents (Elt F) → (⟨S16384x1, .i32⟩ : BufTy).Contents (Elt F) → (⟨S16384x64, .f32⟩ : BufTy).Contents (Elt F)),
    binary main_v131 main_v138 main_v139 (mulf : (⟨S16384x64, .f32⟩ : BufTy).Contents (Elt F) → (⟨S16384x64, .f32⟩ : BufTy).Contents (Elt F) → (⟨S16384x64, .f32⟩ : BufTy).Contents (Elt F)),
    nullary main_cst_26 (constant S_ .f32 0x00000000#32),
    binary main_v139 main_cst_26 main_v140 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    nullary main_c_27 (constantI S_ 32 0#32),
    unary main_c_27 main_v141 (broadcastInDim S16384 ![] bcast_S_S16384 : (⟨S_, .i32⟩ : BufTy).Contents (Elt F) → (⟨S16384, .i32⟩ : BufTy).Contents (Elt F)),
    binary main_arg0 main_v141 main_v142 (cmpi .slt : (⟨S16384, .i32⟩ : BufTy).Contents (Elt F) → (⟨S16384, .i32⟩ : BufTy).Contents (Elt F) → (⟨S16384, .i1⟩ : BufTy).Contents (Elt F)),
    nullary main_c_28 (constantI S_ 32 100000#32),
    unary main_c_28 main_v143 (broadcastInDim S16384 ![] bcast_S_S16384 : (⟨S_, .i32⟩ : BufTy).Contents (Elt F) → (⟨S16384, .i32⟩ : BufTy).Contents (Elt F)),
    binary main_arg0 main_v143 main_v144 (addi : (⟨S16384, .i32⟩ : BufTy).Contents (Elt F) → (⟨S16384, .i32⟩ : BufTy).Contents (Elt F) → (⟨S16384, .i32⟩ : BufTy).Contents (Elt F)),
    ternary main_v142 main_v144 main_arg0 main_v145 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v145 main_v146 (broadcastInDim S16384x1 ![0] bcast_S16384_S16384x1_0 : (⟨S16384, .i32⟩ : BufTy).Contents (Elt F) → (⟨S16384x1, .i32⟩ : BufTy).Contents (Elt F)),
    binary main_arg16 main_v146 main_v147 ((fun x i => Host.gather gather_S100000_S16384x1_S16384_n_0_n_n_0_1_1 x i) : (⟨S100000, .f32⟩ : BufTy).Contents (Elt F) → (⟨S16384x1, .i32⟩ : BufTy).Contents (Elt F) → (⟨S16384, .f32⟩ : BufTy).Contents (Elt F)),
    binary main_v140 main_v147 main_v148 (addf : (⟨S16384, .f32⟩ : BufTy).Contents (Elt F) → (⟨S16384, .f32⟩ : BufTy).Contents (Elt F) → (⟨S16384, .f32⟩ : BufTy).Contents (Elt F)),
    nullary main_c_29 (constantI S_ 32 0#32),
    unary main_c_29 main_v149 (broadcastInDim S16384 ![] bcast_S_S16384 : (⟨S_, .i32⟩ : BufTy).Contents (Elt F) → (⟨S16384, .i32⟩ : BufTy).Contents (Elt F)),
    binary main_arg1 main_v149 main_v150 (cmpi .slt : (⟨S16384, .i32⟩ : BufTy).Contents (Elt F) → (⟨S16384, .i32⟩ : BufTy).Contents (Elt F) → (⟨S16384, .i1⟩ : BufTy).Contents (Elt F)),
    nullary main_c_30 (constantI S_ 32 50000#32),
    unary main_c_30 main_v151 (broadcastInDim S16384 ![] bcast_S_S16384 : (⟨S_, .i32⟩ : BufTy).Contents (Elt F) → (⟨S16384, .i32⟩ : BufTy).Contents (Elt F)),
    binary main_arg1 main_v151 main_v152 (addi : (⟨S16384, .i32⟩ : BufTy).Contents (Elt F) → (⟨S16384, .i32⟩ : BufTy).Contents (Elt F) → (⟨S16384, .i32⟩ : BufTy).Contents (Elt F)),
    ternary main_v150 main_v152 main_arg1 main_v153 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v153 main_v154 (broadcastInDim S16384x1 ![0] bcast_S16384_S16384x1_0 : (⟨S16384, .i32⟩ : BufTy).Contents (Elt F) → (⟨S16384x1, .i32⟩ : BufTy).Contents (Elt F)),
    binary main_arg17 main_v154 main_v155 ((fun x i => Host.gather gather_S50000_S16384x1_S16384_n_0_n_n_0_1_1 x i) : (⟨S50000, .f32⟩ : BufTy).Contents (Elt F) → (⟨S16384x1, .i32⟩ : BufTy).Contents (Elt F) → (⟨S16384, .f32⟩ : BufTy).Contents (Elt F)),
    binary main_v148 main_v155 main_v156 (addf : (⟨S16384, .f32⟩ : BufTy).Contents (Elt F) → (⟨S16384, .f32⟩ : BufTy).Contents (Elt F) → (⟨S16384, .f32⟩ : BufTy).Contents (Elt F)),
    unary main_arg18 main_v157 (broadcastInDim S16384 ![] bcast_S_S16384 : (⟨S_, .f32⟩ : BufTy).Contents (Elt F) → (⟨S16384, .f32⟩ : BufTy).Contents (Elt F)),
    binary main_v156 main_v157 main_v158 (addf : (⟨S16384, .f32⟩ : BufTy).Contents (Elt F) → (⟨S16384, .f32⟩ : BufTy).Contents (Elt F) → (⟨S16384, .f32⟩ : BufTy).Contents (Elt F)),
    nullary main_cst_31 (constant S_ .f32 0x3F800000#32),
    nullary main_cst_32 (constant S_ .f32 0x40A00000#32),
    TRef.unary (TRef.of (T := ⟨S_, .f32⟩) main_cst_31) (TRef.of (T := ⟨S_, .f32⟩) main_call3_v0) id,
    TRef.unary (TRef.of (T := ⟨S_, .f32⟩) main_call3_v0) (TRef.of (T := ⟨S16384, .f32⟩) main_call3_v1) (broadcastInDim S16384 ![] bcast_S_S16384),
    TRef.binary (TRef.of (T := ⟨S16384, .f32⟩) main_call3_v1) (TRef.of (T := ⟨S16384, .f32⟩) main_v158) (TRef.of (T := ⟨S16384, .f32⟩) main_call3_v2) maximumf,
    TRef.unary (TRef.of (T := ⟨S_, .f32⟩) main_cst_32) (TRef.of (T := ⟨S_, .f32⟩) main_call3_v3) id,
    TRef.unary (TRef.of (T := ⟨S_, .f32⟩) main_call3_v3) (TRef.of (T := ⟨S16384, .f32⟩) main_call3_v4) (broadcastInDim S16384 ![] bcast_S_S16384),
    TRef.binary (TRef.of (T := ⟨S16384, .f32⟩) main_call3_v4) (TRef.of (T := ⟨S16384, .f32⟩) main_call3_v2) (TRef.of (T := ⟨S16384, .f32⟩) main_v159) minimumf ]

/-- The operation list is the eight stretches in order. -/
theorem ops_eq : Fold.ops (F := F) = opsA ++ opsB ++ opsC ++ opsD ++ opsE ++ opsF ++ opsG ++ opsH := rfl

/-! ## What a stretch does not write it keeps -/

/-- An operation writing the one buffer `y` writes within any list of references that has `y`. -/
theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, h, rfl⟩))

/-- The buffers stretch A writes, in order. -/
abbrev WA : List (Ref sig .tc) :=
  [main_v0, main_v1, main_v2, main_v3, main_v4, main_v5, main_v6, main_v7, main_cst, main_v8, main_v9, main_cst_0, main_v10, main_v11, main_v12, main_cst_1, main_v13, main_v14, main_v15, main_cst_2, main_call0_v0, main_call0_v1, main_v16]

theorem A_writes : (opsA (F := F)).Forall fun op => op.writes ⊆ (WA.map (Proc.devRef (τ := τ) .tc)).toFinset :=
  ⟨sub_of_mem (y := main_v0) (List.Mem.head _),
   sub_of_mem (y := main_v1) (List.Mem.tail _ (List.Mem.head _)),
   sub_of_mem (y := main_v2) (List.Mem.tail _ (List.Mem.tail _ (List.Mem.head _))),
   sub_of_mem (y := main_v3) (List.Mem.tail _ (List.Mem.tail _ (List.Mem.tail _ (List.Mem.head _)))),
   sub_of_mem (y := main_v4) (List.Mem.tail _ (List.Mem.tail _ (List.Mem.tail _ (List.Mem.tail _ (List.Mem.head _))))),
   sub_of_mem (y := main_v5) (List.Mem.tail _ (List.Mem.tail _ (List.Mem.tail _ (List.Mem.tail _ (List.Mem.tail _ (List.Mem.head _)))))),
   sub_of_mem (y := main_v6) (List.Mem.tail _ (List.Mem.tail _ (List.Mem.tail _ (List.Mem.tail _ (List.Mem.tail _ (List.Mem.tail _ (List.Mem.head _))))))),
   sub_of_mem (y := main_v7) (List.Mem.tail _ (List.Mem.tail _ (List.Mem.tail _ (List.Mem.tail _ (List.Mem.tail _ (List.Mem.tail _ (List.Mem.tail _ (List.Mem.head _)))))))),
   sub_of_mem (y := main_cst) (List.Mem.tail _ (List.Mem.tail _ (List.Mem.tail _ (List.Mem.tail _ (List.Mem.tail _ (List.Mem.tail _ (List.Mem.tail _ (List.Mem.tail _ (List.Mem.head _))))))))),
   sub_of_mem (y := main_v8) (List.Mem.tail _ (List.Mem.tail _ (List.Mem.tail _ (List.Mem.tail _ (List.Mem.tail _ (List.Mem.tail _ (List.Mem.tail _ (List.Mem.tail _ (List.Mem.tail _ (List.Mem.head _)))))))))),
   sub_of_mem (y := main_v9) (List.Mem.tail _ (List.Mem.tail _ (List.Mem.tail _ (List.Mem.tail _ (List.Mem.tail _ (List.Mem.tail _ (List.Mem.tail _ (List.Mem.tail _ (List.Mem.tail _ (List.Mem.tail _ (List.Mem.head _))))))))))),
   sub_of_mem (y := main_cst_0) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))),
   sub_of_mem (y := main_v10) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))),
   sub_of_mem (y := main_v11) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))),
   sub_of_mem (y := main_v12) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))),
   sub_of_mem (y := main_cst_1) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))),
   sub_of_mem (y := main_v13) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))),
   sub_of_mem (y := main_v14) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))),
   sub_of_mem (y := main_v15) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))),
   sub_of_mem (y := main_cst_2) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))),
   sub_of_mem (y := main_call0_v0) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))),
   sub_of_mem (y := main_call0_v1) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))),
   sub_of_mem (y := main_v16) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))⟩

/-- Stretch A leaves a buffer it does not write as it was. -/
theorem A_keep (V : Valuation τ sig (Elt F)) (r : Ref sig .tc) (hr : r ∉ WA) :
    after (opsA (F := F)) V (Proc.devRef .tc r) = V (Proc.devRef .tc r) :=
  after_of_writes_sub _ V A_writes hr

/-- The buffers stretch B writes, in order. -/
abbrev WB : List (Ref sig .tc) :=
  [main_c, main_v17, main_v18, main_c_3, main_v19, main_v20, main_v21, main_v22, main_v23, main_v24, main_c_4, main_v25, main_v26, main_c_5, main_v27, main_v28, main_v29, main_v30, main_v31, main_v32]

theorem B_writes : (opsB (F := F)).Forall fun op => op.writes ⊆ (WB.map (Proc.devRef (τ := τ) .tc)).toFinset :=
  ⟨sub_of_mem (y := main_c) (List.Mem.head _),
   sub_of_mem (y := main_v17) (List.Mem.tail _ (List.Mem.head _)),
   sub_of_mem (y := main_v18) (List.Mem.tail _ (List.Mem.tail _ (List.Mem.head _))),
   sub_of_mem (y := main_c_3) (List.Mem.tail _ (List.Mem.tail _ (List.Mem.tail _ (List.Mem.head _)))),
   sub_of_mem (y := main_v19) (List.Mem.tail _ (List.Mem.tail _ (List.Mem.tail _ (List.Mem.tail _ (List.Mem.head _))))),
   sub_of_mem (y := main_v20) (List.Mem.tail _ (List.Mem.tail _ (List.Mem.tail _ (List.Mem.tail _ (List.Mem.tail _ (List.Mem.head _)))))),
   sub_of_mem (y := main_v21) (List.Mem.tail _ (List.Mem.tail _ (List.Mem.tail _ (List.Mem.tail _ (List.Mem.tail _ (List.Mem.tail _ (List.Mem.head _))))))),
   sub_of_mem (y := main_v22) (List.Mem.tail _ (List.Mem.tail _ (List.Mem.tail _ (List.Mem.tail _ (List.Mem.tail _ (List.Mem.tail _ (List.Mem.tail _ (List.Mem.head _)))))))),
   sub_of_mem (y := main_v23) (List.Mem.tail _ (List.Mem.tail _ (List.Mem.tail _ (List.Mem.tail _ (List.Mem.tail _ (List.Mem.tail _ (List.Mem.tail _ (List.Mem.tail _ (List.Mem.head _))))))))),
   sub_of_mem (y := main_v24) (List.Mem.tail _ (List.Mem.tail _ (List.Mem.tail _ (List.Mem.tail _ (List.Mem.tail _ (List.Mem.tail _ (List.Mem.tail _ (List.Mem.tail _ (List.Mem.tail _ (List.Mem.head _)))))))))),
   sub_of_mem (y := main_c_4) (List.Mem.tail _ (List.Mem.tail _ (List.Mem.tail _ (List.Mem.tail _ (List.Mem.tail _ (List.Mem.tail _ (List.Mem.tail _ (List.Mem.tail _ (List.Mem.tail _ (List.Mem.tail _ (List.Mem.head _))))))))))),
   sub_of_mem (y := main_v25) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))),
   sub_of_mem (y := main_v26) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))),
   sub_of_mem (y := main_c_5) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))),
   sub_of_mem (y := main_v27) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))),
   sub_of_mem (y := main_v28) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))),
   sub_of_mem (y := main_v29) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))),
   sub_of_mem (y := main_v30) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))),
   sub_of_mem (y := main_v31) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))),
   sub_of_mem (y := main_v32) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))⟩

/-- Stretch B leaves a buffer it does not write as it was. -/
theorem B_keep (V : Valuation τ sig (Elt F)) (r : Ref sig .tc) (hr : r ∉ WB) :
    after (opsB (F := F)) V (Proc.devRef .tc r) = V (Proc.devRef .tc r) :=
  after_of_writes_sub _ V B_writes hr

/-- The buffers stretch C writes, in order. -/
abbrev WC : List (Ref sig .tc) :=
  [main_v33, main_v34, main_c_6, main_v35, main_v36, main_c_7, main_v37, main_v38, main_v39, main_v40, main_v41, main_v42, main_v43, main_cst_8, main_v44, main_v45, main_v46]

theorem C_writes : (opsC (F := F)).Forall fun op => op.writes ⊆ (WC.map (Proc.devRef (τ := τ) .tc)).toFinset :=
  ⟨sub_of_mem (y := main_v33) (List.Mem.head _),
   sub_of_mem (y := main_v34) (List.Mem.tail _ (List.Mem.head _)),
   sub_of_mem (y := main_c_6) (List.Mem.tail _ (List.Mem.tail _ (List.Mem.head _))),
   sub_of_mem (y := main_v35) (List.Mem.tail _ (List.Mem.tail _ (List.Mem.tail _ (List.Mem.head _)))),
   sub_of_mem (y := main_v36) (List.Mem.tail _ (List.Mem.tail _ (List.Mem.tail _ (List.Mem.tail _ (List.Mem.head _))))),
   sub_of_mem (y := main_c_7) (List.Mem.tail _ (List.Mem.tail _ (List.Mem.tail _ (List.Mem.tail _ (List.Mem.tail _ (List.Mem.head _)))))),
   sub_of_mem (y := main_v37) (List.Mem.tail _ (List.Mem.tail _ (List.Mem.tail _ (List.Mem.tail _ (List.Mem.tail _ (List.Mem.tail _ (List.Mem.head _))))))),
   sub_of_mem (y := main_v38) (List.Mem.tail _ (List.Mem.tail _ (List.Mem.tail _ (List.Mem.tail _ (List.Mem.tail _ (List.Mem.tail _ (List.Mem.tail _ (List.Mem.head _)))))))),
   sub_of_mem (y := main_v39) (List.Mem.tail _ (List.Mem.tail _ (List.Mem.tail _ (List.Mem.tail _ (List.Mem.tail _ (List.Mem.tail _ (List.Mem.tail _ (List.Mem.tail _ (List.Mem.head _))))))))),
   sub_of_mem (y := main_v40) (List.Mem.tail _ (List.Mem.tail _ (List.Mem.tail _ (List.Mem.tail _ (List.Mem.tail _ (List.Mem.tail _ (List.Mem.tail _ (List.Mem.tail _ (List.Mem.tail _ (List.Mem.head _)))))))))),
   sub_of_mem (y := main_v41) (List.Mem.tail _ (List.Mem.tail _ (List.Mem.tail _ (List.Mem.tail _ (List.Mem.tail _ (List.Mem.tail _ (List.Mem.tail _ (List.Mem.tail _ (List.Mem.tail _ (List.Mem.tail _ (List.Mem.head _))))))))))),
   sub_of_mem (y := main_v42) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))),
   sub_of_mem (y := main_v43) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))),
   sub_of_mem (y := main_cst_8) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))),
   sub_of_mem (y := main_v44) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))),
   sub_of_mem (y := main_v45) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))),
   sub_of_mem (y := main_v46) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))⟩

/-- Stretch C leaves a buffer it does not write as it was. -/
theorem C_keep (V : Valuation τ sig (Elt F)) (r : Ref sig .tc) (hr : r ∉ WC) :
    after (opsC (F := F)) V (Proc.devRef .tc r) = V (Proc.devRef .tc r) :=
  after_of_writes_sub _ V C_writes hr

/-- The buffers stretch D writes, in order. -/
abbrev WD : List (Ref sig .tc) :=
  [main_v47, main_v48, main_v49, main_cst_9, main_v50, main_v51, main_cst_10, main_v52, main_v53, main_v54, main_v55, main_v56, main_cst_11, main_v57, main_v58, main_cst_12, main_v59, main_v60, main_v61, main_v62, main_cst_13, main_v63, main_v64, main_v65, main_v66, main_v67, main_v68, main_v69, main_v70, main_v71, main_v72, main_v73, main_call1_cst, main_call1_v0, main_v74, main_v75]

theorem D_writes : (opsD (F := F)).Forall fun op => op.writes ⊆ (WD.map (Proc.devRef (τ := τ) .tc)).toFinset :=
  ⟨sub_of_mem (y := main_v47) (List.Mem.head _),
   sub_of_mem (y := main_v48) (List.Mem.tail _ (List.Mem.head _)),
   sub_of_mem (y := main_v49) (List.Mem.tail _ (List.Mem.tail _ (List.Mem.head _))),
   sub_of_mem (y := main_cst_9) (List.Mem.tail _ (List.Mem.tail _ (List.Mem.tail _ (List.Mem.head _)))),
   sub_of_mem (y := main_v50) (List.Mem.tail _ (List.Mem.tail _ (List.Mem.tail _ (List.Mem.tail _ (List.Mem.head _))))),
   sub_of_mem (y := main_v51) (List.Mem.tail _ (List.Mem.tail _ (List.Mem.tail _ (List.Mem.tail _ (List.Mem.tail _ (List.Mem.head _)))))),
   sub_of_mem (y := main_cst_10) (List.Mem.tail _ (List.Mem.tail _ (List.Mem.tail _ (List.Mem.tail _ (List.Mem.tail _ (List.Mem.tail _ (List.Mem.head _))))))),
   sub_of_mem (y := main_v52) (List.Mem.tail _ (List.Mem.tail _ (List.Mem.tail _ (List.Mem.tail _ (List.Mem.tail _ (List.Mem.tail _ (List.Mem.tail _ (List.Mem.head _)))))))),
   sub_of_mem (y := main_v53) (List.Mem.tail _ (List.Mem.tail _ (List.Mem.tail _ (List.Mem.tail _ (List.Mem.tail _ (List.Mem.tail _ (List.Mem.tail _ (List.Mem.tail _ (List.Mem.head _))))))))),
   sub_of_mem (y := main_v54) (List.Mem.tail _ (List.Mem.tail _ (List.Mem.tail _ (List.Mem.tail _ (List.Mem.tail _ (List.Mem.tail _ (List.Mem.tail _ (List.Mem.tail _ (List.Mem.tail _ (List.Mem.head _)))))))))),
   sub_of_mem (y := main_v55) (List.Mem.tail _ (List.Mem.tail _ (List.Mem.tail _ (List.Mem.tail _ (List.Mem.tail _ (List.Mem.tail _ (List.Mem.tail _ (List.Mem.tail _ (List.Mem.tail _ (List.Mem.tail _ (List.Mem.head _))))))))))),
   sub_of_mem (y := main_v56) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))),
   sub_of_mem (y := main_cst_11) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))),
   sub_of_mem (y := main_v57) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))),
   sub_of_mem (y := main_v58) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))),
   sub_of_mem (y := main_cst_12) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))),
   sub_of_mem (y := main_v59) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))),
   sub_of_mem (y := main_v60) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))),
   sub_of_mem (y := main_v61) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))),
   sub_of_mem (y := main_v62) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))),
   sub_of_mem (y := main_cst_13) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))),
   sub_of_mem (y := main_v63) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))),
   sub_of_mem (y := main_v64) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))),
   sub_of_mem (y := main_v65) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))),
   sub_of_mem (y := main_v66) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))),
   sub_of_mem (y := main_v67) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))),
   sub_of_mem (y := main_v68) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))),
   sub_of_mem (y := main_v69) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))),
   sub_of_mem (y := main_v70) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))),
   sub_of_mem (y := main_v71) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))),
   sub_of_mem (y := main_v72) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))),
   sub_of_mem (y := main_v73) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))),
   sub_of_mem (y := main_call1_cst) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))),
   sub_of_mem (y := main_call1_v0) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))),
   sub_of_mem (y := main_v74) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))),
   sub_of_mem (y := main_v75) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))⟩

/-- Stretch D leaves a buffer it does not write as it was. -/
theorem D_keep (V : Valuation τ sig (Elt F)) (r : Ref sig .tc) (hr : r ∉ WD) :
    after (opsD (F := F)) V (Proc.devRef .tc r) = V (Proc.devRef .tc r) :=
  after_of_writes_sub _ V D_writes hr

/-- The buffers stretch E writes, in order. -/
abbrev WE : List (Ref sig .tc) :=
  [main_v76, main_v77, main_c_14, main_v78, main_v79, main_c_15, main_v80, main_v81, main_v82, main_v83, main_v84, main_v85, main_v86, main_cst_16, main_v87, main_v88, main_v89]

theorem E_writes : (opsE (F := F)).Forall fun op => op.writes ⊆ (WE.map (Proc.devRef (τ := τ) .tc)).toFinset :=
  ⟨sub_of_mem (y := main_v76) (List.Mem.head _),
   sub_of_mem (y := main_v77) (List.Mem.tail _ (List.Mem.head _)),
   sub_of_mem (y := main_c_14) (List.Mem.tail _ (List.Mem.tail _ (List.Mem.head _))),
   sub_of_mem (y := main_v78) (List.Mem.tail _ (List.Mem.tail _ (List.Mem.tail _ (List.Mem.head _)))),
   sub_of_mem (y := main_v79) (List.Mem.tail _ (List.Mem.tail _ (List.Mem.tail _ (List.Mem.tail _ (List.Mem.head _))))),
   sub_of_mem (y := main_c_15) (List.Mem.tail _ (List.Mem.tail _ (List.Mem.tail _ (List.Mem.tail _ (List.Mem.tail _ (List.Mem.head _)))))),
   sub_of_mem (y := main_v80) (List.Mem.tail _ (List.Mem.tail _ (List.Mem.tail _ (List.Mem.tail _ (List.Mem.tail _ (List.Mem.tail _ (List.Mem.head _))))))),
   sub_of_mem (y := main_v81) (List.Mem.tail _ (List.Mem.tail _ (List.Mem.tail _ (List.Mem.tail _ (List.Mem.tail _ (List.Mem.tail _ (List.Mem.tail _ (List.Mem.head _)))))))),
   sub_of_mem (y := main_v82) (List.Mem.tail _ (List.Mem.tail _ (List.Mem.tail _ (List.Mem.tail _ (List.Mem.tail _ (List.Mem.tail _ (List.Mem.tail _ (List.Mem.tail _ (List.Mem.head _))))))))),
   sub_of_mem (y := main_v83) (List.Mem.tail _ (List.Mem.tail _ (List.Mem.tail _ (List.Mem.tail _ (List.Mem.tail _ (List.Mem.tail _ (List.Mem.tail _ (List.Mem.tail _ (List.Mem.tail _ (List.Mem.head _)))))))))),
   sub_of_mem (y := main_v84) (List.Mem.tail _ (List.Mem.tail _ (List.Mem.tail _ (List.Mem.tail _ (List.Mem.tail _ (List.Mem.tail _ (List.Mem.tail _ (List.Mem.tail _ (List.Mem.tail _ (List.Mem.tail _ (List.Mem.head _))))))))))),
   sub_of_mem (y := main_v85) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))),
   sub_of_mem (y := main_v86) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))),
   sub_of_mem (y := main_cst_16) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))),
   sub_of_mem (y := main_v87) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))),
   sub_of_mem (y := main_v88) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))),
   sub_of_mem (y := main_v89) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))⟩

/-- Stretch E leaves a buffer it does not write as it was. -/
theorem E_keep (V : Valuation τ sig (Elt F)) (r : Ref sig .tc) (hr : r ∉ WE) :
    after (opsE (F := F)) V (Proc.devRef .tc r) = V (Proc.devRef .tc r) :=
  after_of_writes_sub _ V E_writes hr

/-- The buffers stretch F writes, in order. -/
abbrev WF : List (Ref sig .tc) :=
  [main_v90, main_v91, main_v92, main_cst_17, main_v93, main_v94, main_cst_18, main_v95, main_v96, main_v97, main_v98, main_v99, main_cst_19, main_v100, main_v101, main_cst_20, main_v102, main_v103, main_v104, main_v105, main_cst_21, main_v106, main_v107, main_v108, main_v109, main_v110, main_v111, main_v112, main_v113, main_v114, main_v115, main_v116, main_call2_cst, main_call2_v0, main_v117, main_v118]

theorem F_writes : (opsF (F := F)).Forall fun op => op.writes ⊆ (WF.map (Proc.devRef (τ := τ) .tc)).toFinset :=
  ⟨sub_of_mem (y := main_v90) (List.Mem.head _),
   sub_of_mem (y := main_v91) (List.Mem.tail _ (List.Mem.head _)),
   sub_of_mem (y := main_v92) (List.Mem.tail _ (List.Mem.tail _ (List.Mem.head _))),
   sub_of_mem (y := main_cst_17) (List.Mem.tail _ (List.Mem.tail _ (List.Mem.tail _ (List.Mem.head _)))),
   sub_of_mem (y := main_v93) (List.Mem.tail _ (List.Mem.tail _ (List.Mem.tail _ (List.Mem.tail _ (List.Mem.head _))))),
   sub_of_mem (y := main_v94) (List.Mem.tail _ (List.Mem.tail _ (List.Mem.tail _ (List.Mem.tail _ (List.Mem.tail _ (List.Mem.head _)))))),
   sub_of_mem (y := main_cst_18) (List.Mem.tail _ (List.Mem.tail _ (List.Mem.tail _ (List.Mem.tail _ (List.Mem.tail _ (List.Mem.tail _ (List.Mem.head _))))))),
   sub_of_mem (y := main_v95) (List.Mem.tail _ (List.Mem.tail _ (List.Mem.tail _ (List.Mem.tail _ (List.Mem.tail _ (List.Mem.tail _ (List.Mem.tail _ (List.Mem.head _)))))))),
   sub_of_mem (y := main_v96) (List.Mem.tail _ (List.Mem.tail _ (List.Mem.tail _ (List.Mem.tail _ (List.Mem.tail _ (List.Mem.tail _ (List.Mem.tail _ (List.Mem.tail _ (List.Mem.head _))))))))),
   sub_of_mem (y := main_v97) (List.Mem.tail _ (List.Mem.tail _ (List.Mem.tail _ (List.Mem.tail _ (List.Mem.tail _ (List.Mem.tail _ (List.Mem.tail _ (List.Mem.tail _ (List.Mem.tail _ (List.Mem.head _)))))))))),
   sub_of_mem (y := main_v98) (List.Mem.tail _ (List.Mem.tail _ (List.Mem.tail _ (List.Mem.tail _ (List.Mem.tail _ (List.Mem.tail _ (List.Mem.tail _ (List.Mem.tail _ (List.Mem.tail _ (List.Mem.tail _ (List.Mem.head _))))))))))),
   sub_of_mem (y := main_v99) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))),
   sub_of_mem (y := main_cst_19) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))),
   sub_of_mem (y := main_v100) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))),
   sub_of_mem (y := main_v101) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))),
   sub_of_mem (y := main_cst_20) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))),
   sub_of_mem (y := main_v102) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))),
   sub_of_mem (y := main_v103) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))),
   sub_of_mem (y := main_v104) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))),
   sub_of_mem (y := main_v105) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))),
   sub_of_mem (y := main_cst_21) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))),
   sub_of_mem (y := main_v106) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))),
   sub_of_mem (y := main_v107) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))),
   sub_of_mem (y := main_v108) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))),
   sub_of_mem (y := main_v109) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))),
   sub_of_mem (y := main_v110) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))),
   sub_of_mem (y := main_v111) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))),
   sub_of_mem (y := main_v112) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))),
   sub_of_mem (y := main_v113) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))),
   sub_of_mem (y := main_v114) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))),
   sub_of_mem (y := main_v115) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))),
   sub_of_mem (y := main_v116) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))),
   sub_of_mem (y := main_call2_cst) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))),
   sub_of_mem (y := main_call2_v0) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))),
   sub_of_mem (y := main_v117) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))),
   sub_of_mem (y := main_v118) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))⟩

/-- Stretch F leaves a buffer it does not write as it was. -/
theorem F_keep (V : Valuation τ sig (Elt F)) (r : Ref sig .tc) (hr : r ∉ WF) :
    after (opsF (F := F)) V (Proc.devRef .tc r) = V (Proc.devRef .tc r) :=
  after_of_writes_sub _ V F_writes hr

/-- The buffers stretch G writes, in order. -/
abbrev WG : List (Ref sig .tc) :=
  [main_v119, main_v120, main_v121, main_v122, main_v123, main_v124]

theorem G_writes : (opsG (F := F)).Forall fun op => op.writes ⊆ (WG.map (Proc.devRef (τ := τ) .tc)).toFinset :=
  ⟨sub_of_mem (y := main_v119) (List.Mem.head _),
   sub_of_mem (y := main_v120) (List.Mem.tail _ (List.Mem.head _)),
   sub_of_mem (y := main_v121) (List.Mem.tail _ (List.Mem.tail _ (List.Mem.head _))),
   sub_of_mem (y := main_v122) (List.Mem.tail _ (List.Mem.tail _ (List.Mem.tail _ (List.Mem.head _)))),
   sub_of_mem (y := main_v123) (List.Mem.tail _ (List.Mem.tail _ (List.Mem.tail _ (List.Mem.tail _ (List.Mem.head _))))),
   sub_of_mem (y := main_v124) (List.Mem.tail _ (List.Mem.tail _ (List.Mem.tail _ (List.Mem.tail _ (List.Mem.tail _ (List.Mem.head _))))))⟩

/-- Stretch G leaves a buffer it does not write as it was. -/
theorem G_keep (V : Valuation τ sig (Elt F)) (r : Ref sig .tc) (hr : r ∉ WG) :
    after (opsG (F := F)) V (Proc.devRef .tc r) = V (Proc.devRef .tc r) :=
  after_of_writes_sub _ V G_writes hr

/-- The buffers stretch H writes, in order. -/
abbrev WH : List (Ref sig .tc) :=
  [main_c_22, main_v125, main_v126, main_c_23, main_v127, main_v128, main_v129, main_v130, main_v131, main_c_24, main_v132, main_v133, main_c_25, main_v134, main_v135, main_v136, main_v137, main_v138, main_v139, main_cst_26, main_v140, main_c_27, main_v141, main_v142, main_c_28, main_v143, main_v144, main_v145, main_v146, main_v147, main_v148, main_c_29, main_v149, main_v150, main_c_30, main_v151, main_v152, main_v153, main_v154, main_v155, main_v156, main_v157, main_v158, main_cst_31, main_cst_32, main_call3_v0, main_call3_v1, main_call3_v2, main_call3_v3, main_call3_v4, main_v159]

theorem H_writes : (opsH (F := F)).Forall fun op => op.writes ⊆ (WH.map (Proc.devRef (τ := τ) .tc)).toFinset :=
  ⟨sub_of_mem (y := main_c_22) (List.Mem.head _),
   sub_of_mem (y := main_v125) (List.Mem.tail _ (List.Mem.head _)),
   sub_of_mem (y := main_v126) (List.Mem.tail _ (List.Mem.tail _ (List.Mem.head _))),
   sub_of_mem (y := main_c_23) (List.Mem.tail _ (List.Mem.tail _ (List.Mem.tail _ (List.Mem.head _)))),
   sub_of_mem (y := main_v127) (List.Mem.tail _ (List.Mem.tail _ (List.Mem.tail _ (List.Mem.tail _ (List.Mem.head _))))),
   sub_of_mem (y := main_v128) (List.Mem.tail _ (List.Mem.tail _ (List.Mem.tail _ (List.Mem.tail _ (List.Mem.tail _ (List.Mem.head _)))))),
   sub_of_mem (y := main_v129) (List.Mem.tail _ (List.Mem.tail _ (List.Mem.tail _ (List.Mem.tail _ (List.Mem.tail _ (List.Mem.tail _ (List.Mem.head _))))))),
   sub_of_mem (y := main_v130) (List.Mem.tail _ (List.Mem.tail _ (List.Mem.tail _ (List.Mem.tail _ (List.Mem.tail _ (List.Mem.tail _ (List.Mem.tail _ (List.Mem.head _)))))))),
   sub_of_mem (y := main_v131) (List.Mem.tail _ (List.Mem.tail _ (List.Mem.tail _ (List.Mem.tail _ (List.Mem.tail _ (List.Mem.tail _ (List.Mem.tail _ (List.Mem.tail _ (List.Mem.head _))))))))),
   sub_of_mem (y := main_c_24) (List.Mem.tail _ (List.Mem.tail _ (List.Mem.tail _ (List.Mem.tail _ (List.Mem.tail _ (List.Mem.tail _ (List.Mem.tail _ (List.Mem.tail _ (List.Mem.tail _ (List.Mem.head _)))))))))),
   sub_of_mem (y := main_v132) (List.Mem.tail _ (List.Mem.tail _ (List.Mem.tail _ (List.Mem.tail _ (List.Mem.tail _ (List.Mem.tail _ (List.Mem.tail _ (List.Mem.tail _ (List.Mem.tail _ (List.Mem.tail _ (List.Mem.head _))))))))))),
   sub_of_mem (y := main_v133) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))),
   sub_of_mem (y := main_c_25) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))),
   sub_of_mem (y := main_v134) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))),
   sub_of_mem (y := main_v135) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))),
   sub_of_mem (y := main_v136) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))),
   sub_of_mem (y := main_v137) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))),
   sub_of_mem (y := main_v138) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))),
   sub_of_mem (y := main_v139) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))),
   sub_of_mem (y := main_cst_26) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))),
   sub_of_mem (y := main_v140) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))),
   sub_of_mem (y := main_c_27) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))),
   sub_of_mem (y := main_v141) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))),
   sub_of_mem (y := main_v142) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))),
   sub_of_mem (y := main_c_28) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))),
   sub_of_mem (y := main_v143) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))),
   sub_of_mem (y := main_v144) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))),
   sub_of_mem (y := main_v145) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))),
   sub_of_mem (y := main_v146) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))),
   sub_of_mem (y := main_v147) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))),
   sub_of_mem (y := main_v148) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))),
   sub_of_mem (y := main_c_29) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))),
   sub_of_mem (y := main_v149) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))),
   sub_of_mem (y := main_v150) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))),
   sub_of_mem (y := main_c_30) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))),
   sub_of_mem (y := main_v151) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))),
   sub_of_mem (y := main_v152) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))),
   sub_of_mem (y := main_v153) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))),
   sub_of_mem (y := main_v154) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))),
   sub_of_mem (y := main_v155) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))),
   sub_of_mem (y := main_v156) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))),
   sub_of_mem (y := main_v157) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))),
   sub_of_mem (y := main_v158) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))),
   sub_of_mem (y := main_cst_31) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))),
   sub_of_mem (y := main_cst_32) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))),
   sub_of_mem (y := main_call3_v0) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))),
   sub_of_mem (y := main_call3_v1) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))),
   sub_of_mem (y := main_call3_v2) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))),
   sub_of_mem (y := main_call3_v3) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))))),
   sub_of_mem (y := main_call3_v4) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))))),
   sub_of_mem (y := main_v159) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))))))⟩

/-- Stretch H leaves a buffer it does not write as it was. -/
theorem H_keep (V : Valuation τ sig (Elt F)) (r : Ref sig .tc) (hr : r ∉ WH) :
    after (opsH (F := F)) V (Proc.devRef .tc r) = V (Proc.devRef .tc r) :=
  after_of_writes_sub _ V H_writes hr

/-! ## Each stretch, from any contents, as a stage function of what it reads -/

theorem A_v0 (V : Valuation τ sig (Elt F)) :
    after (opsA (F := F)) V (Proc.devRef .tc main_v0) = Cert.Stage.nodeTable (V (Proc.devRef .tc main_arg4)) (V (Proc.devRef .tc main_arg5)) := by
  after_results
  rfl

theorem A_v4 (V : Valuation τ sig (Elt F)) :
    after (opsA (F := F)) V (Proc.devRef .tc main_v4) = Cert.Stage.srcOf (V (Proc.devRef .tc main_arg2)) := by
  after_results
  rfl

theorem A_v7 (V : Valuation τ sig (Elt F)) :
    after (opsA (F := F)) V (Proc.devRef .tc main_v7) = Cert.Stage.dstOf (V (Proc.devRef .tc main_arg2)) := by
  after_results
  rfl

theorem A_v9 (V : Valuation τ sig (Elt F)) :
    after (opsA (F := F)) V (Proc.devRef .tc main_v9) = Cert.Stage.edgeW (V (Proc.devRef .tc main_arg3)) := by
  after_results
  rfl

theorem A_v16 (V : Valuation τ sig (Elt F)) :
    after (opsA (F := F)) V (Proc.devRef .tc main_v16) = Cert.Results.dinv (V (Proc.devRef .tc main_arg2)) (V (Proc.devRef .tc main_arg3)) := by
  after_results_simp
  rfl

theorem B_v32 (V : Valuation τ sig (Elt F)) :
    after (opsB (F := F)) V (Proc.devRef .tc main_v32) = Cert.Stage.normOf (V (Proc.devRef .tc main_v16)) (V (Proc.devRef .tc main_v4)) (V (Proc.devRef .tc main_v7)) (V (Proc.devRef .tc main_v9)) := by
  after_results_simp
  rfl

theorem C_v46 (V : Valuation τ sig (Elt F)) :
    after (opsC (F := F)) V (Proc.devRef .tc main_v46) = Cert.Stage.aggOf (V (Proc.devRef .tc main_v7)) (Cert.Stage.msgR (V (Proc.devRef .tc main_v32)) (Cert.Stage.dotR (V (Proc.devRef .tc main_v0)) (V (Proc.devRef .tc main_arg6))) (V (Proc.devRef .tc main_v4))) := by
  after_results_simp
  rfl

theorem D_v75 (V : Valuation τ sig (Elt F)) :
    after (opsD (F := F)) V (Proc.devRef .tc main_v75) = Cert.Stage.lnHost (V (Proc.devRef .tc main_v46)) (V (Proc.devRef .tc main_arg7)) (V (Proc.devRef .tc main_arg8)) (V (Proc.devRef .tc main_arg9)) (V (Proc.devRef .tc main_v0)) := by
  after_results_simp
  rfl

theorem E_v89 (V : Valuation τ sig (Elt F)) :
    after (opsE (F := F)) V (Proc.devRef .tc main_v89) = Cert.Stage.aggOf (V (Proc.devRef .tc main_v7)) (Cert.Stage.msgR (V (Proc.devRef .tc main_v32)) (Cert.Stage.dotR (V (Proc.devRef .tc main_v75)) (V (Proc.devRef .tc main_arg10))) (V (Proc.devRef .tc main_v4))) := by
  after_results_simp
  rfl

theorem F_v118 (V : Valuation τ sig (Elt F)) :
    after (opsF (F := F)) V (Proc.devRef .tc main_v118) = Cert.Stage.lnHost (V (Proc.devRef .tc main_v89)) (V (Proc.devRef .tc main_arg11)) (V (Proc.devRef .tc main_arg12)) (V (Proc.devRef .tc main_arg13)) (V (Proc.devRef .tc main_v75)) := by
  after_results_simp
  rfl

theorem G_v123 (V : Valuation τ sig (Elt F)) :
    after (opsG (F := F)) V (Proc.devRef .tc main_v123) = Cert.Stage.usersPart (Cert.Stage.projR (V (Proc.devRef .tc main_v118)) (V (Proc.devRef .tc main_arg14)) (V (Proc.devRef .tc main_arg15))) := by
  after_results
  rfl

theorem G_v124 (V : Valuation τ sig (Elt F)) :
    after (opsG (F := F)) V (Proc.devRef .tc main_v124) = Cert.Stage.itemsPart (Cert.Stage.projR (V (Proc.devRef .tc main_v118)) (V (Proc.devRef .tc main_arg14)) (V (Proc.devRef .tc main_arg15))) := by
  after_results
  rfl

theorem H_v159 (V : Valuation τ sig (Elt F)) :
    after (opsH (F := F)) V (Proc.devRef .tc main_v159) = Cert.Stage.score (Cert.Stage.rowsU (V (Proc.devRef .tc main_v123)) (Cert.Stage.qcol 100000#32 (V (Proc.devRef .tc main_arg0)))) (Cert.Stage.rowsI (V (Proc.devRef .tc main_v124)) (Cert.Stage.qcol 50000#32 (V (Proc.devRef .tc main_arg1))))
        (V (Proc.devRef .tc main_arg16)) (V (Proc.devRef .tc main_arg17)) (V (Proc.devRef .tc main_arg18)) (V (Proc.devRef .tc main_arg0)) (V (Proc.devRef .tc main_arg1)) := by
  after_results_simp
  rfl

/-! ## The chain from the launch contents -/

variable (m : (ℓ : Loc nD τ sig) → Buf (Elt F) ℓ) (d : Dev nD)

/-- The buffers after the graph stretch, and after each later stretch in turn. -/
abbrev VA : Valuation τ sig (Elt F) := after (opsA (F := F)) (launchContents m d)
abbrev VB : Valuation τ sig (Elt F) := after (opsB (F := F)) (VA m d)
abbrev VC : Valuation τ sig (Elt F) := after (opsC (F := F)) (VB m d)
abbrev VD : Valuation τ sig (Elt F) := after (opsD (F := F)) (VC m d)
abbrev VE : Valuation τ sig (Elt F) := after (opsE (F := F)) (VD m d)
abbrev VF : Valuation τ sig (Elt F) := after (opsF (F := F)) (VE m d)
abbrev VG : Valuation τ sig (Elt F) := after (opsG (F := F)) (VF m d)
abbrev VH : Valuation τ sig (Elt F) := after (opsH (F := F)) (VG m d)

/-- The whole run is the eight stretches one after the other. -/
theorem after_ops : after (Fold.ops (F := F)) (launchContents m d) = VH m d := by
  rw [ops_eq]
  simp only [Cert.Lib.after_append]

/-! ### A buffer no stretch so far has written holds its launch contents -/

theorem VA_keep (r : Ref sig .tc) (hr : r ∉ WA) : VA m d (Proc.devRef .tc r) = m ((d.tc : Thread nD τ).loc r) :=
  A_keep _ r hr

theorem VB_keep (r : Ref sig .tc) (hr : r ∉ WA ++ WB) : VB m d (Proc.devRef .tc r) = m ((d.tc : Thread nD τ).loc r) :=
  (B_keep _ r fun h => hr (List.mem_append_right _ h)).trans (VA_keep m d r fun h => hr (List.mem_append_left _ h))

theorem VC_keep (r : Ref sig .tc) (hr : r ∉ WA ++ WB ++ WC) : VC m d (Proc.devRef .tc r) = m ((d.tc : Thread nD τ).loc r) :=
  (C_keep _ r fun h => hr (List.mem_append_right _ h)).trans (VB_keep m d r fun h => hr (List.mem_append_left _ h))

theorem VD_keep (r : Ref sig .tc) (hr : r ∉ WA ++ WB ++ WC ++ WD) : VD m d (Proc.devRef .tc r) = m ((d.tc : Thread nD τ).loc r) :=
  (D_keep _ r fun h => hr (List.mem_append_right _ h)).trans (VC_keep m d r fun h => hr (List.mem_append_left _ h))

theorem VE_keep (r : Ref sig .tc) (hr : r ∉ WA ++ WB ++ WC ++ WD ++ WE) : VE m d (Proc.devRef .tc r) = m ((d.tc : Thread nD τ).loc r) :=
  (E_keep _ r fun h => hr (List.mem_append_right _ h)).trans (VD_keep m d r fun h => hr (List.mem_append_left _ h))

theorem VF_keep (r : Ref sig .tc) (hr : r ∉ WA ++ WB ++ WC ++ WD ++ WE ++ WF) : VF m d (Proc.devRef .tc r) = m ((d.tc : Thread nD τ).loc r) :=
  (F_keep _ r fun h => hr (List.mem_append_right _ h)).trans (VE_keep m d r fun h => hr (List.mem_append_left _ h))

theorem VG_keep (r : Ref sig .tc) (hr : r ∉ WA ++ WB ++ WC ++ WD ++ WE ++ WF ++ WG) : VG m d (Proc.devRef .tc r) = m ((d.tc : Thread nD τ).loc r) :=
  (G_keep _ r fun h => hr (List.mem_append_right _ h)).trans (VF_keep m d r fun h => hr (List.mem_append_left _ h))

/-! ### The buffers the later stretches read, after each stretch -/

theorem VA_v0 : VA m d (Proc.devRef .tc main_v0) = Cert.Stage.nodeTable (m ((d.tc : Thread nD τ).loc main_arg4)) (m ((d.tc : Thread nD τ).loc main_arg5)) :=
  A_v0 _

theorem VA_v4 : VA m d (Proc.devRef .tc main_v4) = Cert.Stage.srcOf (m ((d.tc : Thread nD τ).loc main_arg2)) :=
  A_v4 _

theorem VA_v7 : VA m d (Proc.devRef .tc main_v7) = Cert.Stage.dstOf (m ((d.tc : Thread nD τ).loc main_arg2)) :=
  A_v7 _

theorem VA_v9 : VA m d (Proc.devRef .tc main_v9) = Cert.Stage.edgeW (m ((d.tc : Thread nD τ).loc main_arg3)) :=
  A_v9 _

theorem VA_v16 : VA m d (Proc.devRef .tc main_v16) = Cert.Results.dinv (m ((d.tc : Thread nD τ).loc main_arg2)) (m ((d.tc : Thread nD τ).loc main_arg3)) :=
  A_v16 _

theorem VB_v0 : VB m d (Proc.devRef .tc main_v0) = Cert.Stage.nodeTable (m ((d.tc : Thread nD τ).loc main_arg4)) (m ((d.tc : Thread nD τ).loc main_arg5)) :=
  (B_keep _ main_v0 (by decide)).trans (VA_v0 m d)

theorem VB_v4 : VB m d (Proc.devRef .tc main_v4) = Cert.Stage.srcOf (m ((d.tc : Thread nD τ).loc main_arg2)) :=
  (B_keep _ main_v4 (by decide)).trans (VA_v4 m d)

theorem VB_v7 : VB m d (Proc.devRef .tc main_v7) = Cert.Stage.dstOf (m ((d.tc : Thread nD τ).loc main_arg2)) :=
  (B_keep _ main_v7 (by decide)).trans (VA_v7 m d)

theorem VB_v32 : VB m d (Proc.devRef .tc main_v32) = (Cert.Results.rNorm (m ((d.tc : Thread nD τ).loc main_arg2)) (m ((d.tc : Thread nD τ).loc main_arg3))) :=
  (B_v32 _).trans (by rw [VA_v16, VA_v4, VA_v7, VA_v9]; rfl)

theorem VC_v0 : VC m d (Proc.devRef .tc main_v0) = Cert.Stage.nodeTable (m ((d.tc : Thread nD τ).loc main_arg4)) (m ((d.tc : Thread nD τ).loc main_arg5)) :=
  (C_keep _ main_v0 (by decide)).trans (VB_v0 m d)

theorem VC_v4 : VC m d (Proc.devRef .tc main_v4) = Cert.Stage.srcOf (m ((d.tc : Thread nD τ).loc main_arg2)) :=
  (C_keep _ main_v4 (by decide)).trans (VB_v4 m d)

theorem VC_v7 : VC m d (Proc.devRef .tc main_v7) = Cert.Stage.dstOf (m ((d.tc : Thread nD τ).loc main_arg2)) :=
  (C_keep _ main_v7 (by decide)).trans (VB_v7 m d)

theorem VC_v32 : VC m d (Proc.devRef .tc main_v32) = (Cert.Results.rNorm (m ((d.tc : Thread nD τ).loc main_arg2)) (m ((d.tc : Thread nD τ).loc main_arg3))) :=
  (C_keep _ main_v32 (by decide)).trans (VB_v32 m d)

theorem VC_v46 : VC m d (Proc.devRef .tc main_v46) = (Cert.Results.rAgg0 (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6))) :=
  (C_v46 _).trans (by rw [VB_v7, VB_v32, VB_v0, VB_v4, VB_keep m d main_arg6 (by decide)]; rfl)

theorem VD_v4 : VD m d (Proc.devRef .tc main_v4) = Cert.Stage.srcOf (m ((d.tc : Thread nD τ).loc main_arg2)) :=
  (D_keep _ main_v4 (by decide)).trans (VC_v4 m d)

theorem VD_v7 : VD m d (Proc.devRef .tc main_v7) = Cert.Stage.dstOf (m ((d.tc : Thread nD τ).loc main_arg2)) :=
  (D_keep _ main_v7 (by decide)).trans (VC_v7 m d)

theorem VD_v32 : VD m d (Proc.devRef .tc main_v32) = (Cert.Results.rNorm (m ((d.tc : Thread nD τ).loc main_arg2)) (m ((d.tc : Thread nD τ).loc main_arg3))) :=
  (D_keep _ main_v32 (by decide)).trans (VC_v32 m d)

theorem VD_v75 : VD m d (Proc.devRef .tc main_v75) = (Cert.Results.rH0 (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9))) :=
  (D_v75 _).trans (by rw [VC_v46, VC_v0, VC_keep m d main_arg7 (by decide), VC_keep m d main_arg8 (by decide), VC_keep m d main_arg9 (by decide)]; rfl)

theorem VE_v75 : VE m d (Proc.devRef .tc main_v75) = (Cert.Results.rH0 (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9))) :=
  (E_keep _ main_v75 (by decide)).trans (VD_v75 m d)

theorem VE_v89 : VE m d (Proc.devRef .tc main_v89) = (Cert.Results.rAgg1 (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10))) :=
  (E_v89 _).trans (by rw [VD_v7, VD_v32, VD_v75, VD_v4, VD_keep m d main_arg10 (by decide)]; rfl)

theorem VF_v118 : VF m d (Proc.devRef .tc main_v118) = Cert.Stage.lnHost (Cert.Results.rAgg1 (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10))) (m ((d.tc : Thread nD τ).loc main_arg11)) (m ((d.tc : Thread nD τ).loc main_arg12)) (m ((d.tc : Thread nD τ).loc main_arg13)) (Cert.Results.rH0 (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9))) :=
  (F_v118 _).trans (by rw [VE_v89, VE_v75, VE_keep m d main_arg11 (by decide), VE_keep m d main_arg12 (by decide), VE_keep m d main_arg13 (by decide)])

theorem VG_v123 : VG m d (Proc.devRef .tc main_v123) = Cert.Stage.usersPart (Cert.Results.rProj (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15))) :=
  (G_v123 _).trans (by rw [VF_v118, VF_keep m d main_arg14 (by decide), VF_keep m d main_arg15 (by decide)]; rfl)

theorem VG_v124 : VG m d (Proc.devRef .tc main_v124) = Cert.Stage.itemsPart (Cert.Results.rProj (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15))) :=
  (G_v124 _).trans (by rw [VF_v118, VF_keep m d main_arg14 (by decide), VF_keep m d main_arg15 (by decide)]; rfl)

theorem VH_v159 : VH m d (Proc.devRef .tc main_v159) = Cert.Results.rRes (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) :=
  (H_v159 _).trans (by rw [VG_v123, VG_v124, VG_keep m d main_arg0 (by decide), VG_keep m d main_arg1 (by decide), VG_keep m d main_arg16 (by decide), VG_keep m d main_arg17 (by decide), VG_keep m d main_arg18 (by decide)]; rfl)

/-- The reference's result buffer, after its 206 operations from the launch contents, is the composed stage functions of the nineteen arguments. -/
theorem result {F : FTy → Type} [FloatOps F] (m : (ℓ : Loc nD τ sig) → Buf (Elt F) ℓ) (d : Dev nD) :
    StableHlo.after (Cert.ReferenceIdeal.Fold.ops (F := F)) (launchContents m d) (Proc.devRef .tc main_v159)
      = Cert.Results.rRes (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) := by
  rw [after_ops]
  exact VH_v159 m d

end Cert.ReferenceIdeal.Walk

end
-- ==== Proof.PreDecode.lean ====
/-
  THE PRECONDITION DECODED. The precondition states that a printed predicate of the argument arrays is all ones.
  The predicate is a left-nested conjunction: every float argument is finite, and then — its two outermost
  conjuncts — every word of the first index array lies in [0, 100000) and every word of the second lies in
  [0, 50000), both read signed. Each of the two is an "all" (a reduction by "and" from 1) of the element-wise
  conjunction of two signed comparisons against a broadcast constant. Peeling the conjunction from the outside
  gives, at every position, the two comparison words equal to 1; a signed comparison word equal to 1 says the
  signed order of its operands. The finiteness conjuncts are not read.
-/
import proofs.«405038_j14748917694873_3_alg».proof.Defs
import Idealize.ShloMosaic.Lib.ReduceAll
import Idealize.ShloMosaic.Lib.StableHlo.Predicate
import Idealize.ShloMosaic.Lib.ValueIdx

noncomputable section

namespace Cert.PreDecode

open Idealize.ShloMosaic Idealize.SL.Sem

/-- The scalar shape has one index. -/
instance subsingleton_scalar_idx : Subsingleton Cert.Pre_finite_inputs.S_.Idx :=
  ⟨fun a b => funext fun d => d.elim0⟩

section Decode

variable [Cert.Pre_finite_inputs.Facts]

/-- The last part all ones: the conjunction running into it was 1, and every word of the second index array
    compares ≥ 0 and < 50000, signed. -/
theorem part5_ones {F : FTy → Type} [FloatOps F] (a1 : IVec Cert.Pre_finite_inputs.S16384 32)
    (v : IVec Cert.Pre_finite_inputs.S_ 1)
    (h : Cert.Pre_finite_inputs.fn_part5 (F := F) a1 v = fun _ => 1#1) (i : Cert.Pre_finite_inputs.S16384.Idx) :
    v ValueIdx.ix0 = 1#1 ∧ IntOp.cmpi .sge (a1 i) 0#32 = 1#1 ∧ IntOp.cmpi .slt (a1 i) 50000#32 = 1#1 := by
  have e := congrFun h ValueIdx.ix0
  unfold Cert.Pre_finite_inputs.fn_part5 at e
  dsimp only at e
  obtain ⟨e1, e2⟩ := IntOp.andi_eq_one.1 e
  have e3 := Host.reduce_andi_all _ _ _ _ _ e2 i
  obtain ⟨e4, e5⟩ := IntOp.andi_eq_one.1 e3
  exact ⟨e1, e4, e5⟩

/-- The fourth part all ones: every word of the first index array compares ≥ 0 and < 100000, and every word of
    the second ≥ 0 and < 50000, signed. -/
theorem part4_ones {F : FTy → Type} [FloatOps F] (a0 a1 : IVec Cert.Pre_finite_inputs.S16384 32)
    (a17 : FVec F Cert.Pre_finite_inputs.S50000 .f32) (a18 : FVec F Cert.Pre_finite_inputs.S_ .f32)
    (v63 v67 : IVec Cert.Pre_finite_inputs.S_ 1)
    (h : Cert.Pre_finite_inputs.fn_part4 (F := F) a0 a1 a17 a18 v63 v67 = fun _ => 1#1)
    (i : Cert.Pre_finite_inputs.S16384.Idx) :
    (IntOp.cmpi .sge (a0 i) 0#32 = 1#1 ∧ IntOp.cmpi .slt (a0 i) 100000#32 = 1#1)
      ∧ (IntOp.cmpi .sge (a1 i) 0#32 = 1#1 ∧ IntOp.cmpi .slt (a1 i) 50000#32 = 1#1) := by
  unfold Cert.Pre_finite_inputs.fn_part4 at h
  dsimp only at h
  obtain ⟨e1, e4, e5⟩ := part5_ones _ _ h i
  obtain ⟨-, e2⟩ := IntOp.andi_eq_one.1 e1
  have e3 := Host.reduce_andi_all _ _ _ _ _ e2 i
  obtain ⟨e6, e7⟩ := IntOp.andi_eq_one.1 e3
  exact ⟨⟨e6, e7⟩, e4, e5⟩

/-- The whole predicate all ones: the two index ranges, as comparison words. (The predicate is its parts chained:
    each part ends in the call of the next, so the predicate IS the fourth part at the values the first three compute.) -/
theorem fn_ones {F : FTy → Type} [FloatOps F]
    (a0 a1 : IVec Cert.Pre_finite_inputs.S16384 32) (a2 : IVec Cert.Pre_finite_inputs.S2x3200000 32)
    (a3 : FVec F Cert.Pre_finite_inputs.S3200000 .f32) (a4 : FVec F Cert.Pre_finite_inputs.S100000x64 .f32)
    (a5 : FVec F Cert.Pre_finite_inputs.S50000x64 .f32) (a6 : FVec F Cert.Pre_finite_inputs.S64x64 .f32)
    (a7 a8 a9 : FVec F Cert.Pre_finite_inputs.S64 .f32) (a10 : FVec F Cert.Pre_finite_inputs.S64x64 .f32)
    (a11 a12 a13 : FVec F Cert.Pre_finite_inputs.S64 .f32) (a14 : FVec F Cert.Pre_finite_inputs.S64x64 .f32)
    (a15 : FVec F Cert.Pre_finite_inputs.S64 .f32) (a16 : FVec F Cert.Pre_finite_inputs.S100000 .f32)
    (a17 : FVec F Cert.Pre_finite_inputs.S50000 .f32) (a18 : FVec F Cert.Pre_finite_inputs.S_ .f32)
    (h : Cert.Pre_finite_inputs.fn (F := F) a0 a1 a2 a3 a4 a5 a6 a7 a8 a9 a10 a11 a12 a13 a14 a15 a16 a17 a18 = fun _ => 1#1)
    (i : Cert.Pre_finite_inputs.S16384.Idx) :
    (IntOp.cmpi .sge (a0 i) 0#32 = 1#1 ∧ IntOp.cmpi .slt (a0 i) 100000#32 = 1#1)
      ∧ (IntOp.cmpi .sge (a1 i) 0#32 = 1#1 ∧ IntOp.cmpi .slt (a1 i) 50000#32 = 1#1) := by
  unfold Cert.Pre_finite_inputs.fn Cert.Pre_finite_inputs.fn_part1 Cert.Pre_finite_inputs.fn_part2
    Cert.Pre_finite_inputs.fn_part3 at h
  exact part4_ones _ _ _ _ _ _ h i

/-- A word that compares ≥ 0 and < n signed (n a small literal) has its signed value in [0, n). -/
theorem toInt_range (w : BitVec 32) (n : Nat) (hn : n < 2 ^ 31) (h0 : IntOp.cmpi .sge w 0#32 = 1#1)
    (h1 : IntOp.cmpi .slt w (BitVec.ofNat 32 n) = 1#1) : 0 ≤ w.toInt ∧ w.toInt < n := by
  have a := IntOp.cmpi_sge.1 h0
  have b := IntOp.cmpi_slt.1 h1
  rw [StableHlo.Predicate.toInt_ofNat_small n hn] at b
  rw [show (0#32 : BitVec 32).toInt = 0 from by decide] at a
  exact ⟨a, b⟩

variable (m : (ℓ : Loc Cert.KernelIdeal.nD Cert.KernelIdeal.τ Cert.KernelIdeal.sig) → Buf (Elt Ideal) ℓ)

/-- The first index array's words compare ≥ 0 and < 100000. -/
theorem users_words (hpre : Cert.Pre_KernelIdeal m) (c : Dev Cert.KernelIdeal.nD) (i : Cert.KernelIdeal.S16384.Idx) :
    IntOp.cmpi .sge ((m ((c.tc : Thread Cert.KernelIdeal.nD Cert.KernelIdeal.τ).loc Cert.KernelIdeal.main_arg0) : IVec Cert.KernelIdeal.S16384 32) i) 0#32 = 1#1
      ∧ IntOp.cmpi .slt ((m ((c.tc : Thread Cert.KernelIdeal.nD Cert.KernelIdeal.τ).loc Cert.KernelIdeal.main_arg0) : IVec Cert.KernelIdeal.S16384 32) i) 100000#32 = 1#1 :=
  (fn_ones _ _ _ _ _ _ _ _ _ _ _ _ _ _ _ _ _ _ _ (hpre c) i).1

/-- The second index array's words compare ≥ 0 and < 50000. -/
theorem items_words (hpre : Cert.Pre_KernelIdeal m) (c : Dev Cert.KernelIdeal.nD) (i : Cert.KernelIdeal.S16384.Idx) :
    IntOp.cmpi .sge ((m ((c.tc : Thread Cert.KernelIdeal.nD Cert.KernelIdeal.τ).loc Cert.KernelIdeal.main_arg1) : IVec Cert.KernelIdeal.S16384 32) i) 0#32 = 1#1
      ∧ IntOp.cmpi .slt ((m ((c.tc : Thread Cert.KernelIdeal.nD Cert.KernelIdeal.τ).loc Cert.KernelIdeal.main_arg1) : IVec Cert.KernelIdeal.S16384 32) i) 50000#32 = 1#1 :=
  (fn_ones _ _ _ _ _ _ _ _ _ _ _ _ _ _ _ _ _ _ _ (hpre c) i).2

/-- Every word of the first index array, read signed, is in [0, 100000). -/
theorem users_range (hpre : Cert.Pre_KernelIdeal m) (c : Dev Cert.KernelIdeal.nD) (i : Cert.KernelIdeal.S16384.Idx) :
    0 ≤ ((m ((c.tc : Thread Cert.KernelIdeal.nD Cert.KernelIdeal.τ).loc Cert.KernelIdeal.main_arg0) : IVec Cert.KernelIdeal.S16384 32) i).toInt
      ∧ ((m ((c.tc : Thread Cert.KernelIdeal.nD Cert.KernelIdeal.τ).loc Cert.KernelIdeal.main_arg0) : IVec Cert.KernelIdeal.S16384 32) i).toInt < 100000 := by
  obtain ⟨h0, h1⟩ := users_words m hpre c i
  exact toInt_range _ 100000 (by norm_num) h0 h1

/-- Every word of the second index array, read signed, is in [0, 50000). -/
theorem items_range (hpre : Cert.Pre_KernelIdeal m) (c : Dev Cert.KernelIdeal.nD) (i : Cert.KernelIdeal.S16384.Idx) :
    0 ≤ ((m ((c.tc : Thread Cert.KernelIdeal.nD Cert.KernelIdeal.τ).loc Cert.KernelIdeal.main_arg1) : IVec Cert.KernelIdeal.S16384 32) i).toInt
      ∧ ((m ((c.tc : Thread Cert.KernelIdeal.nD Cert.KernelIdeal.τ).loc Cert.KernelIdeal.main_arg1) : IVec Cert.KernelIdeal.S16384 32) i).toInt < 50000 := by
  obtain ⟨h0, h1⟩ := items_words m hpre c i
  exact toInt_range _ 50000 (by norm_num) h0 h1

end Decode

end Cert.PreDecode

end
-- ==== Proof.LibRowGatherClamp.lean ====
/-
  Taking rows of a table with the start index clamped: the gather that x[idx] of an [N × C] array lowers to, read
  at an entry, for an ARBITRARY start index.

  With the row axis collapsed and start-indexed and the column axis an offset axis of full width, entry (r, q) of
  the result is the table's entry (row, q), where row is start index r read as a signed integer and clamped to
  [0, N − 1]: a negative start index reads row 0, one past the end reads the last row.
-/
import Idealize.ShloMosaic.Lib.ValueIdx

noncomputable section

namespace Cert.LibRowGatherClamp

open Idealize.ShloMosaic Idealize.ShloMosaic.ValueIdx

/-- Entry (r, q) of a row gather is the table's entry (row, q), row being start index r read signed and clamped
    into [0, N − 1]. -/
theorem gather_rows_clamp_apply {α : Type} {N C n w : Nat}
    (d : GatherDims ⟨2, ![N, C]⟩ ⟨2, ![n, 1]⟩ ⟨2, ![n, C]⟩)
    (hoff : d.offsetDims = [1]) (hcol : d.collapsedSliceDims = [0]) (hob : d.operandBatchingDims = [])
    (hsb : d.startIndicesBatchingDims = []) (hmap : d.startIndexMap = [0]) (hiv : d.indexVectorDim = 1)
    (hsl : d.sliceSizes = ![1, C])
    (x : (⟨2, ![N, C]⟩ : Shape).Idx → α) (idx : IVec ⟨2, ![n, 1]⟩ w) (r : Fin n) (q : Fin C) (hN : 0 < N) :
    Host.gather d x idx (ix2 r q)
      = x (ix2 (⟨min (idx (ix2 r (0 : Fin 1))).toInt.toNat (N - 1), by omega⟩ : Fin N) q) := by
  -- the record's data are the seven printed lists: make them literal so that the axis bookkeeping computes
  obtain ⟨od, cd, obd, sbd, sim, ivd, ss, wf⟩ := d
  dsimp only at hoff hcol hob hsb hmap hiv hsl
  subst hoff hcol hob hsb hmap hiv hsl
  unfold Host.gather
  refine congrArg x (funext fun a => ?_)
  match a with
  | ⟨0, _⟩ =>
    -- the row axis: collapsed and start-indexed, so the operand's row is the clamped start index alone
    apply Fin.ext
    simp only [GatherDims.operandIdx]
    rw [GatherDims.batchCoord_eq_zero _ _ _ (by exact List.not_mem_nil),
      GatherDims.offCoord_eq_zero _ _ _ (by rw [GatherDims.mem_sKept]; simp)]
    unfold GatherDims.start
    rw [dif_pos (by simp)]
    -- the start index is read at (r, 0): r from the result's batch axis, 0 on the index vector's axis
    generalize hX : GatherDims.siIdx _ (ix2 r q) _ = X
    have hX' : X = ix2 r (0 : Fin 1) := by
      rw [← hX]
      funext b
      match b with
      | ⟨0, _⟩ => rfl
      | ⟨1, _⟩ => rfl
    rw [hX']
    rfl
  | ⟨1, _⟩ =>
    -- the column axis: an offset axis of full width, no start, so the operand's column is the result's
    apply Fin.ext
    simp only [GatherDims.operandIdx]
    rw [GatherDims.batchCoord_eq_zero _ _ _ (by exact List.not_mem_nil)]
    unfold GatherDims.start
    rw [dif_neg (by simp)]
    unfold GatherDims.offCoord
    rw [dif_pos (by rw [GatherDims.mem_sKept]; simp)]
    simp only [Nat.zero_add]
    rfl

end Cert.LibRowGatherClamp

end
-- ==== Proof.MsgEq.lean ====
/-
  The two programs' edge messages are equal.

  At edge e and feature j, write s for the node the row lookup reads for the source of e and t for the node it reads
  for the destination: the start index read as a signed integer and clamped into [0, 149999].  The kernel program's
  message is (w e · dinv t) · ((∑ k, A(s, k) · W(k, j)) · dinv s): the factor dinv s was folded into the product
  rows beforehand.  The reference's is ((dinv s · w e) · dinv t) · (∑ k, A(s, k) · W(k, j)).  The two are equal by
  commutativity and associativity of the product on the extended reals; nothing is assumed of the indices or of the
  values.  A change of number format is the identity on the extended reals.
-/
import proofs.«405038_j14748917694873_3_alg».proof.Proof.Stage
import proofs.«405038_j14748917694873_3_alg».proof.Proof.Spec
import proofs.«405038_j14748917694873_3_alg».proof.Proof.LibRowGatherClamp
import Idealize.ShloMosaic.Lib.Pipeline.Value
import Idealize.ShloMosaic.Lib.ValueIdx
import Idealize.ShloMosaic.Lib.StableHlo.Predicate
import Idealize.ShloMosaic.PureOps.Ideal.Laws

noncomputable section

namespace Cert.Bridge

open Idealize.ShloMosaic Idealize.ShloMosaic.ValueIdx Cert.KernelIdeal Cert.KernelIdeal.Gen

/-! ## Indices -/

/-- The one-coordinate index written two ways. -/
theorem ofFin_eq_ix1 {n : Nat} (p : Fin n) : (Shape.Idx.ofFin p : (⟨1, ![n]⟩ : Shape).Idx) = ix1 p := by
  funext d
  match d with
  | ⟨0, _⟩ => exact Shape.Idx.ofFin_zero p

/-- Row p of a one-column array written two ways. -/
theorem ixP_eq_ix2 {n : Nat} (p : Fin n) : StableHlo.Predicate.ixP p = ix2 p (0 : Fin 1) := by
  funext d
  match d with
  | ⟨0, _⟩ => rfl
  | ⟨1, _⟩ => rfl

/-- The node a lookup reads at edge e from the start-index column c: the start index read signed and clamped into
    [0, 149999]. -/
def nodeAt (c : IVec S3350000x1 32) (e : Fin 3350000) : Fin 150000 :=
  ⟨min (c (ix2 e (0 : Fin 1))).toInt.toNat (150000 - 1), by omega⟩

/-! ## The layout operations and the two lookups at an index -/

/-- A per-edge factor repeated along the features reads the factor of the edge. -/
theorem perEdge_apply (w : FVec Ideal S3350000 .f32) (e : Fin 3350000) (j : Fin 64) :
    Cert.Stage.perEdge w (ix2 e j) = w (ix1 e) := by
  unfold Cert.Stage.perEdge
  refine (broadcastInDim_apply _ bcast_S3350000x1_S3350000x64_0_1 _ (ix2 e j) (ix2 e (0 : Fin 1)) (fun a => match a with
    | ⟨0, _⟩ => by show e.val = if (3350000 : Nat) = 1 then 0 else e.val; rw [if_neg (by decide)]
    | ⟨1, _⟩ => by show (0 : Nat) = if (1 : Nat) = 1 then 0 else j.val; rw [if_pos rfl])).trans ?_
  exact broadcastInDim_apply _ bcast_S3350000_S3350000x1_0 w (ix2 e (0 : Fin 1)) (ix1 e) (fun a => match a with
    | ⟨0, _⟩ => by show e.val = if (3350000 : Nat) = 1 then 0 else e.val; rw [if_neg (by decide)])

/-- The per-node factor as a one-column table reads the factor of the node. -/
theorem dinvCol_apply (dv : FVec Ideal S150000 .f32) (p : Fin 150000) :
    Cert.Stage.dinvCol dv (ix2 p (0 : Fin 1)) = dv (ix1 p) := by
  unfold Cert.Stage.dinvCol
  exact broadcastInDim_apply _ bcast_S150000_S150000x1_0 dv (ix2 p (0 : Fin 1)) (ix1 p) (fun a => match a with
    | ⟨0, _⟩ => by show p.val = if (150000 : Nat) = 1 then 0 else p.val; rw [if_neg (by decide)])

/-- A per-node value read at each edge's node: the value of the clamped node. -/
theorem take1_apply (d : FVec Ideal S150000 .f32) (c : IVec S3350000x1 32) (e : Fin 3350000) :
    Cert.Stage.take1 d c (ix1 e) = d (ix1 (nodeAt c e)) := by
  unfold Cert.Stage.take1
  rw [← ofFin_eq_ix1 e]
  refine (StableHlo.Predicate.gather_take gather_S150000_S3350000x1_S3350000_n_0_n_n_0_1_1 rfl rfl rfl rfl d c e
    (by decide)).trans ?_
  rw [ofFin_eq_ix1]
  refine congrArg d (congrArg ix1 (Fin.ext ?_))
  show min (c (StableHlo.Predicate.ixP e)).toInt.toNat (150000 - 1) = min (c (ix2 e (0 : Fin 1))).toInt.toNat (150000 - 1)
  rw [ixP_eq_ix2]

/-- A node table's rows read at each edge's node: the row of the clamped node — the SAME node the per-node lookup
    reads. -/
theorem rowsAt_apply {φ : FTy} (A : FVec Ideal S150000x64 φ) (c : IVec S3350000x1 32) (e : Fin 3350000) (j : Fin 64) :
    Cert.Stage.rowsAt A c (ix2 e j) = A (ix2 (nodeAt c e) j) := by
  unfold Cert.Stage.rowsAt
  exact Cert.LibRowGatherClamp.gather_rows_clamp_apply gather_S150000x64_S3350000x1_S3350000x64_1_0_n_n_0_1_164
    rfl rfl rfl rfl rfl rfl rfl A c e j (by decide)

/-! ## The messages -/

/-- The rearrangement of the four factors. -/
theorem four_factors (w dt ds m : EReal) : (w * dt) * (m * ds) = ((ds * w) * dt) * m := by
  ac_rfl

/-- The kernel program's messages are the reference's. -/
theorem msg_eq (A : FVec Ideal Cert.KernelIdeal.S150000x64 .f32) (W : FVec Ideal Cert.KernelIdeal.S64x64 .f32) (dv : FVec Ideal Cert.KernelIdeal.S150000 .f32)
    (src dst : IVec Cert.KernelIdeal.S3350000 32) (ew : FVec Ideal Cert.KernelIdeal.S3350000 .f32) :
    Cert.Stage.msgK (Cert.Stage.edgeFacK ew dv dst) (Cert.Spec.mmScale A W (Cert.Stage.dinvCol dv)) src
      = Cert.Stage.msgR (Cert.Stage.normOf dv src dst ew) (Cert.Spec.mm A W) src := by
  funext i
  obtain ⟨e, j, rfl⟩ : ∃ (e : Fin 3350000) (j : Fin 64), i = ix2 e j := ⟨i 0, i 1, eq_ix2 i⟩
  unfold Cert.Stage.msgK Cert.Stage.msgR
  rw [mulf_apply, mulf_apply, extf_apply, perEdge_apply, perEdge_apply, rowsAt_apply, rowsAt_apply]
  unfold Cert.Stage.edgeFacK Cert.Stage.normOf
  rw [mulf_apply, mulf_apply, mulf_apply, take1_apply, take1_apply, Cert.Spec.mmScale_eq_mm_mul, dinvCol_apply]
  exact four_factors _ _ _ _

end Cert.Bridge

end
-- ==== Proof.RefLayers.lean ====
/-
  The reference's whole-array layer operations are the row-wise maps of the specification.

  The reference computes its layers with operations on whole 150000 × 64 tables: a product with a 64 × 64 matrix,
  a 64-vector repeated down the rows, a per-row value repeated along the features, a row sum divided by 64, a
  reciprocal square root, a maximum with zero.  Read at one entry (p, q), each of them is an operation on extended
  reals: the product is the sum over k of A (p, k) · W (k, q); a repeated vector reads its feature q; a repeated
  per-row value reads its row p; the row mean is the sum of the row divided by the word 64.  Chaining these readings,
  the product is `mm`, the product plus bias is `mmBias`, and the normalising layer is `lnRelu`, entry by entry and in
  the operations' own order, so no law of arithmetic beyond 0 + x = x is used.
-/
import proofs.«405038_j14748917694873_3_alg».proof.Proof.Stage
import proofs.«405038_j14748917694873_3_alg».proof.Proof.Spec
import Idealize.ShloMosaic.Lib.Pipeline.Value
import Idealize.ShloMosaic.Lib.ValueIdx
import Idealize.ShloMosaic.PureOps.Ideal.Laws

noncomputable section

open scoped BigOperators

namespace Cert.Bridge

open Idealize.ShloMosaic Idealize.ShloMosaic.ValueIdx Cert.KernelIdeal

/-! ## The product of a table with a 64 × 64 matrix, at an entry -/

/-- The left operand's row is the output entry's row. -/
theorem dot_lhs_0 (i : S150000x64.Idx) (c : Cert.ReferenceIdeal.dot_S150000x64_S64x64_S150000x64_1_0_0_1_n_n.contr.Idx) :
    (Cert.ReferenceIdeal.dot_S150000x64_S64x64_S150000x64_1_0_0_1_n_n.lhsIdx i c 0).val = (i 0).val := by
  unfold DotDims.lhsIdx
  rw [dif_neg (show ¬(0 : Fin S150000x64.rank) ∈ Cert.ReferenceIdeal.dot_S150000x64_S64x64_S150000x64_1_0_0_1_n_n.lhsBatch by decide),
    dif_pos (show (0 : Fin S150000x64.rank) ∈ Cert.ReferenceIdeal.dot_S150000x64_S64x64_S150000x64_1_0_0_1_n_n.lhsNonContracting by decide)]
  rfl

/-- The left operand's column is the contraction step. -/
theorem dot_lhs_1 (i : S150000x64.Idx) (c : Cert.ReferenceIdeal.dot_S150000x64_S64x64_S150000x64_1_0_0_1_n_n.contr.Idx) :
    (Cert.ReferenceIdeal.dot_S150000x64_S64x64_S150000x64_1_0_0_1_n_n.lhsIdx i c 1).val = (c ⟨0, by decide⟩).val :=
  Cert.ReferenceIdeal.dot_S150000x64_S64x64_S150000x64_1_0_0_1_n_n.lhsIdx_val_of_single rfl i c

/-- The right operand's row is the contraction step. -/
theorem dot_rhs_0 (i : S150000x64.Idx) (c : Cert.ReferenceIdeal.dot_S150000x64_S64x64_S150000x64_1_0_0_1_n_n.contr.Idx) :
    (Cert.ReferenceIdeal.dot_S150000x64_S64x64_S150000x64_1_0_0_1_n_n.rhsIdx i c 0).val = (c ⟨0, by decide⟩).val :=
  Cert.ReferenceIdeal.dot_S150000x64_S64x64_S150000x64_1_0_0_1_n_n.rhsIdx_val_of_single rfl i c

/-- The right operand's column is the output entry's column. -/
theorem dot_rhs_1 (i : S150000x64.Idx) (c : Cert.ReferenceIdeal.dot_S150000x64_S64x64_S150000x64_1_0_0_1_n_n.contr.Idx) :
    (Cert.ReferenceIdeal.dot_S150000x64_S64x64_S150000x64_1_0_0_1_n_n.rhsIdx i c 1).val = (i 1).val := by
  unfold DotDims.rhsIdx
  rw [dif_neg (show ¬(1 : Fin S64x64.rank) ∈ Cert.ReferenceIdeal.dot_S150000x64_S64x64_S150000x64_1_0_0_1_n_n.rhsBatch by decide),
    dif_pos (show (1 : Fin S64x64.rank) ∈ Cert.ReferenceIdeal.dot_S150000x64_S64x64_S150000x64_1_0_0_1_n_n.rhsNonContracting by decide)]
  rfl

/-- Entry (p, q) of the reference's product: the sum over k of A (p, k) · W (k, q). -/
theorem dotR_apply (A : FVec Ideal S150000x64 .f32) (W : FVec Ideal S64x64 .f32) (p : Fin 150000) (q : Fin 64) :
    Cert.Stage.dotR (F := Ideal) A W (ix2 p q) = ∑ k : Fin 64, A (ix2 p k) * W (ix2 k q) := by
  unfold Cert.Stage.dotR
  simp only [Host.dotGeneral]
  rw [Ideal.dotGeneral_apply,
    ← Equiv.sum_comp (contrEquiv1 Cert.ReferenceIdeal.dot_S150000x64_S64x64_S150000x64_1_0_0_1_n_n 64 rfl rfl).symm]
  refine Finset.sum_congr rfl fun k _ => ?_
  have hk := contrEquiv1_symm_val Cert.ReferenceIdeal.dot_S150000x64_S64x64_S150000x64_1_0_0_1_n_n 64 rfl rfl k
  have el : Cert.ReferenceIdeal.dot_S150000x64_S64x64_S150000x64_1_0_0_1_n_n.lhsIdx (ix2 p q)
      ((contrEquiv1 Cert.ReferenceIdeal.dot_S150000x64_S64x64_S150000x64_1_0_0_1_n_n 64 rfl rfl).symm k) = ix2 p k :=
    funext fun a => Fin.ext (by
      match a with
      | ⟨0, _⟩ => exact dot_lhs_0 _ _
      | ⟨1, _⟩ => exact (dot_lhs_1 _ _).trans hk)
  have er : Cert.ReferenceIdeal.dot_S150000x64_S64x64_S150000x64_1_0_0_1_n_n.rhsIdx (ix2 p q)
      ((contrEquiv1 Cert.ReferenceIdeal.dot_S150000x64_S64x64_S150000x64_1_0_0_1_n_n 64 rfl rfl).symm k) = ix2 k q :=
    funext fun a => Fin.ext (by
      match a with
      | ⟨0, _⟩ => exact (dot_rhs_0 _ _).trans hk
      | ⟨1, _⟩ => exact dot_rhs_1 _ _)
  rw [el, er]

/-- The reference's product is the specification's. -/
theorem dotR_eq (A : FVec Ideal Cert.KernelIdeal.S150000x64 .f32) (W : FVec Ideal Cert.KernelIdeal.S64x64 .f32) :
    Cert.Stage.dotR (F := Ideal) A W = Cert.Spec.mm A W := by
  funext i
  obtain ⟨p, q, rfl⟩ : ∃ (p : Fin 150000) (q : Fin 64), i = ix2 p q := ⟨i 0, i 1, eq_ix2 i⟩
  rw [dotR_apply]
  rfl

/-! ## Repeated vectors, repeated per-row values, splat constants, at an entry -/

/-- A 64-vector repeated down the rows reads its feature. -/
theorem perFeature_apply (v : FVec Ideal S64 .f32) (p : Fin 150000) (q : Fin 64) :
    Cert.Stage.perFeature (F := Ideal) v (ix2 p q) = v (ix1 q) := by
  unfold Cert.Stage.perFeature
  rw [broadcastInDim_apply _ Cert.ReferenceIdeal.Gen.bcast_S1x64_S150000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])]
  exact broadcastInDim_apply _ Cert.ReferenceIdeal.Gen.bcast_S64_S1x64_1 v (ix2 (0 : Fin 1) q) (ix1 q) (fun a => match a with
    | ⟨0, _⟩ => by show q.val = if (64 : Nat) = 1 then 0 else q.val; rw [if_neg (by decide)])

/-- A per-row value repeated along the features reads its row. -/
theorem perRow_apply (v : FVec Ideal S150000x1 .f32) (p : Fin 150000) (q : Fin 64) :
    Cert.Stage.perRow (F := Ideal) v (ix2 p q) = v (ix2 p (0 : Fin 1)) := by
  unfold Cert.Stage.perRow
  exact broadcastInDim_apply _ Cert.ReferenceIdeal.Gen.bcast_S150000x1_S150000x64_0_1 v (ix2 p q) (ix2 p (0 : Fin 1)) (fun a => match a with
    | ⟨0, _⟩ => by show p.val = if (150000 : Nat) = 1 then 0 else p.val; rw [if_neg (by decide)]
    | ⟨1, _⟩ => by show 0 = if (1 : Nat) = 1 then 0 else q.val; rw [if_pos rfl])

/-- A splat constant reads the extended real of its word at every entry. -/
theorem splat_apply {t : Shape} (hb : S_.BroadcastsInDim t (![] : Fin 0 → Fin t.rank)) (w : BitVec 32) (j : t.Idx) :
    broadcastInDim t ![] hb (constant (F := Ideal) S_ .f32 w) j = Ideal.ofBits .f32 w :=
  broadcastInDim_apply _ hb _ j ix0 (fun a => a.elim0)

/-- The host's reciprocal square root at an entry. -/
theorem hostRsqrt_apply {s : Shape} (x : FVec Ideal s .f32) (i : s.Idx) : Host.rsqrt x i = Ideal.rsqrt (x i) := rfl

/-- The host's quotient at an entry. -/
theorem hostDivf_apply {s : Shape} (x y : FVec Ideal s .f32) (i : s.Idx) : Host.divf x y i = Ideal.div (x i) (y i) := rfl

/-! ## The row sum and the row mean -/

/-- The host's sum over the features, started at the zero word, at row p: the sum of the row. -/
theorem rowSum_apply (x : FVec Ideal S150000x64 .f32) (p : Fin 150000) :
    Host.reduceAdd x (constant S_ .f32 0x00000000#32) Cert.ReferenceIdeal.Gen.reducesTo_S150000x64_S150000_d1
      Cert.ReferenceIdeal.Gen.h_S_ (ix1 p) = ∑ k : Fin 64, x (ix2 p k) := by
  simp only [Host.reduceAdd, Ideal.hostReduceAdd_def]
  rw [Ideal.hostReduceAdd_single Cert.ReferenceIdeal.Gen.reducesTo_S150000x64_S150000_d1 (by decide)]
  rw [constant_apply, Ideal.ofBits_zero_f32, zero_add]
  refine Finset.sum_congr rfl fun k _ => ?_
  exact congrArg x (funext fun a => Fin.ext (by match a with | ⟨0, _⟩ => rfl | ⟨1, _⟩ => rfl))

/-- The row mean at row p: the sum of the row divided by the word 64. -/
theorem rowMean_apply (x : FVec Ideal S150000x64 .f32) (p : Fin 150000) :
    Cert.Stage.rowMean (F := Ideal) x (ix2 p (0 : Fin 1)) = Ideal.div (∑ k : Fin 64, x (ix2 p k)) Cert.Spec.c64 := by
  unfold Cert.Stage.rowMean Cert.Spec.c64
  rw [hostDivf_apply, splat_apply,
    broadcastInDim_apply _ Gen.bcast_S150000_S150000x1_0 _ (ix2 p (0 : Fin 1)) (ix1 p) (fun a => match a with
      | ⟨0, _⟩ => by show p.val = if (150000 : Nat) = 1 then 0 else p.val; rw [if_neg (by decide)]),
    rowSum_apply]

/-! ## The normalising layer -/

/-- A centred entry: the entry minus its row's mean. -/
theorem centred_apply (h : FVec Ideal S150000x64 .f32) (p : Fin 150000) (k : Fin 64) :
    subf h (Cert.Stage.perRow (F := Ideal) (Cert.Stage.rowMean (F := Ideal) h)) (ix2 p k)
      = h (ix2 p k) - Cert.Spec.lnMean (fun k => h (ix2 p k)) := by
  rw [subf_apply, perRow_apply, rowMean_apply]
  rfl

/-- The variance of row p: the mean of the squared centred entries. -/
theorem var_apply (h : FVec Ideal S150000x64 .f32) (p : Fin 150000) :
    Cert.Stage.rowMean (F := Ideal)
        (mulf (subf h (Cert.Stage.perRow (F := Ideal) (Cert.Stage.rowMean (F := Ideal) h)))
          (subf h (Cert.Stage.perRow (F := Ideal) (Cert.Stage.rowMean (F := Ideal) h)))) (ix2 p (0 : Fin 1))
      = Cert.Spec.lnVar (fun k => h (ix2 p k)) := by
  rw [rowMean_apply]
  unfold Cert.Spec.lnVar
  refine congrArg (fun s => Ideal.div s Cert.Spec.c64) (Finset.sum_congr rfl fun k _ => ?_)
  rw [mulf_apply, centred_apply]

/-- The layer after the bias, on an arbitrary table h, at an entry. -/
theorem lnCore_apply (h : FVec Ideal S150000x64 .f32) (g be : FVec Ideal S64 .f32) (resid : FVec Ideal S150000x64 .f32)
    (p : Fin 150000) (q : Fin 64) :
    addf (maximumf (addf (mulf (mulf (subf h (Cert.Stage.perRow (F := Ideal) (Cert.Stage.rowMean (F := Ideal) h)))
          (Cert.Stage.perRow (F := Ideal) (Host.rsqrt (addf (Cert.Stage.rowMean (F := Ideal)
            (mulf (subf h (Cert.Stage.perRow (F := Ideal) (Cert.Stage.rowMean (F := Ideal) h)))
              (subf h (Cert.Stage.perRow (F := Ideal) (Cert.Stage.rowMean (F := Ideal) h)))))
            (broadcastInDim S150000x1 ![] Cert.ReferenceIdeal.Gen.bcast_S_S150000x1 (constant S_ .f32 0x3727C5AC#32))))))
          (Cert.Stage.perFeature (F := Ideal) g)) (Cert.Stage.perFeature (F := Ideal) be))
        (broadcastInDim S150000x64 ![] Gen.bcast_S_S150000x64 (constant S_ .f32 0x00000000#32))) resid (ix2 p q)
      = max ((h (ix2 p q) - Cert.Spec.lnMean (fun k => h (ix2 p k)))
            * Ideal.rsqrt (Cert.Spec.lnVar (fun k => h (ix2 p k)) + Cert.Spec.eps) * g (ix1 q) + be (ix1 q)) Cert.Spec.zero32
          + resid (ix2 p q) := by
  rw [addf_apply, maximumf_apply, addf_apply, mulf_apply, mulf_apply, centred_apply, perRow_apply, hostRsqrt_apply,
    addf_apply, var_apply, perFeature_apply, perFeature_apply, splat_apply, splat_apply]
  rfl

/-- The reference's layer is the specification's. -/
theorem lnHost_eq (agg : FVec Ideal Cert.KernelIdeal.S150000x64 .f32) (b g be : FVec Ideal Cert.KernelIdeal.S64 .f32)
    (resid : FVec Ideal Cert.KernelIdeal.S150000x64 .f32) :
    Cert.Stage.lnHost (F := Ideal) agg b g be resid = Cert.Spec.lnRelu agg b resid g be := by
  funext i
  obtain ⟨p, q, rfl⟩ : ∃ (p : Fin 150000) (q : Fin 64), i = ix2 p q := ⟨i 0, i 1, eq_ix2 i⟩
  have hrow : (fun k : Fin 64 => addf agg (Cert.Stage.perFeature (F := Ideal) b) (ix2 p k)) = Cert.Spec.lnRow agg b p := by
    funext k
    rw [addf_apply, perFeature_apply]
    rfl
  refine (lnCore_apply (addf agg (Cert.Stage.perFeature (F := Ideal) b)) g be resid p q).trans ?_
  rw [hrow, addf_apply, perFeature_apply]
  rfl

/-! ## The projection -/

/-- The reference's projection is the specification's product plus bias. -/
theorem projR_eq (h : FVec Ideal Cert.KernelIdeal.S150000x64 .f32) (Wp : FVec Ideal Cert.KernelIdeal.S64x64 .f32)
    (bp : FVec Ideal Cert.KernelIdeal.S64 .f32) :
    Cert.Stage.projR (F := Ideal) h Wp bp = Cert.Spec.mmBias h Wp bp := by
  funext i
  obtain ⟨p, q, rfl⟩ : ∃ (p : Fin 150000) (q : Fin 64), i = ix2 p q := ⟨i 0, i 1, eq_ix2 i⟩
  unfold Cert.Stage.projR
  rw [addf_apply, dotR_apply, perFeature_apply]
  rfl

end Cert.Bridge

end
-- ==== Proof.TakeEq.lean ====
/-
  WITH THE REQUESTED INDICES IN RANGE, THE GUARDED ROW LOOKUP IS THE PLAIN ROW GATHER.
  The guarded lookup selects, position by position, the gathered row where the start index lies in 0 … last and a
  filler elsewhere. The start-index column is the requested index with the extent added when it is negative. When every
  requested index is in [0, n) signed (last = n - 1): the index is not negative, so the column holds the index itself;
  it compares ≥ 0 and ≤ last; the "and" over the one-element axis, started at 1, meets only 1s and is 1; the broadcast
  of that bit along the features is 1 everywhere; and a select on the bit 1 is its first operand, the gathered row.
-/
import proofs.«405038_j14748917694873_3_alg».proof.Proof.Stage
import Idealize.ShloMosaic.Lib.ReduceAll
import Idealize.ShloMosaic.Lib.StableHlo.Predicate
import Idealize.ShloMosaic.Lib.ValueIdx

noncomputable section

namespace Cert.Bridge

open Idealize.ShloMosaic Idealize.ShloMosaic.ValueIdx Cert.KernelIdeal

/-! ## The "and" reduction of all ones -/

/-- A left fold by "and" that starts at 1 and meets only 1s is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, _, h, hl =>
    foldl_andi_one f l _ (IntOp.andi_eq_one.2 ⟨h, hl a (List.mem_cons.2 (Or.inl rfl))⟩)
      (fun n hn => hl n (List.mem_cons.2 (Or.inr hn)))

/-- A reduction by "and" from 1 of an array of ones is 1 at every result index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_one x _ _ hinit (fun n _ => hx n)

/-! ## Words -/

/-- A word that is not negative is kept by "add n if negative". -/
theorem keep_nonneg (n w : BitVec 32) (h : 0 ≤ w.toInt) :
    Scalar.select (IntOp.cmpi .slt w 0#32) (IntOp.addi w n) w = w := by
  have hne : ¬ IntOp.cmpi .slt w 0#32 = 1#1 := by
    intro e
    have hlt := IntOp.cmpi_slt.1 e
    rw [show (0#32 : BitVec 32).toInt = 0 from by decide] at hlt
    omega
  exact if_neg hne

/-- A word with signed value in [0, last] compares ≥ 0 and ≤ last. -/
theorem in_range_words (w : BitVec 32) (last : Nat) (hl : last < 2 ^ 31) (h0 : 0 ≤ w.toInt) (h1 : w.toInt ≤ last) :
    IntOp.cmpi .sge w 0#32 = 1#1 ∧ IntOp.cmpi .sle w (BitVec.ofNat 32 last) = 1#1 := by
  refine ⟨IntOp.cmpi_sge.2 ?_, IntOp.cmpi_sle.2 ?_⟩
  · rw [show (0#32 : BitVec 32).toInt = 0 from by decide]; exact h0
  · rw [StableHlo.Predicate.toInt_ofNat_small last hl]; exact h1

/-! ## The broadcast, the start-index column, the range bit -/

/-- What holds of every element of an array holds of every element of its broadcast. -/
theorem bcast_forall {α : Type} {s t : Shape} (dims : Fin s.rank → Fin t.rank) (h : s.BroadcastsInDim t dims)
    (x : s.Idx → α) (P : α → Prop) (hx : ∀ k, P (x k)) (j : t.Idx) : P (broadcastInDim t dims h x j) := hx _

/-- With no requested index negative, what holds of every requested index holds of every start index of the column. -/
theorem qcol_forall (n : BitVec 32) (u : IVec S16384 32) (hu0 : ∀ i, 0 ≤ (u i).toInt) (P : BitVec 32 → Prop)
    (hP : ∀ i, P (u i)) (k : S16384x1.Idx) : P (Cert.Stage.qcol n u k) := by
  unfold Cert.Stage.qcol
  refine bcast_forall _ _ _ P (fun i => ?_) k
  show P (Scalar.select (IntOp.cmpi .slt (u i) 0#32) (IntOp.addi (u i) n) (u i))
  rw [keep_nonneg n (u i) (hu0 i)]
  exact hP i

/-- With every start index in 0 … last, the range bit is 1 everywhere. -/
theorem inRange_one (last : BitVec 32) (c : IVec S16384x1 32)
    (hc : ∀ k, IntOp.cmpi .sge (c k) 0#32 = 1#1 ∧ IntOp.cmpi .sle (c k) last = 1#1) (j : S16384x64.Idx) :
    Cert.Stage.inRange last c j = 1#1 := by
  unfold Cert.Stage.inRange
  refine bcast_forall _ _ _ (fun b => b = 1#1) (fun r => ?_) j
  refine reduce_andi_one _ _ _ _ r rfl (fun i => ?_)
  exact IntOp.andi_eq_one.2 (hc i)

/-- The range bit of the column of in-range requested indices. -/
theorem inRange_qcol (n last : Nat) (hl : last < 2 ^ 31) (u : IVec S16384 32)
    (hu : ∀ i : S16384.Idx, 0 ≤ (u i).toInt ∧ (u i).toInt ≤ last) (j : S16384x64.Idx) :
    Cert.Stage.inRange (BitVec.ofNat 32 last) (Cert.Stage.qcol (BitVec.ofNat 32 n) u) j = 1#1 :=
  inRange_one _ _ (fun k => qcol_forall _ u (fun i => (hu i).1)
    (fun w => IntOp.cmpi .sge w 0#32 = 1#1 ∧ IntOp.cmpi .sle w (BitVec.ofNat 32 last) = 1#1)
    (fun i => in_range_words (u i) last hl (hu i).1 (hu i).2) k) j

/-! ## The two lookups -/

variable {F : FTy → Type} [FloatOps F]

/-- The users' lookup: with every requested index in [0, 100000), the guarded lookup is the gather. -/
theorem takeU_eq (P0 : FVec F S100000x64 .f32) (u : IVec S16384 32)
    (hu : ∀ i : S16384.Idx, 0 ≤ (u i).toInt ∧ (u i).toInt < 100000) :
    Cert.Stage.takeU P0 (Cert.Stage.qcol 100000#32 u) = Cert.Stage.rowsU P0 (Cert.Stage.qcol 100000#32 u) := by
  funext j
  have hc : Cert.Stage.inRange 99999#32 (Cert.Stage.qcol 100000#32 u) j = 1#1 :=
    inRange_qcol 100000 99999 (by norm_num) u (fun i => ⟨(hu i).1, by have := (hu i).2; omega⟩) j
  unfold Cert.Stage.takeU
  refine (select_apply _ _ _ j).trans ?_
  rw [hc]
  exact select_one _ _

/-- The items' lookup: with every requested index in [0, 50000), the guarded lookup is the gather. -/
theorem takeI_eq (P1 : FVec F S50000x64 .f32) (u : IVec S16384 32)
    (hu : ∀ i : S16384.Idx, 0 ≤ (u i).toInt ∧ (u i).toInt < 50000) :
    Cert.Stage.takeI P1 (Cert.Stage.qcol 50000#32 u) = Cert.Stage.rowsI P1 (Cert.Stage.qcol 50000#32 u) := by
  funext j
  have hc : Cert.Stage.inRange 49999#32 (Cert.Stage.qcol 50000#32 u) j = 1#1 :=
    inRange_qcol 50000 49999 (by norm_num) u (fun i => ⟨(hu i).1, by have := (hu i).2; omega⟩) j
  unfold Cert.Stage.takeI
  refine (select_apply _ _ _ j).trans ?_
  rw [hc]
  exact select_one _ _

end Cert.Bridge

end
-- ==== Proof.Bridge.lean ====
/-
  The two programs' results are equal once the requested user and item indices are in range.

  Layer by layer: the kernel program's messages equal the reference's (the factor dinv(src) folded into the product
  rows commutes out of the gather and re-associates), so the aggregations agree; the reference's whole-array layer is the
  row-wise normalise–rectify–residual map the fused kernels apply, so the node states agree; the same again for the
  second layer and the projection; and with the indices in range the kernel program's guarded row lookup is the
  reference's plain row gather, so the scores agree.
-/
import proofs.«405038_j14748917694873_3_alg».proof.Proof.Results
import proofs.«405038_j14748917694873_3_alg».proof.Proof.MsgEq
import proofs.«405038_j14748917694873_3_alg».proof.Proof.RefLayers
import proofs.«405038_j14748917694873_3_alg».proof.Proof.TakeEq

noncomputable section

namespace Cert.Bridge

open Idealize.ShloMosaic Cert.KernelIdeal Cert.Stage Cert.Results

variable (users items : IVec S16384 32) (ei : IVec S2x3200000 32) (w : FVec Ideal S3200000 .f32)
  (U : FVec Ideal S100000x64 .f32) (I : FVec Ideal S50000x64 .f32)
  (W0 : FVec Ideal S64x64 .f32) (b0 g0 be0 : FVec Ideal S64 .f32) (W1 : FVec Ideal S64x64 .f32) (b1 g1 be1 : FVec Ideal S64 .f32)
  (Wp : FVec Ideal S64x64 .f32) (bp : FVec Ideal S64 .f32) (bu : FVec Ideal S100000 .f32) (bi : FVec Ideal S50000 .f32) (mu : FVec Ideal S_ .f32)

/-- The first aggregations agree: equal messages summed at the same destinations. -/
theorem agg0_eq : kAgg0 ei w U I W0 = rAgg0 (F := Ideal) ei w U I W0 := by
  unfold kAgg0 rAgg0 kFac kHW0 rNorm
  rw [msg_eq, dotR_eq]

/-- The node states after layer 0 agree. -/
theorem h0_eq : kH0 ei w U I W0 b0 g0 be0 = rH0 (F := Ideal) ei w U I W0 b0 g0 be0 := by
  unfold kH0 rH0
  rw [agg0_eq, lnHost_eq]

/-- The second aggregations agree. -/
theorem agg1_eq : kAgg1 ei w U I W0 b0 g0 be0 W1 = rAgg1 (F := Ideal) ei w U I W0 b0 g0 be0 W1 := by
  unfold kAgg1 rAgg1 kFac kHW1 rNorm
  rw [msg_eq, dotR_eq, h0_eq]

/-- The projected tables agree. -/
theorem proj_eq : kProj ei w U I W0 b0 g0 be0 W1 b1 g1 be1 Wp bp = rProj (F := Ideal) ei w U I W0 b0 g0 be0 W1 b1 g1 be1 Wp bp := by
  unfold kProj rProj
  rw [agg1_eq, h0_eq, projR_eq, lnHost_eq]

/-- The scores agree when every requested user index is in 0 … 99999 and every requested item index in 0 … 49999. -/
theorem res_eq (hu : ∀ i : S16384.Idx, 0 ≤ (users i).toInt ∧ (users i).toInt < 100000)
    (hi : ∀ i : S16384.Idx, 0 ≤ (items i).toInt ∧ (items i).toInt < 50000) :
    kRes users items ei w U I W0 b0 g0 be0 W1 b1 g1 be1 Wp bp bu bi mu
      = rRes (F := Ideal) users items ei w U I W0 b0 g0 be0 W1 b1 g1 be1 Wp bp bu bi mu := by
  unfold kRes rRes
  rw [takeU_eq _ _ hu, takeI_eq _ _ hi, proj_eq]

end Cert.Bridge

end
-- ==== Proof.lean ====
/-
  Two-layer graph convolution with layer normalisation, residuals and a projection, scoring (user, item) pairs:
  three fused kernels with the edge gather / scatter on the host, against the reference's whole-array program.

  Over the extended reals the two programs compute the same scores whenever the requested user indices lie in
  0 … 99999 and the item indices in 0 … 49999 (the precondition's two index conjuncts; outside them the kernel program's
  row lookup fills with a not-a-number value where the reference's gather clamps).  The reference weighs edge e by
  dinv(src e) · w e · dinv(dst e); the kernel program scales the product rows by dinv beforehand and weighs the edge by
  w e · dinv(dst e): the same messages, by commutativity and associativity of the product alone.  The fused kernels'
  row-wise normalise–rectify–residual maps and matrix products are the reference's whole-array operations read row by
  row; format changes to and from bf16 are the identity here.  No float input needs to be finite for any of this.

  The frames of the two kernel programs are the generated ones; the reference's is its run with the result dropped.
  The idealisation rewrote nothing, so `preserves` is trivial.
-/
import proofs.«405038_j14748917694873_3_alg».proof.Defs
import proofs.«405038_j14748917694873_3_alg».proof.Proof.Gen.Kernel
import proofs.«405038_j14748917694873_3_alg».proof.Proof.Gen.Kernel.Skeleton
import proofs.«405038_j14748917694873_3_alg».proof.Proof.Gen.Kernel.Launch
import proofs.«405038_j14748917694873_3_alg».proof.Proof.Gen.Kernel.Points
import proofs.«405038_j14748917694873_3_alg».proof.Proof.Gen.Kernel.Frame
import proofs.«405038_j14748917694873_3_alg».proof.Proof.Gen.KernelIdeal
import proofs.«405038_j14748917694873_3_alg».proof.Proof.Gen.KernelIdeal.Skeleton
import proofs.«405038_j14748917694873_3_alg».proof.Proof.Gen.KernelIdeal.Launch
import proofs.«405038_j14748917694873_3_alg».proof.Proof.Gen.KernelIdeal.Points
import proofs.«405038_j14748917694873_3_alg».proof.Proof.Gen.KernelIdeal.Frame
import proofs.«405038_j14748917694873_3_alg».proof.Proof.Gen.ReferenceIdeal
import proofs.«405038_j14748917694873_3_alg».proof.Proof.Gen.Pre_finite_inputs
import proofs.«405038_j14748917694873_3_alg».proof.Proof.KRun
import proofs.«405038_j14748917694873_3_alg».proof.Proof.RefOps
import proofs.«405038_j14748917694873_3_alg».proof.Proof.Reg0
import proofs.«405038_j14748917694873_3_alg».proof.Proof.Reg1
import proofs.«405038_j14748917694873_3_alg».proof.Proof.Reg2
import proofs.«405038_j14748917694873_3_alg».proof.Proof.KTail
import proofs.«405038_j14748917694873_3_alg».proof.Proof.KWalk
import proofs.«405038_j14748917694873_3_alg».proof.Proof.RFrame
import proofs.«405038_j14748917694873_3_alg».proof.Proof.RWalk
import proofs.«405038_j14748917694873_3_alg».proof.Proof.PreDecode
import proofs.«405038_j14748917694873_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and keeps its arguments: its run with the result conjunct dropped. -/
theorem frame_ri : Cert.frame_ReferenceIdeal := fun m ρ _ =>
  (θ_run Cert.ReferenceIdeal.defs _ _).mono (fun _ h c => (h c).2) (Cert.ReferenceIdeal.Walk.run (F := Ideal) m ρ)

/-- From memories agreeing on the arguments both programs end with the same scores: the kernel program's result buffer is
    the function `kRes` of its arguments, the reference's the function `rRes` of its own, and the two functions agree on
    arguments whose user and item indices are in range, which the precondition says. -/
theorem algebraic : Cert.algebraic_KernelIdeal_ReferenceIdeal := by
  intro m ρ m' ρ' hpre hagree
  refine ⟨fun c => Cert.Results.kRes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · refine (θ_run Cert.KernelIdeal.defs _ _).mono (fun r h c => ?_) (Cert.KernelIdeal.Gen.run_fold (F := Ideal) m ρ)
    exact ⟨(h c).1.trans (Cert.KernelIdeal.Walk.result Cert.KernelIdeal.Reg0.final Cert.KernelIdeal.Reg1.final7 Cert.KernelIdeal.Reg1.final8
      Cert.KernelIdeal.Reg2.final7 (fun V => Cert.KernelIdeal.Walk.tail V) m ρ c), (h c).2⟩
  · refine (θ_run Cert.ReferenceIdeal.defs _ _).mono (fun r h c => ⟨?_, (h c).2⟩) (Cert.ReferenceIdeal.Walk.run (F := Ideal) m' ρ')
    rw [(h c).1, Cert.ReferenceIdeal.Walk.result m' c]
    obtain ⟨e0, e1, e2, e3, e4, e5, e6, e7, e8, e9, e10, e11, e12, e13, e14, e15, e16, e17, e18⟩ := hagree c
    rw [e0, e1, e2, e3, e4, e5, e6, e7, e8, e9, e10, e11, e12, e13, e14, e15, e16, e17, e18]
    exact (Cert.Bridge.res_eq _ _ _ _ _ _ _ _ _ _ _ _ _ _ _ _ _ _ _
      (fun i => Cert.PreDecode.users_range m hpre c i) (fun i => Cert.PreDecode.items_range m hpre c i)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
